-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x10 : Shape := ⟨3, ![8, 262144, 10]⟩
abbrev S8x262144x7 : Shape := ⟨3, ![8, 262144, 7]⟩
abbrev S8x128x7 : Shape := ⟨3, ![8, 128, 7]⟩
abbrev S8x128 : Shape := ⟨2, ![8, 128]⟩
abbrev S_ : Shape := ⟨0, ![]⟩

class Facts : Prop where
  bcast_S_S8x262144x10 : S_.BroadcastsInDim S8x262144x10 (![] : Fin 0 → Fin S8x262144x10.rank)
  reducesTo_S8x262144x10_S_d0_1_2 : S8x262144x10.ReducesTo [0, 1, 2] S_
  h_S_ : 0 < S_.numel
  bcast_S_S8x262144x7 : S_.BroadcastsInDim S8x262144x7 (![] : Fin 0 → Fin S8x262144x7.rank)
  reducesTo_S8x262144x7_S_d0_1_2 : S8x262144x7.ReducesTo [0, 1, 2] S_
  bcast_S_S8x128x7 : S_.BroadcastsInDim S8x128x7 (![] : Fin 0 → Fin S8x128x7.rank)
  reducesTo_S8x128x7_S_d0_1_2 : S8x128x7.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg3 : IVec S8x128 32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_c_6 : IVec S_ 32 := constantI S_ 32 10#32
  let main_v19 : IVec S8x128 32 := broadcastInDim S8x128 ![] bcast_S_S8x128 main_c_6
  let main_v20 : IVec S8x128 1 := cmpi .slt main_arg3 main_v19
  let main_c_7 : IVec S_ 1 := constantI S_ 1 1#1
  let main_v21 : IVec S_ 1 := (fun x v => Host.reduce IntOp.andi x v reducesTo_S8x128_S_d0_1 h_S_) main_v20 main_c_7
  let main_v22 : IVec S_ 1 := andi main_v18 main_v21
  main_v22

def fn {F : FTy → Type} [FloatOps F] (main_arg0 : FVec F S8x262144x10 .f32) (main_arg1 : FVec F S8x262144x7 .f32) (main_arg2 : FVec F S8x128x7 .f32) (main_arg3 : IVec S8x128 32) (main_arg4 : FVec F S8x128 .f32) : IVec S_ 1 :=
  let main_v0 : FVec F S8x262144x10 .f32 := Host.absf main_arg0
  let main_cst : FVec F S_ .f32 := constant S_ .f32 0x7F800000#32
  let main_v1 : FVec F S8x262144x10 .f32 := broadcastInDim S8x262144x10 ![] bcast_S_S8x262144x10 main_cst
  let main_v2 : IVec S8x262144x10 1 := cmpf .olt main_v0 main_v1
  let main_c : IVec S_ 1 := constantI S_ 1 1#1
  let main_v3 : IVec S_ 1 := (fun x v => Host.reduce IntOp.andi x v reducesTo_S8x262144x10_S_d0_1_2 h_S_) main_v2 main_c
  let main_v4 : FVec F S8x262144x7 .f32 := Host.absf main_arg1
  let main_cst_0 : FVec F S_ .f32 := constant S_ .f32 0x7F800000#32
  let main_v5 : FVec F S8x262144x7 .f32 := broadcastInDim S8x262144x7 ![] bcast_S_S8x262144x7 main_cst_0
  let main_v6 : IVec S8x262144x7 1 := cmpf .olt main_v4 main_v5
  let main_c_1 : IVec S_ 1 := constantI S_ 1 1#1
  let main_v7 : IVec S_ 1 := (fun x v => Host.reduce IntOp.andi x v reducesTo_S8x262144x7_S_d0_1_2 h_S_) main_v6 main_c_1
  let main_v8 : IVec S_ 1 := andi main_v3 main_v7
  let main_v9 : FVec F S8x128x7 .f32 := Host.absf main_arg2
  let main_cst_2 : FVec F S_ .f32 := constant S_ .f32 0x7F800000#32
  let main_v10 : FVec F S8x128x7 .f32 := broadcastInDim S8x128x7 ![] bcast_S_S8x128x7 main_cst_2
  let main_v11 : IVec S8x128x7 1 := cmpf .olt main_v9 main_v10
  let main_c_3 : IVec S_ 1 := constantI S_ 1 1#1
  let main_v12 : IVec S_ 1 := (fun x v => Host.reduce IntOp.andi x v reducesTo_S8x128x7_S_d0_1_2 h_S_) main_v11 main_c_3
  let main_v13 : IVec S_ 1 := andi main_v8 main_v12
  let main_v14 : FVec F S8x128 .f32 := Host.absf main_arg4
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg3 main_v13 main_v16
-- ==== Kernel.lean ====
abbrev S8x262144x10 : Shape := ⟨3, ![8, 262144, 10]⟩
abbrev S8x262144x7 : Shape := ⟨3, ![8, 262144, 7]⟩
abbrev S8x128x7 : Shape := ⟨3, ![8, 128, 7]⟩
abbrev S8x128 : Shape := ⟨2, ![8, 128]⟩
abbrev S8x128x1 : Shape := ⟨3, ![8, 128, 1]⟩
abbrev S_ : Shape := ⟨0, ![]⟩
abbrev S8x1x128 : Shape := ⟨3, ![8, 1, 128]⟩
abbrev S128 : Shape := ⟨1, ![128]⟩
abbrev S1x1x128 : Shape := ⟨3, ![1, 1, 128]⟩
abbrev S8x128x128 : Shape := ⟨3, ![8, 128, 128]⟩
abbrev S1x128 : Shape := ⟨2, ![1, 128]⟩
abbrev S163840x128 : Shape := ⟨2, ![163840, 128]⟩
abbrev S160x128 : Shape := ⟨2, ![160, 128]⟩
abbrev S8192x128 : Shape := ⟨2, ![8192, 128]⟩
abbrev S8 : Shape := ⟨1, ![8]⟩
abbrev S8x1 : Shape := ⟨2, ![8, 1]⟩
abbrev S8x128x3 : Shape := ⟨3, ![8, 128, 3]⟩
abbrev S8x128x2 : Shape := ⟨3, ![8, 128, 2]⟩
abbrev S1 : Shape := ⟨1, ![1]⟩
abbrev S3 : Shape := ⟨1, ![3]⟩

abbrev nBuf : Space → Nat
  | .hbm => 204
  | .vmem => 4
  | .smem => 0
  | _ => 0

abbrev hbmTy0_0 (i : Nat) : BufTy := match i % 128 with
  | 0 => ⟨S8x262144x10, .f32⟩
  | 1 => ⟨S8x262144x7, .f32⟩
  | 2 => ⟨S8x128x7, .f32⟩
  | 3 => ⟨S8x128, .i32⟩
  | 4 => ⟨S8x128, .f32⟩
  | 5 => ⟨S8x128x1, .f32⟩
  | 6 => ⟨S8x128, .f32⟩
  | 7 => ⟨S8x128x1, .f32⟩
  | 8 => ⟨S8x128, .f32⟩
  | 9 => ⟨S_, .f32⟩
  | 10 => ⟨S8x128, .f32⟩
  | 11 => ⟨S8x128, .i1⟩
  | 12 => ⟨S_, .i32⟩
  | 13 => ⟨S8x128, .i32⟩
  | 14 => ⟨S8x128, .i1⟩
  | 15 => ⟨S8x128, .i1⟩
  | 16 => ⟨S_, .f32⟩
  | 17 => ⟨S8x128, .f32⟩
  | 18 => ⟨S8x128, .i1⟩
  | 19 => ⟨S8x128, .i1⟩
  | 20 => ⟨S_, .f32⟩
  | 21 => ⟨S8x128, .f32⟩
  | 22 => ⟨S8x128, .i1⟩
  | 23 => ⟨S8x128, .i1⟩
  | 24 => ⟨S_, .f32⟩
  | 25 => ⟨S8x128, .f32⟩
  | 26 => ⟨S8x128, .i1⟩
  | 27 => ⟨S8x128, .i1⟩
  | 28 => ⟨S_, .f32⟩
  | 29 => ⟨S8x128, .f32⟩
  | 30 => ⟨S8x128, .i1⟩
  | 31 => ⟨S8x128, .i1⟩
  | 32 => ⟨S_, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S8x128, .i32⟩
  | 39 => ⟨S_, .i32⟩
  | 40 => ⟨S_, .i32⟩
  | 41 => ⟨S_, .i32⟩
  | 42 => ⟨S8x128, .i32⟩
  | 43 => ⟨S8x128, .i32⟩
  | 44 => ⟨S_, .i32⟩
  | 45 => ⟨S8x128, .i32⟩
  | 46 => ⟨S8x128, .i32⟩
  | 47 => ⟨S_, .f32⟩
  | 48 => ⟨S8x128, .f32⟩
  | 49 => ⟨S8x128, .f32⟩
  | 50 => ⟨S_, .f32⟩
  | 51 => ⟨S8x128, .f32⟩
  | 52 => ⟨S8x128, .f32⟩
  | 53 => ⟨S8x128, .i32⟩
  | 54 => ⟨S_, .i32⟩
  | 55 => ⟨S_, .i32⟩
  | 56 => ⟨S_, .i32⟩
  | 57 => ⟨S8x128, .i32⟩
  | 58 => ⟨S8x128, .i32⟩
  | 59 => ⟨S_, .i32⟩
  | 60 => ⟨S8x128, .i32⟩
  | 61 => ⟨S8x128, .i32⟩
  | 62 => ⟨S_, .i32⟩
  | 63 => ⟨S8x128, .i32⟩
  | 64 => ⟨S8x128, .i32⟩
  | 65 => ⟨S8x128, .i32⟩
  | 66 => ⟨S_, .i32⟩
  | 67 => ⟨S_, .i32⟩
  | 68 => ⟨S8x128, .i32⟩
  | 69 => ⟨S8x128, .i32⟩
  | 70 => ⟨S_, .i32⟩
  | 71 => ⟨S8x128, .i32⟩
  | 72 => ⟨S8x128, .i32⟩
  | 73 => ⟨S8x128x1, .i32⟩
  | 74 => ⟨S8x1x128, .i32⟩
  | 75 => ⟨S8x128x1, .i32⟩
  | 76 => ⟨S8x1x128, .i32⟩
  | 77 => ⟨S8x1x128, .i1⟩
  | 78 => ⟨S128, .i32⟩
  | 79 => ⟨S1x1x128, .i32⟩
  | 80 => ⟨S8x128x128, .i32⟩
  | 81 => ⟨S8x128x128, .i32⟩
  | 82 => ⟨S8x128x128, .i1⟩
  | 83 => ⟨S8x128x128, .i1⟩
  | 84 => ⟨S8x128x128, .i1⟩
  | 85 => ⟨S8x128x128, .i32⟩
  | 86 => ⟨S8x128x128, .i32⟩
  | 87 => ⟨S8x128x128, .i1⟩
  | 88 => ⟨S8x128x128, .i1⟩
  | 89 => ⟨S_, .i32⟩
  | 90 => ⟨S_, .i32⟩
  | 91 => ⟨S8x128x128, .i32⟩
  | 92 => ⟨S8x128x128, .i32⟩
  | 93 => ⟨S8x128x128, .i32⟩
  | 94 => ⟨S_, .i32⟩
  | 95 => ⟨S8x128, .i32⟩
  | 96 => ⟨S_, .i32⟩
  | 97 => ⟨S_, .i32⟩
  | 98 => ⟨S8x128x128, .i32⟩
  | 99 => ⟨S8x128x128, .i32⟩
  | 100 => ⟨S8x128x128, .i32⟩
  | 101 => ⟨S_, .i32⟩
  | 102 => ⟨S8x128, .i32⟩
  | 103 => ⟨S128, .i32⟩
  | 104 => ⟨S1x128, .i32⟩
  | 105 => ⟨S8x128, .i32⟩
  | 106 => ⟨S8x128, .i1⟩
  | 107 => ⟨S8x128, .i1⟩
  | 108 => ⟨S8x128, .i32⟩
  | 109 => ⟨S8x128, .i1⟩
  | 110 => ⟨S8x128, .i1⟩
  | 111 => ⟨S163840x128, .f32⟩
  | 112 => ⟨S160x128, .f32⟩
  | 113 => ⟨S_, .f32⟩
  | 114 => ⟨S_, .f32⟩
  | 115 => ⟨S8, .i32⟩
  | 116 => ⟨S8x1, .i32⟩
  | 117 => ⟨S8x128, .i32⟩
  | 118 => ⟨S_, .i32⟩
  | 119 => ⟨S8x128, .i32⟩
  | 120 => ⟨S8x128, .i1⟩
  | 121 => ⟨S_, .i32⟩
  | 122 => ⟨S8x128, .i32⟩
  | 123 => ⟨S8x128, .i32⟩
  | 124 => ⟨S8x128, .i32⟩
  | 125 => ⟨S_, .i32⟩
  | 126 => ⟨S8x128, .i32⟩
  | 127 => ⟨S8x128, .i1⟩
  | _ => ⟨S8x262144x10, .f32⟩

abbrev hbmTy0_1 (i : Nat) : BufTy := match i % 128 with
  | 0 => ⟨S_, .i32⟩
  | 1 => ⟨S8x128, .i32⟩
  | 2 => ⟨S8x128, .i32⟩
  | 3 => ⟨S8x128, .i32⟩
  | 4 => ⟨S_, .i32⟩
  | 5 => ⟨S8x128, .i32⟩
  | 6 => ⟨S8x128, .i1⟩
  | 7 => ⟨S_, .i32⟩
  | 8 => ⟨S8x128, .i32⟩
  | 9 => ⟨S8x128, .i32⟩
  | 10 => ⟨S8x128, .i32⟩
  | 11 => ⟨S8x128x1, .i32⟩
  | 12 => ⟨S8x128x1, .i32⟩
  | 13 => ⟨S8x128x1, .i32⟩
  | 14 => ⟨S8x128x3, .i32⟩
  | 15 => ⟨S8x128, .f32⟩
  | 16 => ⟨S_, .f32⟩
  | 17 => ⟨S_, .f32⟩
  | 18 => ⟨S8x128, .f32⟩
  | 19 => ⟨S8x128, .f32⟩
  | 20 => ⟨S_, .f32⟩
  | 21 => ⟨S_, .f32⟩
  | 22 => ⟨S_, .f32⟩
  | 23 => ⟨S_, .f32⟩
  | 24 => ⟨S_, .f32⟩
  | 25 => ⟨S_, .i32⟩
  | 26 => ⟨S8x128, .i32⟩
  | 27 => ⟨S8x128, .i1⟩
  | 28 => ⟨S_, .i32⟩
  | 29 => ⟨S8x128, .i32⟩
  | 30 => ⟨S8x128, .i32⟩
  | 31 => ⟨S8x128, .i32⟩
  | 32 => ⟨S_, .i32⟩
  | 33 => ⟨S8x128, .i32⟩
  | 34 => ⟨S8x128, .i1⟩
  | 35 => ⟨S_, .i32⟩
  | 36 => ⟨S8x128, .i32⟩
  | 37 => ⟨S8x128, .i32⟩
  | 38 => ⟨S8x128, .i32⟩
  | 39 => ⟨S8x128x1, .i32⟩
  | 40 => ⟨S8x128x1, .i32⟩
  | 41 => ⟨S8x128x2, .i32⟩
  | 42 => ⟨S8x128x7, .f32⟩
  | 43 => ⟨S8x128x7, .f32⟩
  | 44 => ⟨S8x128x7, .f32⟩
  | 45 => ⟨S_, .f32⟩
  | 46 => ⟨S8x128x7, .f32⟩
  | 47 => ⟨S8x128x7, .i1⟩
  | 48 => ⟨S_, .f32⟩
  | 49 => ⟨S8x128x7, .f32⟩
  | 50 => ⟨S8x128x7, .f32⟩
  | 51 => ⟨S8x128x7, .f32⟩
  | 52 => ⟨S_, .f32⟩
  | 53 => ⟨S8x128x7, .f32⟩
  | 54 => ⟨S8x128x7, .f32⟩
  | 55 => ⟨S8x128x7, .f32⟩
  | 56 => ⟨S_, .f32⟩
  | 57 => ⟨S8x128, .f32⟩
  | 58 => ⟨S8x128, .f32⟩
  | 59 => ⟨S8x128, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S1, .f32⟩
  | 75 => ⟨S3, .f32⟩
  | _ => ⟨S8x262144x10, .f32⟩

abbrev hbmTy (i : Nat) : BufTy := match i / 128 with
  | 0 => hbmTy0_0 i
  | 1 => hbmTy0_1 i
  | _ => ⟨S8x262144x10, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8x128, .f32⟩
  | .local _ .vmem, ⟨3, _⟩ => ⟨S8x128, .f32⟩
  | _, _ => ⟨S8x262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_c_7 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_c_11 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_13 : Ref sig .tc := ⟨.hbm, 66, rfl⟩
abbrev main_call2_v0 : Ref sig .tc := ⟨.hbm, 67, rfl⟩
abbrev main_call2_v1 : Ref sig .tc := ⟨.hbm, 68, rfl⟩
abbrev main_v36 : Ref sig .tc := ⟨.hbm, 69, rfl⟩
abbrev main_c_14 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_15 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v55 : Ref sig .tc := ⟨.hbm, 93, rfl⟩
abbrev main_c_16 : Ref sig .tc := ⟨.hbm, 94, rfl⟩
abbrev main_v56 : Ref sig .tc := ⟨.hbm, 95, rfl⟩
abbrev main_c_17 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v57 : Ref sig .tc := ⟨.hbm, 100, rfl⟩
abbrev main_c_18 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_19 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_20 : Ref sig .tc := ⟨.hbm, 118, rfl⟩
abbrev main_v73 : Ref sig .tc := ⟨.hbm, 119, rfl⟩
abbrev main_v74 : Ref sig .tc := ⟨.hbm, 120, rfl⟩
abbrev main_c_21 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_22 : Ref sig .tc := ⟨.hbm, 125, rfl⟩
abbrev main_v78 : Ref sig .tc := ⟨.hbm, 126, rfl⟩
abbrev main_v79 : Ref sig .tc := ⟨.hbm, 127, rfl⟩
abbrev main_c_23 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_24 : Ref sig .tc := ⟨.hbm, 132, rfl⟩
abbrev main_v83 : Ref sig .tc := ⟨.hbm, 133, rfl⟩
abbrev main_v84 : Ref sig .tc := ⟨.hbm, 134, rfl⟩
abbrev main_c_25 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_26 : Ref sig .tc := ⟨.hbm, 144, rfl⟩
abbrev main_call5_v0 : Ref sig .tc := ⟨.hbm, 145, rfl⟩
abbrev main_call5_v1 : Ref sig .tc := ⟨.hbm, 146, rfl⟩
abbrev main_v93 : Ref sig .tc := ⟨.hbm, 147, rfl⟩
abbrev main_cst_27 : Ref sig .tc := ⟨.hbm, 148, rfl⟩
abbrev main_v94 : Ref sig .tc := ⟨.hbm, 149, rfl⟩
abbrev main_v95 : Ref sig .tc := ⟨.hbm, 150, rfl⟩
abbrev main_cst_28 : Ref sig .tc := ⟨.hbm, 151, rfl⟩
abbrev main_v96 : Ref sig .tc := ⟨.hbm, 152, rfl⟩
abbrev main_c_29 : Ref sig .tc := ⟨.hbm, 153, rfl⟩
abbrev main_v97 : Ref sig .tc := ⟨.hbm, 154, rfl⟩
abbrev main_v98 : Ref sig .tc := ⟨.hbm, 155, rfl⟩
abbrev main_c_30 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_31 : Ref sig .tc := ⟨.hbm, 160, rfl⟩
abbrev main_v102 : Ref sig .tc := ⟨.hbm, 161, rfl⟩
abbrev main_v103 : Ref sig .tc := ⟨.hbm, 162, rfl⟩
abbrev main_c_32 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_33 : Ref sig .tc := ⟨.hbm, 173, rfl⟩
abbrev main_v113 : Ref sig .tc := ⟨.hbm, 174, rfl⟩
abbrev main_v114 : Ref sig .tc := ⟨.hbm, 175, rfl⟩
abbrev main_cst_34 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_cst_35 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_36 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_37 : Ref sig .tc := ⟨.hbm, 188, rfl⟩
abbrev main_v124 : Ref sig .tc := ⟨.hbm, 189, rfl⟩
abbrev main_cst_38 : Ref sig .tc := ⟨.hbm, 190, rfl⟩
abbrev main_v125 : Ref sig .tc := ⟨.hbm, 191, rfl⟩
abbrev main_cst_39 : Ref sig .tc := ⟨.hbm, 192, rfl⟩
abbrev main_v126 : Ref sig .tc := ⟨.hbm, 193, rfl⟩
abbrev main_v127 : Ref sig .tc := ⟨.hbm, 194, rfl⟩
abbrev main_cst_40 : Ref sig .tc := ⟨.hbm, 195, rfl⟩
abbrev main_v128 : Ref sig .tc := ⟨.hbm, 196, rfl⟩
abbrev main_cst_41 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S8x128x7_S8x128x1_0_0_0 : S8x128x7.Slices ![0, 0, 0] S8x128x1
  shapeCasts_S8x128x1_S8x128 : S8x128x1.ShapeCasts S8x128
  slices_S8x128x7_S8x128x1_0_0_1 : S8x128x7.Slices ![0, 0, 1] S8x128x1
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128_S8x1x128_0_2 : S8x128.BroadcastsInDim S8x1x128 (![0, 2] : Fin 2 → Fin S8x1x128.rank)
  bcast_S128_S1x1x128_2 : S128.BroadcastsInDim S1x1x128 (![2] : Fin 1 → Fin S1x1x128.rank)
  bcast_S8x128x1_S8x128x128_0_1_2 : S8x128x1.BroadcastsInDim S8x128x128 (![0, 1, 2] : Fin 3 → Fin S8x128x128.rank)
  bcast_S8x1x128_S8x128x128_0_1_2 : S8x1x128.BroadcastsInDim S8x128x128 (![0, 1, 2] : Fin 3 → Fin S8x128x128.rank)
  bcast_S1x1x128_S8x128x128_0_1_2 : S1x1x128.BroadcastsInDim S8x128x128 (![0, 1, 2] : Fin 3 → Fin S8x128x128.rank)
  bcast_S_S8x128x128 : S_.BroadcastsInDim S8x128x128 (![] : Fin 0 → Fin S8x128x128.rank)
  reducesTo_S8x128x128_S8x128_d2 : S8x128x128.ReducesTo [2] S8x128
  h_S_ : 0 < S_.numel
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  shapeCasts_S8x262144x10_S163840x128 : S8x262144x10.ShapeCasts S163840x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S_d0_1 : S160x128.ReducesTo [0, 1] S_
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  concatenates_S8x128x1_S8x128x1_S8x128x1_S8x128x3_d2 : Shape.Concatenates [S8x128x1, S8x128x1, S8x128x1] S8x128x3 2
  reducesTo_S8x128_S_d0_1 : S8x128.ReducesTo [0, 1] S_
  concatenates_S8x128x1_S8x128x1_S8x128x2_d2 : Shape.Concatenates [S8x128x1, S8x128x1] S8x128x2 2
  bcast_S_S8x128x7 : S_.BroadcastsInDim S8x128x7 (![] : Fin 0 → Fin S8x128x7.rank)
  reducesTo_S8x128x7_S8x128_d2 : S8x128x7.ReducesTo [2] S8x128
  bcast_S_S1 : S_.BroadcastsInDim S1 (![] : Fin 0 → Fin S1.rank)
  concatenates_S1_S1_S1_S3_d0 : Shape.Concatenates [S1, S1, S1] S3 0
  gather_S8x262144x10_S8x128x3_S8x128_n_012_n_n_012_2_111_wf : GatherDims.WF S8x262144x10 S8x128x3 S8x128 [] [0, 1, 2] [] [0, 1, 2] [] 2 ![1, 1, 1]
  gather_S8x262144x7_S8x128x2_S8x128x7_2_01_n_n_01_2_117_wf : GatherDims.WF S8x262144x7 S8x128x2 S8x128x7 [2] [0, 1] [] [0, 1] [] 2 ![1, 1, 7]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S163840x128.size a
  hwx0_0 : ∀ i : grid0.Coords, EltTy.bits .f32 = 32 ∨ (Rect.block (s := S163840x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S160x128.size a
  hwx0_1 : ∀ i : grid0.Coords, EltTy.bits .f32 = 32 ∨ (Rect.block (s := S160x128) S8x128.size (cc0_transform_1 i) (hinb0_1 i)).WholeWords (EltTy.packing .f32)

variable [Facts₀]

def gather_S8x262144x10_S8x128x3_S8x128_n_012_n_n_012_2_111 : GatherDims S8x262144x10 S8x128x3 S8x128 where
  offsetDims := []
  collapsedSliceDims := [0, 1, 2]
  operandBatchingDims := []
  startIndicesBatchingDims := []
  startIndexMap := [0, 1, 2]
  indexVectorDim := 2
  sliceSizes := ![1, 1, 1]
  wf := gather_S8x262144x10_S8x128x3_S8x128_n_012_n_n_012_2_111_wf
def gather_S8x262144x7_S8x128x2_S8x128x7_2_01_n_n_01_2_117 : GatherDims S8x262144x7 S8x128x2 S8x128x7 where
  offsetDims := [2]
  collapsedSliceDims := [0, 1]
  operandBatchingDims := []
  startIndicesBatchingDims := []
  startIndexMap := [0, 1]
  indexVectorDim := 2
  sliceSizes := ![1, 1, 7]
  wf := gather_S8x262144x7_S8x128x2_S8x128x7_2_01_n_n_01_2_117_wf

abbrev win0_0 : Pipeline.Window sig grid0 :=
  Pipeline.Window.ofSpec (Memref.whole main_v67) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x262144x10 : Shape := ⟨3, ![8, 262144, 10]⟩
abbrev S8x262144x7 : Shape := ⟨3, ![8, 262144, 7]⟩
abbrev S8x128x7 : Shape := ⟨3, ![8, 128, 7]⟩
abbrev S8x128 : Shape := ⟨2, ![8, 128]⟩
abbrev S8x128x1 : Shape := ⟨3, ![8, 128, 1]⟩
abbrev S_ : Shape := ⟨0, ![]⟩
abbrev S8 : Shape := ⟨1, ![8]⟩
abbrev S8x1 : Shape := ⟨2, ![8, 1]⟩
abbrev S8x128x3 : Shape := ⟨3, ![8, 128, 3]⟩
abbrev S8x128x2 : Shape := ⟨3, ![8, 128, 2]⟩
abbrev S8x262144 : Shape := ⟨2, ![8, 262144]⟩
abbrev S1 : Shape := ⟨1, ![1]⟩
abbrev S3 : Shape := ⟨1, ![3]⟩

abbrev nBuf : Space → Nat
  | .hbm => 197
  | .vmem => 0
  | .smem => 0
  | _ => 0

abbrev hbmTy0_0 (i : Nat) : BufTy := match i % 128 with
  | 0 => ⟨S8x262144x10, .f32⟩
  | 1 => ⟨S8x262144x7, .f32⟩
  | 2 => ⟨S8x128x7, .f32⟩
  | 3 => ⟨S8x128, .i32⟩
  | 4 => ⟨S8x128, .f32⟩
  | 5 => ⟨S8x128x1, .f32⟩
  | 6 => ⟨S8x128, .f32⟩
  | 7 => ⟨S8x128x1, .f32⟩
  | 8 => ⟨S8x128, .f32⟩
  | 9 => ⟨S_, .f32⟩
  | 10 => ⟨S8x128, .f32⟩
  | 11 => ⟨S8x128, .i1⟩
  | 12 => ⟨S_, .i32⟩
  | 13 => ⟨S8x128, .i32⟩
  | 14 => ⟨S8x128, .i1⟩
  | 15 => ⟨S8x128, .i1⟩
  | 16 => ⟨S_, .f32⟩
  | 17 => ⟨S8x128, .f32⟩
  | 18 => ⟨S8x128, .i1⟩
  | 19 => ⟨S8x128, .i1⟩
  | 20 => ⟨S_, .f32⟩
  | 21 => ⟨S8x128, .f32⟩
  | 22 => ⟨S8x128, .i1⟩
  | 23 => ⟨S8x128, .i1⟩
  | 24 => ⟨S_, .f32⟩
  | 25 => ⟨S8x128, .f32⟩
  | 26 => ⟨S8x128, .i1⟩
  | 27 => ⟨S8x128, .i1⟩
  | 28 => ⟨S_, .f32⟩
  | 29 => ⟨S8x128, .f32⟩
  | 30 => ⟨S8x128, .i1⟩
  | 31 => ⟨S8x128, .i1⟩
  | 32 => ⟨S_, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S8x128, .i32⟩
  | 39 => ⟨S_, .i32⟩
  | 40 => ⟨S_, .i32⟩
  | 41 => ⟨S_, .i32⟩
  | 42 => ⟨S8x128, .i32⟩
  | 43 => ⟨S8x128, .i32⟩
  | 44 => ⟨S_, .i32⟩
  | 45 => ⟨S8x128, .i32⟩
  | 46 => ⟨S8x128, .i32⟩
  | 47 => ⟨S_, .f32⟩
  | 48 => ⟨S8x128, .f32⟩
  | 49 => ⟨S8x128, .f32⟩
  | 50 => ⟨S_, .f32⟩
  | 51 => ⟨S8x128, .f32⟩
  | 52 => ⟨S8x128, .f32⟩
  | 53 => ⟨S8x128, .i32⟩
  | 54 => ⟨S_, .i32⟩
  | 55 => ⟨S_, .i32⟩
  | 56 => ⟨S_, .i32⟩
  | 57 => ⟨S8x128, .i32⟩
  | 58 => ⟨S8x128, .i32⟩
  | 59 => ⟨S_, .i32⟩
  | 60 => ⟨S8x128, .i32⟩
  | 61 => ⟨S8x128, .i32⟩
  | 62 => ⟨S_, .i32⟩
  | 63 => ⟨S8x128, .i32⟩
  | 64 => ⟨S8x128, .i32⟩
  | 65 => ⟨S8x128, .i32⟩
  | 66 => ⟨S_, .i32⟩
  | 67 => ⟨S_, .i32⟩
  | 68 => ⟨S8x128, .i32⟩
  | 69 => ⟨S8x128, .i32⟩
  | 70 => ⟨S8, .i32⟩
  | 71 => ⟨S8x1, .i32⟩
  | 72 => ⟨S8x128, .i32⟩
  | 73 => ⟨S_, .i32⟩
  | 74 => ⟨S_, .i32⟩
  | 75 => ⟨S8x128, .i32⟩
  | 76 => ⟨S8x128, .i32⟩
  | 77 => ⟨S_, .f32⟩
  | 78 => ⟨S8x262144x10, .f32⟩
  | 79 => ⟨S_, .i32⟩
  | 80 => ⟨S8x128, .i32⟩
  | 81 => ⟨S8x128, .i1⟩
  | 82 => ⟨S_, .i32⟩
  | 83 => ⟨S8x128, .i32⟩
  | 84 => ⟨S8x128, .i32⟩
  | 85 => ⟨S8x128, .i32⟩
  | 86 => ⟨S_, .i32⟩
  | 87 => ⟨S8x128, .i32⟩
  | 88 => ⟨S8x128, .i1⟩
  | 89 => ⟨S_, .i32⟩
  | 90 => ⟨S8x128, .i32⟩
  | 91 => ⟨S8x128, .i32⟩
  | 92 => ⟨S8x128, .i32⟩
  | 93 => ⟨S_, .i32⟩
  | 94 => ⟨S8x128, .i32⟩
  | 95 => ⟨S8x128, .i1⟩
  | 96 => ⟨S_, .i32⟩
  | 97 => ⟨S8x128, .i32⟩
  | 98 => ⟨S8x128, .i32⟩
  | 99 => ⟨S8x128, .i32⟩
  | 100 => ⟨S8x128x1, .i32⟩
  | 101 => ⟨S8x128x1, .i32⟩
  | 102 => ⟨S8x128x1, .i32⟩
  | 103 => ⟨S8x128x3, .i32⟩
  | 104 => ⟨S_, .f32⟩
  | 105 => ⟨S8x128, .f32⟩
  | 106 => ⟨S8x262144x10, .f32⟩
  | 107 => ⟨S_, .f32⟩
  | 108 => ⟨S8x262144x7, .f32⟩
  | 109 => ⟨S_, .i32⟩
  | 110 => ⟨S8x128, .i32⟩
  | 111 => ⟨S8x128, .i1⟩
  | 112 => ⟨S_, .i32⟩
  | 113 => ⟨S8x128, .i32⟩
  | 114 => ⟨S8x128, .i32⟩
  | 115 => ⟨S8x128, .i32⟩
  | 116 => ⟨S_, .i32⟩
  | 117 => ⟨S8x128, .i32⟩
  | 118 => ⟨S8x128, .i1⟩
  | 119 => ⟨S_, .i32⟩
  | 120 => ⟨S8x128, .i32⟩
  | 121 => ⟨S8x128, .i32⟩
  | 122 => ⟨S8x128, .i32⟩
  | 123 => ⟨S8x128x1, .i32⟩
  | 124 => ⟨S8x128x1, .i32⟩
  | 125 => ⟨S8x128x2, .i32⟩
  | 126 => ⟨S8x262144x7, .f32⟩
  | 127 => ⟨S_, .f32⟩
  | _ => ⟨S8x262144x10, .f32⟩

abbrev hbmTy0_1 (i : Nat) : BufTy := match i % 128 with
  | 0 => ⟨S8x262144, .f32⟩
  | 1 => ⟨S_, .i32⟩
  | 2 => ⟨S8x128, .i32⟩
  | 3 => ⟨S8x128, .i1⟩
  | 4 => ⟨S_, .i32⟩
  | 5 => ⟨S8x128, .i32⟩
  | 6 => ⟨S8x128, .i32⟩
  | 7 => ⟨S8x128, .i32⟩
  | 8 => ⟨S_, .i32⟩
  | 9 => ⟨S8x128, .i32⟩
  | 10 => ⟨S8x128, .i1⟩
  | 11 => ⟨S_, .i32⟩
  | 12 => ⟨S8x128, .i32⟩
  | 13 => ⟨S8x128, .i32⟩
  | 14 => ⟨S8x128, .i32⟩
  | 15 => ⟨S8x128x1, .i32⟩
  | 16 => ⟨S8x128x1, .i32⟩
  | 17 => ⟨S8x128x2, .i32⟩
  | 18 => ⟨S_, .f32⟩
  | 19 => ⟨S8x128, .f32⟩
  | 20 => ⟨S8x262144, .f32⟩
  | 21 => ⟨S_, .f32⟩
  | 22 => ⟨S8x262144x10, .f32⟩
  | 23 => ⟨S8x262144x10, .f32⟩
  | 24 => ⟨S8x262144x10, .f32⟩
  | 25 => ⟨S8x262144x10, .f32⟩
  | 26 => ⟨S8x262144x10, .f32⟩
  | 27 => ⟨S8x262144x10, .f32⟩
  | 28 => ⟨S8x262144x10, .f32⟩
  | 29 => ⟨S8x262144x10, .f32⟩
  | 30 => ⟨S8x262144x10, .f32⟩
  | 31 => ⟨S_, .f32⟩
  | 32 => ⟨S8x262144, .f32⟩
  | 33 => ⟨S_, .f32⟩
  | 34 => ⟨S_, .f32⟩
  | 35 => ⟨S_, .f32⟩
  | 36 => ⟨S_, .f32⟩
  | 37 => ⟨S8x262144x7, .f32⟩
  | 38 => ⟨S8x262144x7, .f32⟩
  | 39 => ⟨S_, .f32⟩
  | 40 => ⟨S8x262144x7, .f32⟩
  | 41 => ⟨S8x262144x7, .i1⟩
  | 42 => ⟨S_, .f32⟩
  | 43 => ⟨S8x262144x7, .f32⟩
  | 44 => ⟨S8x262144x7, .f32⟩
  | 45 => ⟨S8x262144x7, .f32⟩
  | 46 => ⟨S_, .f32⟩
  | 47 => ⟨S8x262144x7, .f32⟩
  | 48 => ⟨S8x262144x7, .f32⟩
  | 49 => ⟨S8x262144x7, .f32⟩
  | 50 => ⟨S_, .f32⟩
  | 51 => ⟨S8x262144, .f32⟩
  | 52 => ⟨S8x262144, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S1, .f32⟩
  | 68 => ⟨S3, .f32⟩
  | _ => ⟨S8x262144x10, .f32⟩

abbrev hbmTy (i : Nat) : BufTy := match i / 128 with
  | 0 => hbmTy0_0 i
  | 1 => hbmTy0_1 i
  | _ => ⟨S8x262144x10, .f32⟩

abbrev bufTy : (tb : Table) → Fin (tcTables nBuf tb) → BufTy
  | .hbm, ⟨i, _⟩ => hbmTy i
  | _, _ => ⟨S8x262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_c_7 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_c_11 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_13 : Ref sig .tc := ⟨.hbm, 66, rfl⟩
abbrev main_call2_v0 : Ref sig .tc := ⟨.hbm, 67, rfl⟩
abbrev main_call2_v1 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_14 : Ref sig .tc := ⟨.hbm, 73, rfl⟩
abbrev main_call3_v0 : Ref sig .tc := ⟨.hbm, 74, rfl⟩
abbrev main_call3_v1 : Ref sig .tc := ⟨.hbm, 75, rfl⟩
abbrev main_v40 : Ref sig .tc := ⟨.hbm, 76, rfl⟩
abbrev main_cst_15 : Ref sig .tc := ⟨.hbm, 77, rfl⟩
abbrev main_v41 : Ref sig .tc := ⟨.hbm, 78, rfl⟩
abbrev main_c_16 : Ref sig .tc := ⟨.hbm, 79, rfl⟩
abbrev main_v42 : Ref sig .tc := ⟨.hbm, 80, rfl⟩
abbrev main_v43 : Ref sig .tc := ⟨.hbm, 81, rfl⟩
abbrev main_c_17 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_18 : Ref sig .tc := ⟨.hbm, 86, rfl⟩
abbrev main_v47 : Ref sig .tc := ⟨.hbm, 87, rfl⟩
abbrev main_v48 : Ref sig .tc := ⟨.hbm, 88, rfl⟩
abbrev main_c_19 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_c_20 : Ref sig .tc := ⟨.hbm, 93, rfl⟩
abbrev main_v52 : Ref sig .tc := ⟨.hbm, 94, rfl⟩
abbrev main_v53 : Ref sig .tc := ⟨.hbm, 95, rfl⟩
abbrev main_c_21 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_cst_23 : Ref sig .tc := ⟨.hbm, 107, rfl⟩
abbrev main_v63 : Ref sig .tc := ⟨.hbm, 108, rfl⟩
abbrev main_c_24 : Ref sig .tc := ⟨.hbm, 109, rfl⟩
abbrev main_v64 : Ref sig .tc := ⟨.hbm, 110, rfl⟩
abbrev main_v65 : Ref sig .tc := ⟨.hbm, 111, rfl⟩
abbrev main_c_25 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_26 : Ref sig .tc := ⟨.hbm, 116, rfl⟩
abbrev main_v69 : Ref sig .tc := ⟨.hbm, 117, rfl⟩
abbrev main_v70 : Ref sig .tc := ⟨.hbm, 118, rfl⟩
abbrev main_c_27 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_28 : Ref sig .tc := ⟨.hbm, 127, rfl⟩
abbrev main_v78 : Ref sig .tc := ⟨.hbm, 128, rfl⟩
abbrev main_c_29 : Ref sig .tc := ⟨.hbm, 129, rfl⟩
abbrev main_v79 : Ref sig .tc := ⟨.hbm, 130, rfl⟩
abbrev main_v80 : Ref sig .tc := ⟨.hbm, 131, rfl⟩
abbrev main_c_30 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_31 : Ref sig .tc := ⟨.hbm, 136, rfl⟩
abbrev main_v84 : Ref sig .tc := ⟨.hbm, 137, rfl⟩
abbrev main_v85 : Ref sig .tc := ⟨.hbm, 138, rfl⟩
abbrev main_c_32 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_33 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_35 : Ref sig .tc := ⟨.hbm, 159, rfl⟩
abbrev main_v103 : Ref sig .tc := ⟨.hbm, 160, rfl⟩
abbrev main_cst_36 : Ref sig .tc := ⟨.hbm, 161, rfl⟩
abbrev main_v104 : Ref sig .tc := ⟨.hbm, 162, rfl⟩
abbrev main_cst_37 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_38 : Ref sig .tc := ⟨.hbm, 167, rfl⟩
abbrev main_v108 : Ref sig .tc := ⟨.hbm, 168, rfl⟩
abbrev main_v109 : Ref sig .tc := ⟨.hbm, 169, rfl⟩
abbrev main_cst_39 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_40 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_41 : Ref sig .tc := ⟨.hbm, 178, rfl⟩
abbrev main_v116 : Ref sig .tc := ⟨.hbm, 179, rfl⟩
abbrev main_v117 : Ref sig .tc := ⟨.hbm, 180, rfl⟩
abbrev main_cst_42 : Ref sig .tc := ⟨.hbm, 181, rfl⟩
abbrev main_v118 : Ref sig .tc := ⟨.hbm, 182, rfl⟩
abbrev main_cst_43 : Ref sig .tc := ⟨.hbm, 183, rfl⟩
abbrev main_v119 : Ref sig .tc := ⟨.hbm, 184, rfl⟩
abbrev main_cst_44 : Ref sig .tc := ⟨.hbm, 185, rfl⟩
abbrev main_v120 : Ref sig .tc := ⟨.hbm, 186, rfl⟩
abbrev main_v121 : Ref sig .tc := ⟨.hbm, 187, rfl⟩
abbrev main_cst_45 : Ref sig .tc := ⟨.hbm, 188, rfl⟩
abbrev main_v122 : Ref sig .tc := ⟨.hbm, 189, rfl⟩
abbrev main_cst_46 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩

abbrev nD : Nat := 1
abbrev τ : Topo := Topo.v7x

variable {F : FTy → Type} [FloatOps F]

class Facts₀ : Prop where
  slices_S8x128x7_S8x128x1_0_0_0 : S8x128x7.Slices ![0, 0, 0] S8x128x1
  shapeCasts_S8x128x1_S8x128 : S8x128x1.ShapeCasts S8x128
  slices_S8x128x7_S8x128x1_0_0_1 : S8x128x7.Slices ![0, 0, 1] S8x128x1
  bcast_S_S8x128 : S_.BroadcastsInDim S8x128 (![] : Fin 0 → Fin S8x128.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S_S8x262144x10 : S_.BroadcastsInDim S8x262144x10 (![] : Fin 0 → Fin S8x262144x10.rank)
  bcast_S8x128_S8x128x1_0_1 : S8x128.BroadcastsInDim S8x128x1 (![0, 1] : Fin 2 → Fin S8x128x1.rank)
  concatenates_S8x128x1_S8x128x1_S8x128x1_S8x128x3_d2 : Shape.Concatenates [S8x128x1, S8x128x1, S8x128x1] S8x128x3 2
  bcast_S_S8x262144x7 : S_.BroadcastsInDim S8x262144x7 (![] : Fin 0 → Fin S8x262144x7.rank)
  concatenates_S8x128x1_S8x128x1_S8x128x2_d2 : Shape.Concatenates [S8x128x1, S8x128x1] S8x128x2 2
  bcast_S_S8x262144 : S_.BroadcastsInDim S8x262144 (![] : Fin 0 → Fin S8x262144.rank)
  reducesTo_S8x262144x10_S8x262144_d2 : S8x262144x10.ReducesTo [2] S8x262144
  h_S_ : 0 < S_.numel
  reducesTo_S8x262144_S_d0_1 : S8x262144.ReducesTo [0, 1] S_
  reducesTo_S8x262144x7_S8x262144_d2 : S8x262144x7.ReducesTo [2] S8x262144
  bcast_S_S1 : S_.BroadcastsInDim S1 (![] : Fin 0 → Fin S1.rank)
  concatenates_S1_S1_S1_S3_d0 : Shape.Concatenates [S1, S1, S1] S3 0
  scatter_S8x262144x10_S8x128x3_S8x128_n_012_012_2_wf : ScatterDims.WF S8x262144x10 S8x128x3 S8x128 [] [0, 1, 2] [0, 1, 2] 2
  scatter_S8x262144x7_S8x128x2_S8x128x7_2_01_01_2_wf : ScatterDims.WF S8x262144x7 S8x128x2 S8x128x7 [2] [0, 1] [0, 1] 2
  scatter_S8x262144_S8x128x2_S8x128_n_01_01_2_wf : ScatterDims.WF S8x262144 S8x128x2 S8x128 [] [0, 1] [0, 1] 2

variable [Facts₀]

def scatter_S8x262144x10_S8x128x3_S8x128_n_012_012_2 : ScatterDims S8x262144x10 S8x128x3 S8x128 where
  updateWindowDims := []
  insertedWindowDims := [0, 1, 2]
  scatterDimsToOperandDims := [0, 1, 2]
  indexVectorDim := 2
  wf := scatter_S8x262144x10_S8x128x3_S8x128_n_012_012_2_wf
def scatter_S8x262144x7_S8x128x2_S8x128x7_2_01_01_2 : ScatterDims S8x262144x7 S8x128x2 S8x128x7 where
  updateWindowDims := [2]
  insertedWindowDims := [0, 1]
  scatterDimsToOperandDims := [0, 1]
  indexVectorDim := 2
  wf := scatter_S8x262144x7_S8x128x2_S8x128x7_2_01_01_2_wf
def scatter_S8x262144_S8x128x2_S8x128_n_01_01_2 : ScatterDims S8x262144 S8x128x2 S8x128 where
  updateWindowDims := []
  insertedWindowDims := [0, 1]
  scatterDimsToOperandDims := [0, 1]
  indexVectorDim := 2
  wf := scatter_S8x262144_S8x128x2_S8x128_n_01_01_2_wf

class Facts : Prop extends Facts₀ where

variable [Facts]
-- ==== Proof.KFrame.lean ====
/- The frame of program Kernel at any float instance: @main is eleven stretches of host operations, one
   pipelined region, five more stretches of host operations. The region's body reads its input block whole,
   reads its output block (the value is never used) and overwrites the output block whole with a function of
   the input block; no host operation writes an argument array, and none after the region writes an array the
   region's windows stage. Hence the run terminates with every argument array as launched. -/
import proofs.«402323_j60327110639965_2_alg».proof.Proof.Gen.Kernel.Launch
import proofs.«402323_j60327110639965_2_alg».proof.Proof.Gen.Kernel.Skeleton
import proofs.«402323_j60327110639965_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The stretches of host operations after the region, in order. -/
abbrev tailOps : List (List (HloOp τ sig (Elt F))) :=
  [hostOps1, hostOps1_1, hostOps1_2, hostOps1_3, hostOps1_4]

/-- A property of every operation of every stretch, read at a stretch and an operation of it. -/
theorem forall_mem_of_Forall {α : Type} {P : α → Prop} {L : List (List α)} (h : L.Forall fun l => l.Forall P) :
    ∀ l ∈ L, ∀ a ∈ l, P a :=
  fun l hl a ha => (List.forall_iff_forall_mem.mp ((List.forall_iff_forall_mem.mp h) l hl)) a ha
/-- The same read at an operation of the concatenation. -/
theorem forall_flatten_of_Forall {α : Type} {P : α → Prop} {L : List (List α)} (h : L.Forall fun l => l.Forall P) :
    ∀ a ∈ L.flatten, P a := by
  intro a ha
  obtain ⟨l, hl, hal⟩ := List.mem_flatten.mp ha
  exact forall_mem_of_Forall h l hl a hal

/-- Core c's buffer contents when the region is entered: the launch contents after the earlier stretches. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- No host operation leaves a buffer undetermined. -/
theorem preOps_fresh : (preOps : List (List (HloOp τ sig (Elt F)))).Forall fun ops => ops.Forall fun op => op.fresh = ∅ := by
  simp only [List.Forall]; repeat' constructor
theorem tailOps_fresh : (tailOps : List (List (HloOp τ sig (Elt F)))).Forall fun ops => ops.Forall fun op => op.fresh = ∅ := by
  simp only [List.Forall]; repeat' constructor

/-- An operation writes none of the references of a list. -/
def Keeps (R : List (Ref sig .tc)) (op : HloOp τ sig (Elt F)) : Prop := ∀ r ∈ R, Proc.devRef (τ := τ) .tc r ∉ op.writes

/-- The argument arrays. -/
abbrev argRefs : List (Ref sig .tc) := [main_arg0, main_arg1, main_arg2, main_arg3, main_arg4]
/-- The argument arrays and the two arrays the region's windows stage. -/
abbrev keptRefs : List (Ref sig .tc) := [main_arg0, main_arg1, main_arg2, main_arg3, main_arg4, main_v67, main_v68]

/-- Each host operation before the region writes its own result buffer, which is no argument array. -/
theorem preOps_keeps : (preOps : List (List (HloOp τ sig (Elt F)))).Forall fun ops => ops.Forall (Keeps argRefs) := by
  simp only [List.Forall, Keeps, List.forall_mem_cons, List.not_mem_nil, false_imp_iff, implies_true, and_true,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Each host operation after the region writes its own result buffer, which is neither an argument array nor an
    array of the region's windows. -/
theorem tailOps_keeps : (tailOps : List (List (HloOp τ sig (Elt F)))).Forall fun ops => ops.Forall (Keeps keptRefs) := by
  simp only [List.Forall, Keeps, List.forall_mem_cons, List.not_mem_nil, false_imp_iff, implies_true, and_true,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-! ## @main around the region -/

/-- @main at any variants: the earlier stretches, the region, the later stretches; it reduces to the region continued
    by the later stretches, entered at the contents V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]
        exact ⟨hostOps0_sub, hostOps0_1_sub, hostOps0_2_sub, hostOps0_3_sub, hostOps0_4_sub, hostOps0_5_sub, hostOps0_6_sub,
          hostOps0_7_sub, hostOps0_8_sub, hostOps0_9_sub, hostOps0_10_sub⟩)
    preOps_fresh main_chain

/-- The later stretches touch unscoped TensorCore buffers only: the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_mem_of_Forall (P := fun op : HloOp τ sig (Elt F) => op.bufs ⊆ Pipeline.ucRefs τ sig) (by
    simp only [List.Forall]
    exact ⟨List.forall_iff_forall_mem.mpr fun op h => Pipeline.sub_ucRefs op ((List.forall_iff_forall_mem.mp hostOps1_sub) op h),
      List.forall_iff_forall_mem.mpr fun op h => Pipeline.sub_ucRefs op ((List.forall_iff_forall_mem.mp hostOps1_1_sub) op h),
      List.forall_iff_forall_mem.mpr fun op h => Pipeline.sub_ucRefs op ((List.forall_iff_forall_mem.mp hostOps1_2_sub) op h),
      List.forall_iff_forall_mem.mpr fun op h => Pipeline.sub_ucRefs op ((List.forall_iff_forall_mem.mp hostOps1_3_sub) op h),
      List.forall_iff_forall_mem.mpr fun op h => Pipeline.sub_ucRefs op ((List.forall_iff_forall_mem.mp hostOps1_4_sub) op h)⟩)
/-- They leave no buffer undetermined. -/
theorem sfx_fresh : ∀ ops ∈ (tailOps : List (List (HloOp τ sig (Elt F)))), ∀ op ∈ ops, op.fresh = ∅ :=
  forall_mem_of_Forall tailOps_fresh
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := forall_mem_of_Forall tailOps_keeps ops hops op hop
  fin_cases w
  · exact h main_v67 (by decide)
  · exact h main_v68 (by decide)

/-- An argument array is written by no host operation before the region: the region finds it as launched. -/
theorem V_of_arg (c : Dev nD) (r : Ref sig .tc) (hr : r ∈ argRefs) : V m c r = m ((c : Thread nD τ).loc r) :=
  StableHlo.after_of_forall_not_mem (b := Proc.devRef .tc r) _ _ fun op hop => forall_flatten_of_Forall preOps_keeps op hop r hr

theorem V_main_arg0 (c : Dev nD) : V m c main_arg0 = m ((c : Thread nD τ).loc main_arg0) := V_of_arg m c main_arg0 (by decide)
theorem V_main_arg1 (c : Dev nD) : V m c main_arg1 = m ((c : Thread nD τ).loc main_arg1) := V_of_arg m c main_arg1 (by decide)
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)

/-- An argument array is written by no host operation after the region either, and is no array of the pipeline: it ends as launched. -/
theorem W_of_arg (dats : (p : Fin 1) → (c : Dev nD) → Dat τ (Elt F) Unit ℕ (UR sig nD τ) ℕ (cfgs p) c) (c : Dev nD)
    (r : Ref sig .tc) (hr : r ∈ argRefs) (hk : r ∈ keptRefs) (hne : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ fun op hop => forall_flatten_of_Forall tailOps_keeps op hop r hk,
    Pipeline.withArrays_of_ne _ c (V0 m c) _ r hne]
  exact V_of_arg m c r hr

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_arg m dats c main_arg3 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_arg m dats c main_arg4 (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place: the window is fetched at its own index and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the five argument arrays (none is an array of the pipeline, so each
    is among the other unscoped buffers, and ends at what the later stretches leave, which is the launch contents). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's accesses -/

/-- The whole input block and the whole output block, as rectangles. -/
abbrev rIn : Rect S8192x128 := Rect.unit (s := S8192x128) ![0, 0] S8192x128.size inb_S8192x128_S8192x128_0_0
abbrev rOut : Rect S8x128 := Rect.unit (s := S8x128) ![0, 0] S8x128.size inb_S8x128_S8x128_0_0

/-! ## What the body leaves in the output window's buffer -/

/-- The output window's staging buffer after the body, from the input window's block: the body's one store, of the whole
    block, its payload computed from the loaded input block. -/
def out0_1 (x0 : Vec F S8192x128 .f32) : Vec F S8x128 .f32 :=
  View.canon [⟨rOut, k0_pay1 (View.ld x0 rIn)⟩]

/-- The one store fills the buffer. -/
theorem cover0_1 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body's triple -/

set_option maxHeartbeats 1000000 in
/-- The body on whole staging memrefs, the input's at read contents x0 and the output's at anything, runs to the
    continuation holding the input's as it was and the output's at out0_1 x0: the body loads the input block, loads the
    output block (a value nothing reads) and stores the whole output block. -/
theorem sound_kernel (c : Dev nD) (E : Set ℕ) (i : grid0.Coords) (arg1 : Memref sig .tc .vmem S8192x128 .f32) (harg1 : arg1.IsWhole)
    (arg2 : Memref sig .tc .vmem S8x128 .f32) (harg2 : arg2.IsWhole)
    (x0 : Vec F S8192x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bce0_kernel i arg1 harg1 arg2 harg2) K := by
  simp only [cc0__bce0_kernel_eq_skeleton]; unfold cc0__bce0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core c: the arrays as the region finds them; after the body at point t the
    input's buffer at its block and the output's at out0_1 of the input block; the invariant the untouched scoped rest
    and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected, the fold over the earlier
    stretches never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, the output's anything; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME: the program runs and its five argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

/-- info: 'Cert.Kernel.Hand.frame' depends on axioms: [propext, Classical.choice, Quot.sound] -/
#guard_msgs in #print axioms frame

end Cert.Kernel.Hand

end
-- ==== Proof.KIFrame.lean ====
/- The frame of program KernelIdeal at any float instance: @main is eleven stretches of host operations, one
   pipelined region, five more stretches of host operations. The region's body reads its input block whole,
   reads its output block (the value is never used) and overwrites the output block whole with a function of
   the input block; no host operation writes an argument array, and none after the region writes an array the
   region's windows stage. Hence the run terminates with every argument array as launched. -/
import proofs.«402323_j60327110639965_2_alg».proof.Proof.Gen.KernelIdeal.Launch
import proofs.«402323_j60327110639965_2_alg».proof.Proof.Gen.KernelIdeal.Skeleton
import proofs.«402323_j60327110639965_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10]
/-- The stretches of host operations after the region, in order. -/
abbrev tailOps : List (List (HloOp τ sig (Elt F))) :=
  [hostOps1, hostOps1_1, hostOps1_2, hostOps1_3, hostOps1_4]

/-- A property of every operation of every stretch, read at a stretch and an operation of it. -/
theorem forall_mem_of_Forall {α : Type} {P : α → Prop} {L : List (List α)} (h : L.Forall fun l => l.Forall P) :
    ∀ l ∈ L, ∀ a ∈ l, P a :=
  fun l hl a ha => (List.forall_iff_forall_mem.mp ((List.forall_iff_forall_mem.mp h) l hl)) a ha
/-- The same read at an operation of the concatenation. -/
theorem forall_flatten_of_Forall {α : Type} {P : α → Prop} {L : List (List α)} (h : L.Forall fun l => l.Forall P) :
    ∀ a ∈ L.flatten, P a := by
  intro a ha
  obtain ⟨l, hl, hal⟩ := List.mem_flatten.mp ha
  exact forall_mem_of_Forall h l hl a hal

/-- Core c's buffer contents when the region is entered: the launch contents after the earlier stretches. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- No host operation leaves a buffer undetermined. -/
theorem preOps_fresh : (preOps : List (List (HloOp τ sig (Elt F)))).Forall fun ops => ops.Forall fun op => op.fresh = ∅ := by
  simp only [List.Forall]; repeat' constructor
theorem tailOps_fresh : (tailOps : List (List (HloOp τ sig (Elt F)))).Forall fun ops => ops.Forall fun op => op.fresh = ∅ := by
  simp only [List.Forall]; repeat' constructor

/-- An operation writes none of the references of a list. -/
def Keeps (R : List (Ref sig .tc)) (op : HloOp τ sig (Elt F)) : Prop := ∀ r ∈ R, Proc.devRef (τ := τ) .tc r ∉ op.writes

/-- The argument arrays. -/
abbrev argRefs : List (Ref sig .tc) := [main_arg0, main_arg1, main_arg2, main_arg3, main_arg4]
/-- The argument arrays and the two arrays the region's windows stage. -/
abbrev keptRefs : List (Ref sig .tc) := [main_arg0, main_arg1, main_arg2, main_arg3, main_arg4, main_v67, main_v68]

/-- Each host operation before the region writes its own result buffer, which is no argument array. -/
theorem preOps_keeps : (preOps : List (List (HloOp τ sig (Elt F)))).Forall fun ops => ops.Forall (Keeps argRefs) := by
  simp only [List.Forall, Keeps, List.forall_mem_cons, List.not_mem_nil, false_imp_iff, implies_true, and_true,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-- Each host operation after the region writes its own result buffer, which is neither an argument array nor an
    array of the region's windows. -/
theorem tailOps_keeps : (tailOps : List (List (HloOp τ sig (Elt F)))).Forall fun ops => ops.Forall (Keeps keptRefs) := by
  simp only [List.Forall, Keeps, List.forall_mem_cons, List.not_mem_nil, false_imp_iff, implies_true, and_true,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)

/-! ## @main around the region -/

/-- @main at any variants: the earlier stretches, the region, the later stretches; it reduces to the region continued
    by the later stretches, entered at the contents V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]
        exact ⟨hostOps0_sub, hostOps0_1_sub, hostOps0_2_sub, hostOps0_3_sub, hostOps0_4_sub, hostOps0_5_sub, hostOps0_6_sub,
          hostOps0_7_sub, hostOps0_8_sub, hostOps0_9_sub, hostOps0_10_sub⟩)
    preOps_fresh main_chain

/-- The later stretches touch unscoped TensorCore buffers only: the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_mem_of_Forall (P := fun op : HloOp τ sig (Elt F) => op.bufs ⊆ Pipeline.ucRefs τ sig) (by
    simp only [List.Forall]
    exact ⟨List.forall_iff_forall_mem.mpr fun op h => Pipeline.sub_ucRefs op ((List.forall_iff_forall_mem.mp hostOps1_sub) op h),
      List.forall_iff_forall_mem.mpr fun op h => Pipeline.sub_ucRefs op ((List.forall_iff_forall_mem.mp hostOps1_1_sub) op h),
      List.forall_iff_forall_mem.mpr fun op h => Pipeline.sub_ucRefs op ((List.forall_iff_forall_mem.mp hostOps1_2_sub) op h),
      List.forall_iff_forall_mem.mpr fun op h => Pipeline.sub_ucRefs op ((List.forall_iff_forall_mem.mp hostOps1_3_sub) op h),
      List.forall_iff_forall_mem.mpr fun op h => Pipeline.sub_ucRefs op ((List.forall_iff_forall_mem.mp hostOps1_4_sub) op h)⟩)
/-- They leave no buffer undetermined. -/
theorem sfx_fresh : ∀ ops ∈ (tailOps : List (List (HloOp τ sig (Elt F)))), ∀ op ∈ ops, op.fresh = ∅ :=
  forall_mem_of_Forall tailOps_fresh
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := forall_mem_of_Forall tailOps_keeps ops hops op hop
  fin_cases w
  · exact h main_v67 (by decide)
  · exact h main_v68 (by decide)

/-- An argument array is written by no host operation before the region: the region finds it as launched. -/
theorem V_of_arg (c : Dev nD) (r : Ref sig .tc) (hr : r ∈ argRefs) : V m c r = m ((c : Thread nD τ).loc r) :=
  StableHlo.after_of_forall_not_mem (b := Proc.devRef .tc r) _ _ fun op hop => forall_flatten_of_Forall preOps_keeps op hop r hr

theorem V_main_arg0 (c : Dev nD) : V m c main_arg0 = m ((c : Thread nD τ).loc main_arg0) := V_of_arg m c main_arg0 (by decide)
theorem V_main_arg1 (c : Dev nD) : V m c main_arg1 = m ((c : Thread nD τ).loc main_arg1) := V_of_arg m c main_arg1 (by decide)
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)

/-- An argument array is written by no host operation after the region either, and is no array of the pipeline: it ends as launched. -/
theorem W_of_arg (dats : (p : Fin 1) → (c : Dev nD) → Dat τ (Elt F) Unit ℕ (UR sig nD τ) ℕ (cfgs p) c) (c : Dev nD)
    (r : Ref sig .tc) (hr : r ∈ argRefs) (hk : r ∈ keptRefs) (hne : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ fun op hop => forall_flatten_of_Forall tailOps_keeps op hop r hk,
    Pipeline.withArrays_of_ne _ c (V0 m c) _ r hne]
  exact V_of_arg m c r hr

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_arg m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_arg m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_arg m dats c main_arg2 (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_arg m dats c main_arg3 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_arg m dats c main_arg4 (by decide) (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place: the window is fetched at its own index and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the five argument arrays (none is an array of the pipeline, so each
    is among the other unscoped buffers, and ends at what the later stretches leave, which is the launch contents). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's accesses -/

/-- The whole input block and the whole output block, as rectangles. -/
abbrev rIn : Rect S8192x128 := Rect.unit (s := S8192x128) ![0, 0] S8192x128.size inb_S8192x128_S8192x128_0_0
abbrev rOut : Rect S8x128 := Rect.unit (s := S8x128) ![0, 0] S8x128.size inb_S8x128_S8x128_0_0

/-! ## What the body leaves in the output window's buffer -/

/-- The output window's staging buffer after the body, from the input window's block: the body's one store, of the whole
    block, its payload computed from the loaded input block. -/
def out0_1 (x0 : Vec F S8192x128 .f32) : Vec F S8x128 .f32 :=
  View.canon [⟨rOut, k0_pay1 (View.ld x0 rIn)⟩]

/-- The one store fills the buffer. -/
theorem cover0_1 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body's triple -/

set_option maxHeartbeats 1000000 in
/-- The body on whole staging memrefs, the input's at read contents x0 and the output's at anything, runs to the
    continuation holding the input's as it was and the output's at out0_1 x0: the body loads the input block, loads the
    output block (a value nothing reads) and stores the whole output block. -/
theorem sound_kernel (c : Dev nD) (E : Set ℕ) (i : grid0.Coords) (arg1 : Memref sig .tc .vmem S8192x128 .f32) (harg1 : arg1.IsWhole)
    (arg2 : Memref sig .tc .vmem S8x128 .f32) (harg2 : arg2.IsWhole)
    (x0 : Vec F S8192x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bce0_kernel i arg1 harg1 arg2 harg2) K := by
  simp only [cc0__bce0_kernel_eq_skeleton]; unfold cc0__bce0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core c: the arrays as the region finds them; after the body at point t the
    input's buffer at its block and the output's at out0_1 of the input block; the invariant the untouched scoped rest
    and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected, the fold over the earlier
    stretches never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, the output's anything; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME: the program runs and its five argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

/-- info: 'Cert.KernelIdeal.Hand.frame' depends on axioms: [propext, Classical.choice, Quot.sound] -/
#guard_msgs in #print axioms frame

end Cert.KernelIdeal.Hand

end
-- ==== Proof.KIRun.lean ====
/- The program's run in the form a claim about its result cites: after the run the result buffer holds what the host
   operations after the region compute from the region's exit contents, and the five argument arrays are as launched. -/
import proofs.«402323_j60327110639965_2_alg».proof.Proof.KIFrame

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The run, read at the result buffer and the argument arrays: the result buffer is unscoped and no array of the
    pipeline, so it ends at what the stretches after the region leave in it; each argument array ends as launched. -/
theorem run_result (R : (c : Dev nD) → Buf (Elt F) ((c.tc : Thread nD τ).loc main_v134))
    (hR : ∀ c, Pipeline.afterTail₀ cfgs (dats m) 0 (V0 m) tailOps c main_v134 = R c) :
    θ_run defs (onTc (τ := τ) (main (F := F))) ⟨m, fun _ => 0, ρ⟩ (fun r => ∀ c : Dev nD,
      r.2.mem ((c.tc : Thread nD τ).loc main_v134) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v134 (Pipeline.mem_restRefs_of main_v134 (by decide) (by decide))).trans (hR c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

/-- info: 'Cert.KernelIdeal.Hand.run_result' depends on axioms: [propext, Classical.choice, Quot.sound] -/
#guard_msgs in #print axioms run_result

end Cert.KernelIdeal.Hand

end
-- ==== Proof.KIStages.lean ====
/-
  The host side of the kernel's program as pure functions: what its StableHLO lines compute from the argument
  arrays, from the three arrays both programs derive from the ground-truth boxes (which boxes are valid, each box's
  cell number, each box's label clipped below at zero) and from the array the region writes.

  Two boxes of a batch collide when they fall in one cell (for the box loss) or in one cell with one label (for the
  class loss). Of colliding valid boxes the one with the largest number wins: `winBox` / `winCls` mark the winners,
  as the largest candidate number (the maximum over m of m where m is valid and collides with n, else -1) being n
  itself. The class loss is the sum of the region's per-block column sums less the logits gathered at the winners'
  (cell, label); the box loss the smooth-L1 of the predictions gathered at the winners' cells against their boxes.
-/
import proofs.«402323_j60327110639965_2_alg».proof.Proof.Gen.KernelIdeal

noncomputable section

namespace Cert.KernelIdeal.Stage

open Cert.KernelIdeal Cert.KernelIdeal.Facts₀ Cert.KernelIdeal.Facts Idealize.ShloMosaic Idealize.ShloMosaic.TcCoe

variable {F : FTy → Type} [FloatOps F]

/-- An array of words as the buffers hold it. -/
abbrev WArr (s : Shape) : Type := (⟨s, .i32⟩ : BufTy).Contents (Elt F)
/-- An array of bits. -/
abbrev BArr (s : Shape) : Type := (⟨s, .i1⟩ : BufTy).Contents (Elt F)
/-- An array of floats. -/
abbrev FArr (s : Shape) : Type := (⟨s, .f32⟩ : BufTy).Contents (Elt F)

/-! ## Before the region: the winners -/

/-- The cell number capped at the last cell (it never exceeds it). -/
def idxg (idx : WArr (F := F) S8x128) : WArr (F := F) S8x128 :=
  minsi idx (broadcastInDim S8x128 ![] bcast_S_S8x128 (constantI S_ 32 262143#32))

/-- A per-box array laid along the query axis n of the [batch, n, m] comparison lattice. -/
def alongN (x : WArr (F := F) S8x128) : WArr (F := F) S8x128x128 :=
  broadcastInDim S8x128x128 ![0, 1, 2] bcast_S8x128x1_S8x128x128_0_1_2 (broadcastInDim S8x128x1 ![0, 1] bcast_S8x128_S8x128x1_0_1 x)
/-- A per-box array laid along the candidate axis m. -/
def alongM (x : WArr (F := F) S8x128) : WArr (F := F) S8x128x128 :=
  broadcastInDim S8x128x128 ![0, 1, 2] bcast_S8x1x128_S8x128x128_0_1_2 (broadcastInDim S8x1x128 ![0, 2] bcast_S8x128_S8x1x128_0_2 x)
/-- The validity bits laid along the candidate axis m. -/
def validM (vld : BArr (F := F) S8x128) : BArr (F := F) S8x128x128 :=
  broadcastInDim S8x128x128 ![0, 1, 2] bcast_S8x1x128_S8x128x128_0_1_2 (broadcastInDim S8x1x128 ![0, 2] bcast_S8x128_S8x1x128_0_2 vld)

/-- Candidate m is valid and falls in box n's cell. -/
def sameCell (vld : BArr (F := F) S8x128) (idx : WArr (F := F) S8x128) : BArr (F := F) S8x128x128 :=
  andi (cmpi .eq (alongN idx) (alongM idx)) (validM vld)
/-- ... and carries box n's label. -/
def sameCellLabel (vld : BArr (F := F) S8x128) (idx lbl : WArr (F := F) S8x128) : BArr (F := F) S8x128x128 :=
  andi (sameCell vld idx) (cmpi .eq (alongN lbl) (alongM lbl))

/-- The candidate numbers 0 … 127 along the axis m. -/
def iotaM : WArr (F := F) S1x1x128 := broadcastInDim S1x1x128 ![2] bcast_S128_S1x1x128_2 (iotaInDim S128 32 0)

/-- The candidate's number where the mask is set, -1 elsewhere. -/
def maskedIota (mask : BArr (F := F) S8x128x128) : WArr (F := F) S8x128x128 :=
  select mask (broadcastInDim S8x128x128 ![0, 1, 2] bcast_S1x1x128_S8x128x128_0_1_2 (iotaM (F := F)))
    (broadcastInDim S8x128x128 ![] bcast_S_S8x128x128 (id (constantI S_ 32 4294967295#32)))

/-- The largest marked candidate number of each box (the signed maximum over m, from the least word). -/
def lastMarked (mask : BArr (F := F) S8x128x128) : WArr (F := F) S8x128 :=
  Host.reduce IntOp.maxsi (maskedIota mask) (constantI S_ 32 2147483648#32) reducesTo_S8x128x128_S8x128_d2 h_S_

/-- Each box's own number n. -/
def iotaN : WArr (F := F) S8x128 :=
  broadcastInDim S8x128 ![0, 1] bcast_S1x128_S8x128_0_1 (broadcastInDim S1x128 ![1] bcast_S128_S1x128_1 (iotaInDim S128 32 0))

/-- Box n is valid and is the last valid box of its cell. -/
def winBox (vld : BArr (F := F) S8x128) (idx : WArr (F := F) S8x128) : BArr (F := F) S8x128 :=
  andi vld (cmpi .eq (lastMarked (sameCell vld idx)) (iotaN (F := F)))
/-- Box n is valid and is the last valid box of its (cell, label) pair. -/
def winCls (vld : BArr (F := F) S8x128) (idx lbl : WArr (F := F) S8x128) : BArr (F := F) S8x128 :=
  andi vld (cmpi .eq (lastMarked (sameCellLabel vld idx lbl)) (iotaN (F := F)))

/-! ## After the region -/

/-- The sum of everything the region wrote. -/
def s0 (o : FArr (F := F) S160x128) : FArr (F := F) S_ :=
  Host.reduceAdd o (constant S_ .f32 0x00000000#32) reducesTo_S160x128_S_d0_1 h_S_

/-- The batch number of each box. -/
def bIdx : WArr (F := F) S8x128 :=
  broadcastInDim S8x128 ![0, 1] bcast_S8x1_S8x128_0_1 (broadcastInDim S8x1 ![0] bcast_S8_S8x1_0 (iotaInDim S8 32 0))

/-- An index array with negative entries wrapped by the axis' extent k. -/
def wrap (x : WArr (F := F) S8x128) (k : BitVec 32) : WArr (F := F) S8x128 :=
  select (cmpi .slt x (broadcastInDim S8x128 ![] bcast_S_S8x128 (constantI S_ 32 0#32)))
    (addi x (broadcastInDim S8x128 ![] bcast_S_S8x128 (constantI S_ 32 k))) x

/-- A per-box index as one column of an index-vector array. -/
def col (x : WArr (F := F) S8x128) : WArr (F := F) S8x128x1 :=
  broadcastInDim S8x128x1 ![0, 1] bcast_S8x128_S8x128x1_0_1 x

/-- The (batch, cell, label) index vectors. -/
def gIdx3 (ig lbl : WArr (F := F) S8x128) : WArr (F := F) S8x128x3 :=
  concatenate S8x128x3 2 [⟨S8x128x1, col (wrap (bIdx (F := F)) 8#32)⟩, ⟨S8x128x1, col (wrap ig 262144#32)⟩, ⟨S8x128x1, col (wrap lbl 10#32)⟩]
    concatenates_S8x128x1_S8x128x1_S8x128x1_S8x128x3_d2
/-- The (batch, cell) index vectors. -/
def gIdx2 (ig : WArr (F := F) S8x128) : WArr (F := F) S8x128x2 :=
  concatenate S8x128x2 2 [⟨S8x128x1, col (wrap (bIdx (F := F)) 8#32)⟩, ⟨S8x128x1, col (wrap ig 262144#32)⟩] concatenates_S8x128x1_S8x128x1_S8x128x2_d2

/-- The logit at each box's (cell, label). -/
def zAt (x0 : FArr (F := F) S8x262144x10) (ig lbl : WArr (F := F) S8x128) : FArr (F := F) S8x128 :=
  Host.gather gather_S8x262144x10_S8x128x3_S8x128_n_012_n_n_012_2_111 x0 (gIdx3 ig lbl)

/-- The sum of the winners' logits. -/
def corr (x0 : FArr (F := F) S8x262144x10) (ig lbl : WArr (F := F) S8x128) (wc : BArr (F := F) S8x128) : FArr (F := F) S_ :=
  Host.reduceAdd (select wc (zAt x0 ig lbl) (broadcastInDim S8x128 ![] bcast_S_S8x128 (id (constant S_ .f32 0x00000000#32))))
    (constant S_ .f32 0x00000000#32) reducesTo_S8x128_S_d0_1 h_S_

/-- The class loss. -/
def clsK (o : FArr (F := F) S160x128) (x0 : FArr (F := F) S8x262144x10) (ig lbl : WArr (F := F) S8x128) (wc : BArr (F := F) S8x128) : FArr (F := F) S_ :=
  Host.divf (subf (s0 o) (corr x0 ig lbl wc)) (constant S_ .f32 0x4A000000#32)

/-- The box predictions at each box's cell. -/
def pAt (x1 : FArr (F := F) S8x262144x7) (ig : WArr (F := F) S8x128) : FArr (F := F) S8x128x7 :=
  Host.gather gather_S8x262144x7_S8x128x2_S8x128x7_2_01_n_n_01_2_117 x1 (gIdx2 ig)

/-- Smooth-L1 of a difference array, entry by entry: half the square below one, the absolute value less a half above. -/
def huber (d : FArr (F := F) S8x128x7) : FArr (F := F) S8x128x7 :=
  select (cmpf .olt (Host.absf d) (broadcastInDim S8x128x7 ![] bcast_S_S8x128x7 (constant S_ .f32 0x3F800000#32)))
    (mulf (mulf (broadcastInDim S8x128x7 ![] bcast_S_S8x128x7 (constant S_ .f32 0x3F000000#32)) d) d)
    (subf (Host.absf d) (broadcastInDim S8x128x7 ![] bcast_S_S8x128x7 (constant S_ .f32 0x3F000000#32)))

/-- Each box's smooth-L1 against the prediction at its cell, summed over the seven box parameters. -/
def sl1K (x1 : FArr (F := F) S8x262144x7) (x2 : FArr (F := F) S8x128x7) (ig : WArr (F := F) S8x128) : FArr (F := F) S8x128 :=
  Host.reduceAdd (huber (subf (pAt x1 ig) x2)) (constant S_ .f32 0x00000000#32) reducesTo_S8x128x7_S8x128_d2 h_S_

/-- The winners as floats. -/
def maskK (wb : BArr (F := F) S8x128) : FArr (F := F) S8x128 := uitofp .f32 wb

/-- The box loss' numerator and the number of winners. -/
def numK (x1 : FArr (F := F) S8x262144x7) (x2 : FArr (F := F) S8x128x7) (ig : WArr (F := F) S8x128) (wb : BArr (F := F) S8x128) : FArr (F := F) S_ :=
  Host.reduceAdd (mulf (sl1K x1 x2 ig) (maskK wb)) (constant S_ .f32 0x00000000#32) reducesTo_S8x128_S_d0_1 h_S_
def denK (wb : BArr (F := F) S8x128) : FArr (F := F) S_ :=
  Host.reduceAdd (maskK wb) (constant S_ .f32 0x00000000#32) reducesTo_S8x128_S_d0_1 h_S_

/-- The box loss. -/
def boxK (x1 : FArr (F := F) S8x262144x7) (x2 : FArr (F := F) S8x128x7) (ig : WArr (F := F) S8x128) (wb : BArr (F := F) S8x128) : FArr (F := F) S_ :=
  Host.divf (numK x1 x2 ig wb) (addf (denK wb) (constant S_ .f32 0x358637BD#32))

/-- The three results: total, class loss, box loss. -/
def resK (cls box : FArr (F := F) S_) : FArr (F := F) S3 :=
  concatenate S3 0 [⟨S1, broadcastInDim S1 ![] bcast_S_S1 (addf (mulf (constant S_ .f32 0x3F800000#32) cls) (mulf (constant S_ .f32 0x3F800000#32) box))⟩,
    ⟨S1, broadcastInDim S1 ![] bcast_S_S1 cls⟩, ⟨S1, broadcastInDim S1 ![] bcast_S_S1 box⟩] concatenates_S1_S1_S1_S3_d0

end Cert.KernelIdeal.Stage

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KIHost.lean ====
/-
  What the kernel program's host lines after the region compute. The lines after the region sum the region's output
  array, gather the logits at each box's (batch, cell, label) and the box predictions at each box's (batch, cell), sum the
  gathered logits and the smooth-L1 terms over the winning boxes, and join the total, the class loss and the box loss in
  one array of three. Read in order, the lines are cut just before each joining of index columns (or of results) into one
  array: within a segment every line's value is a function of earlier values and of the contents the segment starts
  from, so the contents a segment leaves at a reference are computed from any starting contents; the segments composed
  give the last result as the stage functions of the region's output array, the argument arrays and the four arrays the
  lines before the region derive from the ground-truth boxes.
-/
import proofs.«402323_j60327110639965_2_alg».proof.Proof.KIFrame
import proofs.«402323_j60327110639965_2_alg».proof.Proof.KIStages
import proofs.«402323_j60327110639965_2_alg».proof.Proof.LibTRefCast

set_option maxRecDepth 16384

noncomputable section

namespace Cert.KernelIdeal.Hand

section Helpers
open Cert.KernelIdeal Cert.KernelIdeal.Facts₀ Cert.KernelIdeal.Facts Idealize.ShloMosaic Idealize.ShloMosaic.TcCoe
variable {F : FTy → Type} [FloatOps F]

/-- The class loss from the sum of the region's output, the logits, the gather's index vectors and the winners. -/
def clsOf (s : Stage.FArr (F := F) S_) (x0 : Stage.FArr (F := F) S8x262144x10) (gi : Stage.WArr (F := F) S8x128x3)
    (wc : Stage.BArr (F := F) S8x128) : Stage.FArr (F := F) S_ :=
  Host.divf (subf s (Host.reduceAdd (select wc (Host.gather gather_S8x262144x10_S8x128x3_S8x128_n_012_n_n_012_2_111 x0 gi)
      (broadcastInDim S8x128 ![] bcast_S_S8x128 (id (constant S_ .f32 0x00000000#32))))
    (constant S_ .f32 0x00000000#32) reducesTo_S8x128_S_d0_1 h_S_)) (constant S_ .f32 0x4A000000#32)

/-- The box loss from the predictions, the boxes, the gather's index vectors and the winners. -/
def boxOf (x1 : Stage.FArr (F := F) S8x262144x7) (x2 : Stage.FArr (F := F) S8x128x7) (gi : Stage.WArr (F := F) S8x128x2)
    (wb : Stage.BArr (F := F) S8x128) : Stage.FArr (F := F) S_ :=
  Host.divf
    (Host.reduceAdd (mulf (Host.reduceAdd (Stage.huber (subf (Host.gather gather_S8x262144x7_S8x128x2_S8x128x7_2_01_n_n_01_2_117 x1 gi) x2))
        (constant S_ .f32 0x00000000#32) reducesTo_S8x128x7_S8x128_d2 h_S_) (Stage.maskK wb))
      (constant S_ .f32 0x00000000#32) reducesTo_S8x128_S_d0_1 h_S_)
    (addf (Stage.denK wb) (constant S_ .f32 0x358637BD#32))

/-- The three index columns of the class gather joined. -/
def cat3 (a b d : Stage.WArr (F := F) S8x128x1) : Stage.WArr (F := F) S8x128x3 :=
  concatenate S8x128x3 2 [⟨S8x128x1, a⟩, ⟨S8x128x1, b⟩, ⟨S8x128x1, d⟩] concatenates_S8x128x1_S8x128x1_S8x128x1_S8x128x3_d2
/-- The two index columns of the box gather joined. -/
def cat2 (a b : Stage.WArr (F := F) S8x128x1) : Stage.WArr (F := F) S8x128x2 :=
  concatenate S8x128x2 2 [⟨S8x128x1, a⟩, ⟨S8x128x1, b⟩] concatenates_S8x128x1_S8x128x1_S8x128x2_d2
/-- The three results joined. -/
def cat1 (a b d : Stage.FArr (F := F) S1) : Stage.FArr (F := F) S3 :=
  concatenate S3 0 [⟨S1, a⟩, ⟨S1, b⟩, ⟨S1, d⟩] concatenates_S1_S1_S1_S3_d0
/-- A scalar as a one-element array. -/
def one1 (x : Stage.FArr (F := F) S_) : Stage.FArr (F := F) S1 := broadcastInDim S1 ![] bcast_S_S1 x
/-- The total of the two losses, each weighted by one. -/
def total (cls box : Stage.FArr (F := F) S_) : Stage.FArr (F := F) S_ :=
  addf (mulf (constant S_ .f32 0x3F800000#32) cls) (mulf (constant S_ .f32 0x3F800000#32) box)
end Helpers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.StableHlo

/-! ## The stretches after the region, cut before each concatenation -/

/-- Up to the three index columns of the class gather. -/
abbrev seg1 : List (HloOp τ sig (Elt F)) := (hostOps1 (F := F)).take 29
/-- From their concatenation to the two index columns of the box gather. -/
abbrev seg2 : List (HloOp τ sig (Elt F)) := (hostOps1 (F := F)).drop 29 ++ (hostOps1_1 ++ (hostOps1_2 (F := F)).take 21)
/-- From their concatenation to the three results as one-element arrays. -/
abbrev seg3 : List (HloOp τ sig (Elt F)) := (hostOps1_2 (F := F)).drop 21 ++ (hostOps1_3 ++ (hostOps1_4 (F := F)).take 19)
/-- The concatenation of the three results. -/
abbrev seg4 : List (HloOp τ sig (Elt F)) := (hostOps1_4 (F := F)).drop 19

/-- The stretches after the region are the four segments in order. -/
theorem tail_split : List.flatten (tailOps (F := F)) = seg1 ++ (seg2 ++ (seg3 ++ seg4)) := by
  simp only [tailOps, seg1, seg2, seg3, seg4, List.flatten_cons, List.flatten_nil, List.append_nil, List.append_assoc]
  rw [← List.append_assoc (List.take 29 hostOps1), List.take_append_drop,
    ← List.append_assoc (List.take 21 hostOps1_2), List.take_append_drop, List.take_append_drop]

/-- A segment's contents at a reference, computed. -/
macro "seg_eval" : tactic =>
  `(tactic| (simp only [seg1, seg2, seg3, seg4, hostOps1, hostOps1_1, hostOps1_2, hostOps1_3, hostOps1_4, List.take_succ_cons, List.take_zero, List.drop_succ_cons, List.drop_zero, List.cons_append, List.nil_append, List.append_nil]; after_results_simp <;> first | rfl | (simp only [StableHlo.TRef.ofBuf_toBuf, StableHlo.TRef.toBuf_ofBuf] <;> rfl)))

section Seg1
variable (W : Valuation τ sig (Elt F))
set_option maxHeartbeats 4000000
theorem seg1_v69 : after seg1 W (Proc.devRef .tc main_v69) = Stage.s0 (F := F) (W (Proc.devRef .tc main_v68)) := by seg_eval
theorem seg1_v72 : after seg1 W (Proc.devRef .tc main_v72) = Stage.bIdx (F := F) := by seg_eval
theorem seg1_v88 : after seg1 W (Proc.devRef .tc main_v88) = Stage.col (F := F) (Stage.wrap (Stage.bIdx (F := F)) 8#32) := by seg_eval
theorem seg1_v89 : after seg1 W (Proc.devRef .tc main_v89) = Stage.col (F := F) (Stage.wrap (W (Proc.devRef .tc main_v38)) 262144#32) := by seg_eval
theorem seg1_v90 : after seg1 W (Proc.devRef .tc main_v90) = Stage.col (F := F) (Stage.wrap (W (Proc.devRef .tc main_v36)) 10#32) := by seg_eval
theorem seg1_arg0 : after seg1 W (Proc.devRef .tc main_arg0) = W (Proc.devRef .tc main_arg0) := by seg_eval
theorem seg1_arg1 : after seg1 W (Proc.devRef .tc main_arg1) = W (Proc.devRef .tc main_arg1) := by seg_eval
theorem seg1_arg2 : after seg1 W (Proc.devRef .tc main_arg2) = W (Proc.devRef .tc main_arg2) := by seg_eval
theorem seg1_v38 : after seg1 W (Proc.devRef .tc main_v38) = W (Proc.devRef .tc main_v38) := by seg_eval
theorem seg1_v63 : after seg1 W (Proc.devRef .tc main_v63) = W (Proc.devRef .tc main_v63) := by seg_eval
theorem seg1_v66 : after seg1 W (Proc.devRef .tc main_v66) = W (Proc.devRef .tc main_v66) := by seg_eval
end Seg1

section Seg2
variable (W : Valuation τ sig (Elt F))
set_option maxHeartbeats 4000000
theorem seg2_v96 : after seg2 W (Proc.devRef .tc main_v96)
    = clsOf (F := F) (W (Proc.devRef .tc main_v69)) (W (Proc.devRef .tc main_arg0))
        (cat3 (W (Proc.devRef .tc main_v88)) (W (Proc.devRef .tc main_v89)) (W (Proc.devRef .tc main_v90))) (W (Proc.devRef .tc main_v66)) := by seg_eval
theorem seg2_v107 : after seg2 W (Proc.devRef .tc main_v107) = Stage.col (F := F) (Stage.wrap (W (Proc.devRef .tc main_v72)) 8#32) := by seg_eval
theorem seg2_v108 : after seg2 W (Proc.devRef .tc main_v108) = Stage.col (F := F) (Stage.wrap (W (Proc.devRef .tc main_v38)) 262144#32) := by seg_eval
theorem seg2_arg1 : after seg2 W (Proc.devRef .tc main_arg1) = W (Proc.devRef .tc main_arg1) := by seg_eval
theorem seg2_arg2 : after seg2 W (Proc.devRef .tc main_arg2) = W (Proc.devRef .tc main_arg2) := by seg_eval
theorem seg2_v63 : after seg2 W (Proc.devRef .tc main_v63) = W (Proc.devRef .tc main_v63) := by seg_eval
end Seg2

section Seg3
variable (W : Valuation τ sig (Elt F))
set_option maxHeartbeats 4000000
theorem seg3_v133 : after seg3 W (Proc.devRef .tc main_v133)
    = one1 (F := F) (boxOf (W (Proc.devRef .tc main_arg1)) (W (Proc.devRef .tc main_arg2))
        (cat2 (W (Proc.devRef .tc main_v107)) (W (Proc.devRef .tc main_v108))) (W (Proc.devRef .tc main_v63))) := by seg_eval
theorem seg3_v132 : after seg3 W (Proc.devRef .tc main_v132) = one1 (F := F) (W (Proc.devRef .tc main_v96)) := by seg_eval
theorem seg3_v131 : after seg3 W (Proc.devRef .tc main_v131)
    = one1 (F := F) (total (W (Proc.devRef .tc main_v96)) (boxOf (W (Proc.devRef .tc main_arg1)) (W (Proc.devRef .tc main_arg2))
        (cat2 (W (Proc.devRef .tc main_v107)) (W (Proc.devRef .tc main_v108))) (W (Proc.devRef .tc main_v63)))) := by seg_eval
end Seg3

section Seg4
variable (W : Valuation τ sig (Elt F))
theorem seg4_v134 : after seg4 W (Proc.devRef .tc main_v134)
    = cat1 (F := F) (W (Proc.devRef .tc main_v131)) (W (Proc.devRef .tc main_v132)) (W (Proc.devRef .tc main_v133)) := by seg_eval
end Seg4

/-- The last result after the stretches that follow the region, from any contents: the three losses joined, computed from the
    region's output array, the arguments and the four arrays the earlier stretches derive from the ground-truth boxes. -/
theorem tail_aux (WA : Valuation τ sig (Elt F)) :
    after (List.flatten (tailOps (F := F))) WA (Proc.devRef .tc main_v134)
      = Stage.resK (F := F) (Stage.clsK (WA (Proc.devRef .tc main_v68)) (WA (Proc.devRef .tc main_arg0)) (WA (Proc.devRef .tc main_v38)) (WA (Proc.devRef .tc main_v36)) (WA (Proc.devRef .tc main_v66)))
          (Stage.boxK (WA (Proc.devRef .tc main_arg1)) (WA (Proc.devRef .tc main_arg2)) (WA (Proc.devRef .tc main_v38)) (WA (Proc.devRef .tc main_v63))) := by
  rw [tail_split, after_append, after_append, after_append, seg4_v134, seg3_v131, seg3_v132, seg3_v133, seg2_v96, seg2_v107, seg2_v108,
    seg2_arg1, seg2_arg2, seg2_v63, seg1_v69, seg1_v72, seg1_v88, seg1_v89, seg1_v90, seg1_arg0, seg1_arg1, seg1_arg2, seg1_v38, seg1_v63,
    seg1_v66]
  rfl

/-! ## The last result after the run -/

/-- What the run leaves in the result array: the three losses joined, the class loss from the region's output array as the
    run leaves it and the logits, the box loss from the predictions and the boxes, both at the winners the stretches before
    the region mark. The region's output array is the pipeline's second array; every other array read here is written by
    no stretch after the region and is no array of the pipeline, so it is read as the region found it, an argument array
    as launched. -/
theorem tail_value (c : Dev nD) :
    Pipeline.afterTail₀ cfgs (dats m) 0 (V0 m) tailOps c main_v134
      = Stage.resK (F := F)
          (Stage.clsK ((dats m 0 c).arrAt 1 cfg0.N) (m ((c.tc : Thread nD τ).loc main_arg0)) (V m c main_v38) (V m c main_v36) (V m c main_v66))
          (Stage.boxK (m ((c.tc : Thread nD τ).loc main_arg1)) (m ((c.tc : Thread nD τ).loc main_arg2)) (V m c main_v38) (V m c main_v63)) := by
  unfold Pipeline.afterTail₀
  rw [tail_aux,
    show Pipeline.withArrays (cfgs 0).spec c (V0 m c) (fun w => (dats m 0 c).arrAt w (cfgs 0).N) (Proc.devRef .tc main_v68)
        = (dats m 0 c).arrAt 1 cfg0.N from Pipeline.withArrays_arr spec0 launch0.win.arr_inj c _ _ 1,
    Pipeline.withArrays_of_ne _ c (V0 m c) _ main_arg0 (by decide), Pipeline.withArrays_of_ne _ c (V0 m c) _ main_arg1 (by decide),
    Pipeline.withArrays_of_ne _ c (V0 m c) _ main_arg2 (by decide), Pipeline.withArrays_of_ne _ c (V0 m c) _ main_v38 (by decide),
    Pipeline.withArrays_of_ne _ c (V0 m c) _ main_v36 (by decide), Pipeline.withArrays_of_ne _ c (V0 m c) _ main_v66 (by decide),
    Pipeline.withArrays_of_ne _ c (V0 m c) _ main_v63 (by decide)]
  rw [show V0 m c (Proc.devRef .tc main_arg0) = m ((c.tc : Thread nD τ).loc main_arg0) from V_main_arg0 m c,
    show V0 m c (Proc.devRef .tc main_arg1) = m ((c.tc : Thread nD τ).loc main_arg1) from V_main_arg1 m c,
    show V0 m c (Proc.devRef .tc main_arg2) = m ((c.tc : Thread nD τ).loc main_arg2) from V_main_arg2 m c]

end Cert.KernelIdeal.Hand

end
-- ==== Proof.KIHostPre.lean ====
/- What the host operations before the region compute, read off the region-entry contents: which boxes are valid, each
   box's cell number and its label clipped below at zero (the same operations, in the same order, as the reference
   program's first lines), the cell number capped at the last cell, the winners among colliding boxes for the box loss
   and for the class loss, and the logits reshaped to 163840 rows of 128 lanes. -/
import proofs.«402323_j60327110639965_2_alg».proof.Proof.KIFrame
import proofs.«402323_j60327110639965_2_alg».proof.Proof.KIStages
import proofs.«402323_j60327110639965_2_alg».proof.Proof.LibTRefCast
import proofs.«402323_j60327110639965_2_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-! ## The three arrays both programs derive from the ground-truth boxes

Each is the composition of the first stretches' operations over the launch contents of the argument arrays, and the
reference program's first lines are the same operations in the same order. -/

set_option maxHeartbeats 40000000 in
/-- Which boxes are valid. -/
theorem V_v20 (c : Dev nD) : V m c main_v20 = Cert.ReferenceIdeal.ReadP.val_main_v20 (F := F)
    (m ((c.tc : Thread nD τ).loc main_arg2)) (m ((c.tc : Thread nD τ).loc main_arg3)) (m ((c.tc : Thread nD τ).loc main_arg4)) := by
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  rfl

set_option maxHeartbeats 40000000 in
/-- Each box's cell number. -/
theorem V_v35 (c : Dev nD) : V m c main_v35 = Cert.ReferenceIdeal.ReadP.val_main_v35 (F := F) (m ((c.tc : Thread nD τ).loc main_arg2)) := by
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [StableHlo.TRef.ofBuf_toBuf, StableHlo.TRef.toBuf_ofBuf]
  rfl

set_option maxHeartbeats 40000000 in
/-- Each box's label clipped below at zero. -/
theorem V_v36 (c : Dev nD) : V m c main_v36 = Cert.ReferenceIdeal.ReadP.val_main_v40 (F := F) (m ((c.tc : Thread nD τ).loc main_arg3)) := by
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [StableHlo.TRef.ofBuf_toBuf, StableHlo.TRef.toBuf_ofBuf]
  rfl

/-! ## The winners and the reshaped logits

These are written by the stretches after the label's clip, as functions of the three arrays above, which those
stretches do not write: each equation holds from ANY contents at that boundary. -/

/-- The stretches after the label's clip, from any contents. -/
abbrev post5 (W : Valuation τ sig (Elt F)) : Valuation τ sig (Elt F) :=
  after hostOps0_10 (after hostOps0_9 (after hostOps0_8 (after hostOps0_7 (after hostOps0_6 W))))

/-- The region-entry contents as those stretches run from what the earlier ones leave. -/
theorem V0_eq_post5 (c : Dev nD) : V0 m c = post5 (after hostOps0_5 (after hostOps0_4 (after hostOps0_3 (after hostOps0_2
    (after hostOps0_1 (after hostOps0 (fun b => m (c, b)))))))) := by
  dsimp only [V0, post5]
  simp only [List.flatten_cons, List.flatten_nil, List.append_nil, StableHlo.after_append]

set_option maxHeartbeats 4000000 in
theorem v38_aux (W : Valuation τ sig (Elt F)) :
    post5 W (Proc.devRef .tc main_v38) = Stage.idxg (F := F) (post5 W (Proc.devRef .tc main_v35)) := by
  dsimp only [post5]
  simp only [hostOps0_6, hostOps0_7, hostOps0_8, hostOps0_9, hostOps0_10]
  after_results_simp
  rfl

/-- The cell number capped at the last cell. -/
theorem V_v38 (c : Dev nD) : V m c main_v38 = Stage.idxg (F := F) (V m c main_v35) := by
  dsimp only [V]
  rw [V0_eq_post5]
  exact v38_aux _

set_option maxHeartbeats 4000000 in
theorem v63_aux (W : Valuation τ sig (Elt F)) :
    post5 W (Proc.devRef .tc main_v63) = Stage.winBox (F := F) (post5 W (Proc.devRef .tc main_v20)) (post5 W (Proc.devRef .tc main_v35)) := by
  dsimp only [post5]
  simp only [hostOps0_6, hostOps0_7, hostOps0_8, hostOps0_9, hostOps0_10]
  after_results_simp
  simp only [StableHlo.TRef.ofBuf_toBuf, StableHlo.TRef.toBuf_ofBuf]
  rfl

/-- The winners for the box loss: the valid boxes that are the last valid box of their cell. -/
theorem V_v63 (c : Dev nD) : V m c main_v63 = Stage.winBox (F := F) (V m c main_v20) (V m c main_v35) := by
  dsimp only [V]
  rw [V0_eq_post5]
  exact v63_aux _

set_option maxHeartbeats 4000000 in
theorem v66_aux (W : Valuation τ sig (Elt F)) :
    post5 W (Proc.devRef .tc main_v66) = Stage.winCls (F := F) (post5 W (Proc.devRef .tc main_v20)) (post5 W (Proc.devRef .tc main_v35))
      (post5 W (Proc.devRef .tc main_v36)) := by
  dsimp only [post5]
  simp only [hostOps0_6, hostOps0_7, hostOps0_8, hostOps0_9, hostOps0_10]
  after_results_simp
  simp only [StableHlo.TRef.ofBuf_toBuf, StableHlo.TRef.toBuf_ofBuf]
  rfl

/-- The winners for the class loss: the valid boxes that are the last valid box of their (cell, label) pair. -/
theorem V_v66 (c : Dev nD) : V m c main_v66 = Stage.winCls (F := F) (V m c main_v20) (V m c main_v35) (V m c main_v36) := by
  dsimp only [V]
  rw [V0_eq_post5]
  exact v66_aux _

set_option maxHeartbeats 4000000 in
theorem v67_aux (W : Valuation τ sig (Elt F)) :
    post5 W (Proc.devRef .tc main_v67)
      = shapeCast S163840x128 (post5 W (Proc.devRef .tc main_arg0)) Cert.KernelIdeal.Gen.shapeCasts_S8x262144x10_S163840x128 := by
  dsimp only [post5]
  simp only [hostOps0_6, hostOps0_7, hostOps0_8, hostOps0_9, hostOps0_10]
  after_results_simp
  rfl

/-- The logits reshaped to 163840 rows of 128 lanes. -/
theorem V_v67 (c : Dev nD) : V m c main_v67
    = shapeCast S163840x128 (m ((c.tc : Thread nD τ).loc main_arg0)) Cert.KernelIdeal.Gen.shapeCasts_S8x262144x10_S163840x128 := by
  rw [← V_main_arg0 m c]
  dsimp only [V]
  rw [V0_eq_post5]
  exact v67_aux _

/-- info: 'Cert.KernelIdeal.Hand.V_v20' depends on axioms: [propext, Classical.choice, Quot.sound] -/
#guard_msgs in #print axioms V_v20
/-- info: 'Cert.KernelIdeal.Hand.V_v35' depends on axioms: [propext, Classical.choice, Quot.sound] -/
#guard_msgs in #print axioms V_v35
/-- info: 'Cert.KernelIdeal.Hand.V_v36' depends on axioms: [propext, Classical.choice, Quot.sound] -/
#guard_msgs in #print axioms V_v36
/-- info: 'Cert.KernelIdeal.Hand.V_v38' depends on axioms: [propext, Classical.choice, Quot.sound] -/
#guard_msgs in #print axioms V_v38
/-- info: 'Cert.KernelIdeal.Hand.V_v63' depends on axioms: [propext, Classical.choice, Quot.sound] -/
#guard_msgs in #print axioms V_v63
/-- info: 'Cert.KernelIdeal.Hand.V_v66' depends on axioms: [propext, Classical.choice, Quot.sound] -/
#guard_msgs in #print axioms V_v66
/-- info: 'Cert.KernelIdeal.Hand.V_v67' depends on axioms: [propext, Classical.choice, Quot.sound] -/
#guard_msgs in #print axioms V_v67

end Cert.KernelIdeal.Hand

end
-- ==== Proof.LibLastWins.lean ====
/-
  LAST WINS. Among finitely many numbered items, some of them valid, each carrying a key, the WINNER of a key is the
  valid item of largest number carrying it. Every key that some valid item carries has exactly one winner, so a sum
  over keys of a quantity that vanishes at the keys no valid item carries is a sum over the winners.
-/
import Mathlib.Algebra.BigOperators.Group.Finset.Basic
import Mathlib.Data.Fintype.Basic
import Mathlib.Data.Fin.Basic
import Mathlib.Data.Finset.Max
import Mathlib.Order.Fin.Basic

namespace LastWins

variable {N : ℕ} {K : Type*}

/-- `n` is valid and is the LAST index (the largest in `Fin N`) among the valid indices carrying `n`'s key. -/
def IsWinner (valid : Fin N → Prop) (key : Fin N → K) (n : Fin N) : Prop :=
  valid n ∧ ∀ m, valid m → key m = key n → m ≤ n

/-- Being a winner is decidable when validity and equality of keys are: the condition ranges over `Fin N`. -/
instance (valid : Fin N → Prop) [DecidablePred valid] [DecidableEq K] (key : Fin N → K) :
    DecidablePred (IsWinner valid key) := fun n =>
  inferInstanceAs (Decidable (valid n ∧ ∀ m, valid m → key m = key n → m ≤ n))

/-- A winner is valid. -/
theorem IsWinner.valid {valid : Fin N → Prop} {key : Fin N → K} {n : Fin N} (h : IsWinner valid key n) : valid n :=
  h.1

/-- No valid index carrying a winner's key comes after the winner. -/
theorem IsWinner.le {valid : Fin N → Prop} {key : Fin N → K} {n m : Fin N} (h : IsWinner valid key n)
    (hm : valid m) (e : key m = key n) : m ≤ n :=
  h.2 m hm e

/-- A key carried by some valid index has a winner: the largest of the valid indices carrying it. -/
theorem exists_winner {valid : Fin N → Prop} {key : Fin N → K} {k : K} (h : ∃ n, valid n ∧ key n = k) :
    ∃ n, IsWinner valid key n ∧ key n = k := by
  classical
  obtain ⟨n0, hn0⟩ := h
  have hS : (Finset.univ.filter fun n => valid n ∧ key n = k).Nonempty :=
    ⟨n0, Finset.mem_filter.mpr ⟨Finset.mem_univ _, hn0⟩⟩
  obtain ⟨n, hnS, hmax⟩ := Finset.exists_max_image _ (fun n : Fin N => n) hS
  have hn : valid n ∧ key n = k := (Finset.mem_filter.mp hnS).2
  exact ⟨n, ⟨hn.1, fun m hm e => hmax m (Finset.mem_filter.mpr ⟨Finset.mem_univ _, hm, e.trans hn.2⟩)⟩, hn.2⟩

/-- Two winners of the same key are the same index: each is at most the other. -/
theorem winner_unique {valid : Fin N → Prop} {key : Fin N → K} {n n' : Fin N} (h : IsWinner valid key n)
    (h' : IsWinner valid key n') (e : key n = key n') : n = n' :=
  le_antisymm (h'.2 n h.1 e) (h.2 n' h'.1 e.symm)

/-- The winner of a key is characterised by it: an index is the winner of its key exactly when it is the one
    `exists_winner` provides, i.e. any winner with the same key is that index. -/
theorem isWinner_iff_of_key_eq {valid : Fin N → Prop} {key : Fin N → K} {n n' : Fin N} (h : IsWinner valid key n)
    (e : key n' = key n) : IsWinner valid key n' ↔ n' = n :=
  ⟨fun h' => winner_unique h' h e, fun e' => e' ▸ h⟩

/-- A sum over KEYS of a quantity that vanishes at the keys no valid index carries, and at a winner's key equals
    `G` of the winner, is the sum over the winners of `G`. -/
theorem sum_eq_sum_winners {M : Type*} [AddCommMonoid M] [Fintype K] [DecidableEq K] (valid : Fin N → Prop)
    [DecidablePred valid] (key : Fin N → K) (T : K → M) (G : Fin N → M)
    (hwin : ∀ n, IsWinner valid key n → T (key n) = G n)
    (hmiss : ∀ k, (¬ ∃ n, valid n ∧ key n = k) → T k = 0) :
    ∑ k, T k = ∑ n, if IsWinner valid key n then G n else 0 := by
  rw [← Finset.sum_filter]
  -- the winners inject into the keys
  have hinj : Set.InjOn key (Finset.univ.filter (IsWinner valid key) : Finset (Fin N)) := by
    intro n hn n' hn' e
    exact winner_unique (Finset.mem_filter.mp hn).2 (Finset.mem_filter.mp hn').2 e
  calc ∑ k, T k = ∑ k ∈ (Finset.univ.filter (IsWinner valid key)).image key, T k := by
        symm
        -- a key that is no winner's is carried by no valid index
        refine Finset.sum_subset (Finset.subset_univ _) fun k _ hk => hmiss k fun hex => hk ?_
        obtain ⟨n, hn, e⟩ := exists_winner hex
        exact Finset.mem_image.mpr ⟨n, Finset.mem_filter.mpr ⟨Finset.mem_univ _, hn⟩, e⟩
    _ = ∑ n ∈ Finset.univ.filter (IsWinner valid key), T (key n) := Finset.sum_image hinj
    _ = ∑ n ∈ Finset.univ.filter (IsWinner valid key), G n :=
        Finset.sum_congr rfl fun n hn => hwin n (Finset.mem_filter.mp hn).2

end LastWins
-- ==== Proof.KIRead.lean ====
/-
  THE KERNEL'S WINNER MASKS AND ITS TWO GATHERS, READ AT AN INDEX.

  Of the valid boxes of a batch that share a key (a cell, or a cell and a label) the one of largest number wins.
  The masks compute, for box n, the signed maximum over the candidates m of "m where m is valid and shares n's key,
  -1 elsewhere", from the least word, and compare it with n: that maximum is at least every marked m and is attained, and
  the numbers below 128 read the same signed and unsigned, so the mask's bit is set exactly when n is valid and no valid
  box sharing its key has a larger number (`winBox_bit`, `winCls_bit`).

  The gathers read the logits at (batch, cell, label) and the box predictions at (batch, cell, ·). Their start indices
  are columns laid side by side; each component is inside its axis (a batch number below 8, a cell below 262144, a
  label below 10: all far below 2³¹, so the signed reading is the unsigned one), hence neither the wrap of negative
  indices nor the clamp that makes the slice fit moves it, and the gathered element is the operand's at those very
  coordinates (`zAt_apply`, `pAt_apply`).
-/
import proofs.«402323_j60327110639965_2_alg».proof.Proof.KIStages
import proofs.«402323_j60327110639965_2_alg».proof.Proof.LibLastWins
import Idealize.ShloMosaic.Lib.StableHlo.Predicate
import Idealize.ShloMosaic.Lib.ValueIdx
import Idealize.ShloMosaic.Lib.Pipeline.Value
import Mathlib.Data.Finset.Fold
import Mathlib.Order.Fin.Basic

namespace Cert.KernelIdeal.StageRead

open Cert.KernelIdeal Cert.KernelIdeal.Facts₀ Cert.KernelIdeal.Facts Idealize.ShloMosaic Idealize.ShloMosaic.ValueIdx
open Idealize.ShloMosaic.StableHlo.Predicate (cmpi_eq_iff toInt_ofNat_small slt_iff_toNat toInt_eq_toNat_of_lt)

variable {F : FTy → Type} [FloatOps F]

/-! ## Words -/

/-- The conjunction of two bits is set exactly when both are. -/
theorem andi_bit (x y : BitVec 1) : IntOp.andi x y = 1#1 ↔ x = 1#1 ∧ y = 1#1 := by
  rcases BitVec.eq_zero_or_eq_one x with rfl | rfl <;> rcases BitVec.eq_zero_or_eq_one y with rfl | rfl <;> decide

/-- The signed maximum of two words reads, signed, as the maximum of their signed readings. -/
theorem toInt_maxsi (x y : BitVec 32) : (IntOp.maxsi x y).toInt = max x.toInt y.toInt := by
  unfold IntOp.maxsi
  split <;> rename_i h <;> simp only [BitVec.slt, decide_eq_true_eq] at h <;> omega

/-- The signed maximum of two words is one of them. -/
theorem maxsi_eq_or (x y : BitVec 32) : IntOp.maxsi x y = x ∨ IntOp.maxsi x y = y := by
  unfold IntOp.maxsi
  split
  · exact Or.inl rfl
  · exact Or.inr rfl

/-- A fold of the signed maximum is at least its start and every word folded, and is one of them. -/
theorem fold_maxsi_spec {ι : Type} [DecidableEq ι] (S : Finset ι) (g : ι → BitVec 32) (init : BitVec 32) :
    init.toInt ≤ (S.fold IntOp.maxsi init g).toInt ∧ (∀ m ∈ S, (g m).toInt ≤ (S.fold IntOp.maxsi init g).toInt) ∧
      (S.fold IntOp.maxsi init g = init ∨ ∃ m ∈ S, S.fold IntOp.maxsi init g = g m) := by
  induction S using Finset.cons_induction with
  | empty => exact ⟨le_refl _, fun m hm => absurd hm (Finset.notMem_empty m), Or.inl rfl⟩
  | cons a S ha ih =>
    obtain ⟨h1, h2, h3⟩ := ih
    rw [Finset.fold_cons]
    refine ⟨?_, ?_, ?_⟩
    · rw [toInt_maxsi]; omega
    · intro m hm
      rw [toInt_maxsi]
      rcases Finset.mem_cons.mp hm with rfl | hm
      · omega
      · have := h2 m hm; omega
    · rcases maxsi_eq_or (g a) (S.fold IntOp.maxsi init g) with e | e
      · exact Or.inr ⟨a, Finset.mem_cons_self a S, e⟩
      · rw [e]
        rcases h3 with h3 | ⟨m, hm, h3⟩
        · exact Or.inl h3
        · exact Or.inr ⟨m, Finset.mem_cons.mpr (Or.inr hm), h3⟩

/-- Small numbers are told apart by their words. -/
theorem ofNat_inj_small {a b : ℕ} (ha : a < 2 ^ 31) (hb : b < 2 ^ 31) (e : BitVec.ofNat 32 a = BitVec.ofNat 32 b) : a = b := by
  have := congrArg BitVec.toInt e
  rw [toInt_ofNat_small a ha, toInt_ofNat_small b hb] at this
  exact_mod_cast this

/-- THE LAST MARKED NUMBER. The signed maximum, from the least word, of the words "m where m is marked, -1 elsewhere" over
    m below N is n's word exactly when n is marked and no marked number exceeds n. -/
theorem fold_marked_eq_iff {N : ℕ} (hN : N ≤ 2 ^ 31) (P : Fin N → Prop) (g : Fin N → BitVec 32)
    (hg1 : ∀ m, P m → g m = BitVec.ofNat 32 m.val) (hg0 : ∀ m, ¬ P m → g m = 4294967295#32) (n : Fin N) :
    (Finset.univ : Finset (Fin N)).fold IntOp.maxsi 2147483648#32 g = BitVec.ofNat 32 n.val ↔ P n ∧ ∀ m, P m → m ≤ n := by
  obtain ⟨h1, h2, h3⟩ := fold_maxsi_spec (Finset.univ : Finset (Fin N)) g 2147483648#32
  have hlt : ∀ m : Fin N, m.val < 2 ^ 31 := fun m => lt_of_lt_of_le m.isLt hN
  have hmin : (2147483648#32 : BitVec 32).toInt = -2147483648 := by decide
  have hneg : (4294967295#32 : BitVec 32).toInt = -1 := by decide
  constructor
  · intro e
    rw [e, toInt_ofNat_small n.val (hlt n)] at h1 h2
    have hPn : P n := by
      rcases h3 with h3 | ⟨m, _, h3⟩
      · rw [e] at h3
        have := congrArg BitVec.toInt h3
        rw [toInt_ofNat_small n.val (hlt n), hmin] at this
        omega
      · rw [e] at h3
        by_cases hm : P m
        · rw [hg1 m hm] at h3
          have := ofNat_inj_small (hlt n) (hlt m) h3
          rwa [Fin.ext this]
        · rw [hg0 m hm] at h3
          have := congrArg BitVec.toInt h3
          rw [toInt_ofNat_small n.val (hlt n), hneg] at this
          omega
    refine ⟨hPn, fun m hm => ?_⟩
    have := h2 m (Finset.mem_univ m)
    rw [hg1 m hm, toInt_ofNat_small m.val (hlt m)] at this
    exact Fin.le_def.mpr (by exact_mod_cast this)
  · rintro ⟨hPn, hmax⟩
    have hge := h2 n (Finset.mem_univ n)
    rw [hg1 n hPn, toInt_ofNat_small n.val (hlt n)] at hge
    rcases h3 with h3 | ⟨m, _, h3⟩
    · rw [h3, hmin] at hge; omega
    · by_cases hm : P m
      · rw [h3, hg1 m hm, toInt_ofNat_small m.val (hlt m)] at hge
        have hle : m.val ≤ n.val := Fin.le_def.mp (hmax m hm)
        have : m = n := Fin.ext (by omega)
        rw [h3, hg1 m hm, this]
      · rw [h3, hg0 m hm, hneg] at hge; omega

/-! ## The comparison lattice read at (batch, n, m) -/

/-- An array laid along the query axis reads, at (b, n, m), the array at (b, n). -/
theorem alongN_apply (x : Stage.WArr (F := F) S8x128) (b : Fin 8) (n m : Fin 128) :
    Stage.alongN (F := F) x (ix3 b n m) = x (ix2 b n) := by
  unfold Stage.alongN
  simp only [broadcastInDim]
  congr 1
  funext a
  match a with
  | ⟨0, _⟩ => rfl
  | ⟨1, _⟩ => rfl

/-- An array laid along the candidate axis reads, at (b, n, m), the array at (b, m). -/
theorem alongM_apply (x : Stage.WArr (F := F) S8x128) (b : Fin 8) (n m : Fin 128) :
    Stage.alongM (F := F) x (ix3 b n m) = x (ix2 b m) := by
  unfold Stage.alongM
  simp only [broadcastInDim]
  congr 1
  funext a
  match a with
  | ⟨0, _⟩ => rfl
  | ⟨1, _⟩ => rfl

/-- The validity bits laid along the candidate axis read, at (b, n, m), the bit at (b, m). -/
theorem validM_apply (vld : Stage.BArr (F := F) S8x128) (b : Fin 8) (n m : Fin 128) :
    Stage.validM (F := F) vld (ix3 b n m) = vld (ix2 b m) := by
  unfold Stage.validM
  simp only [broadcastInDim]
  congr 1
  funext a
  match a with
  | ⟨0, _⟩ => rfl
  | ⟨1, _⟩ => rfl

/-- Candidate m is marked for box n of batch b exactly when it is valid and falls in n's cell. -/
theorem sameCell_bit (vld : Stage.BArr (F := F) S8x128) (idx : Stage.WArr (F := F) S8x128) (b : Fin 8) (n m : Fin 128) :
    Stage.sameCell (F := F) vld idx (ix3 b n m) = 1#1 ↔ vld (ix2 b m) = 1#1 ∧ idx (ix2 b m) = idx (ix2 b n) := by
  unfold Stage.sameCell
  show IntOp.andi (IntOp.cmpi .eq (Stage.alongN (F := F) idx (ix3 b n m)) (Stage.alongM (F := F) idx (ix3 b n m)))
    (Stage.validM (F := F) vld (ix3 b n m)) = 1#1 ↔ _
  rw [andi_bit, cmpi_eq_iff, alongN_apply, alongM_apply, validM_apply]
  exact ⟨fun h => ⟨h.2, h.1.symm⟩, fun h => ⟨h.2.symm, h.1⟩⟩

/-- … and, for the class loss, carries n's label too. -/
theorem sameCellLabel_bit (vld : Stage.BArr (F := F) S8x128) (idx lbl : Stage.WArr (F := F) S8x128) (b : Fin 8) (n m : Fin 128) :
    Stage.sameCellLabel (F := F) vld idx lbl (ix3 b n m) = 1#1 ↔
      vld (ix2 b m) = 1#1 ∧ (idx (ix2 b m), lbl (ix2 b m)) = (idx (ix2 b n), lbl (ix2 b n)) := by
  unfold Stage.sameCellLabel
  show IntOp.andi (Stage.sameCell (F := F) vld idx (ix3 b n m))
    (IntOp.cmpi .eq (Stage.alongN (F := F) lbl (ix3 b n m)) (Stage.alongM (F := F) lbl (ix3 b n m))) = 1#1 ↔ _
  rw [andi_bit, sameCell_bit, cmpi_eq_iff, alongN_apply, alongM_apply, Prod.mk.injEq]
  exact ⟨fun h => ⟨h.1.1, h.1.2, h.2.symm⟩, fun h => ⟨⟨h.1, h.2.1⟩, h.2.2.symm⟩⟩

/-- The candidate numbers read, at (b, n, m), the word of m where the mask is set … -/
theorem maskedIota_one (mask : Stage.BArr (F := F) S8x128x128) (b : Fin 8) (n m : Fin 128) (h : mask (ix3 b n m) = 1#1) :
    Stage.maskedIota (F := F) mask (ix3 b n m) = BitVec.ofNat 32 m.val := by
  unfold Stage.maskedIota
  rw [select_apply, h, select_one]
  rfl

/-- … and -1 where it is not. -/
theorem maskedIota_zero (mask : Stage.BArr (F := F) S8x128x128) (b : Fin 8) (n m : Fin 128) (h : ¬ mask (ix3 b n m) = 1#1) :
    Stage.maskedIota (F := F) mask (ix3 b n m) = 4294967295#32 := by
  unfold Stage.maskedIota
  rw [select_apply, eq_zero_of_ne_one h, select_zero]
  rfl

/-- Dropping the candidate axis of the lattice leaves the boxes. -/
theorem reduces_S8x128x128_S8x128_d2 : S8x128x128.Reduces [2] S8x128 := by decide

/-- Box n of batch b with candidate m is the lattice point (b, n, m). -/
theorem lift_ix2 (b : Fin 8) (n m : Fin 128) : reduces_S8x128x128_S8x128_d2.lift (ix2 b n) m = ix3 b n m := by
  funext c
  match c with
  | ⟨0, _⟩ => rfl
  | ⟨1, _⟩ => rfl
  | ⟨2, _⟩ => rfl

/-- The largest marked candidate number of box n of batch b is n's word exactly when n is marked and no marked
    candidate exceeds it. -/
theorem lastMarked_eq_iff (mask : Stage.BArr (F := F) S8x128x128) (b : Fin 8) (n : Fin 128) :
    Stage.lastMarked (F := F) mask (ix2 b n) = BitVec.ofNat 32 n.val ↔
      mask (ix3 b n n) = 1#1 ∧ ∀ m : Fin 128, mask (ix3 b n m) = 1#1 → m ≤ n := by
  unfold Stage.lastMarked
  rw [Host.reduce_eq_fold_single IntOp.maxsi _ _ _ reduces_S8x128x128_S8x128_d2 _ (ix2 b n)]
  refine fold_marked_eq_iff (N := 128) (by norm_num) (fun m => mask (ix3 b n m) = 1#1) _ ?_ ?_ n
  · intro m hm
    show Stage.maskedIota (F := F) mask (reduces_S8x128x128_S8x128_d2.lift (ix2 b n) m) = _
    rw [lift_ix2]; exact maskedIota_one mask b n m hm
  · intro m hm
    show Stage.maskedIota (F := F) mask (reduces_S8x128x128_S8x128_d2.lift (ix2 b n) m) = _
    rw [lift_ix2]; exact maskedIota_zero mask b n m hm

/-- Each box's own number reads, at (b, n), the word of n. -/
theorem iotaN_apply (b : Fin 8) (n : Fin 128) : Stage.iotaN (F := F) (ix2 b n) = BitVec.ofNat 32 n.val := rfl

/-! ## The winner masks -/

/-- THE BOX MASK. Box n of batch b is marked exactly when it is valid and no valid box of its cell has a larger number. -/
theorem winBox_bit (vld : Stage.BArr (F := F) S8x128) (idx : Stage.WArr (F := F) S8x128) (b : Fin 8) (n : Fin 128) :
    Stage.winBox (F := F) vld idx (ix2 b n) = 1#1 ↔
      LastWins.IsWinner (fun m : Fin 128 => vld (ix2 b m) = 1#1) (fun m : Fin 128 => idx (ix2 b m)) n := by
  unfold Stage.winBox LastWins.IsWinner
  show IntOp.andi (vld (ix2 b n)) (IntOp.cmpi .eq (Stage.lastMarked (F := F) (Stage.sameCell (F := F) vld idx) (ix2 b n))
    (Stage.iotaN (F := F) (ix2 b n))) = 1#1 ↔ _
  rw [andi_bit, cmpi_eq_iff, iotaN_apply, lastMarked_eq_iff]
  constructor
  · rintro ⟨hv, _, hmax⟩
    exact ⟨hv, fun m hvm hk => hmax m ((sameCell_bit vld idx b n m).mpr ⟨hvm, hk⟩)⟩
  · rintro ⟨hv, hmax⟩
    refine ⟨hv, (sameCell_bit vld idx b n n).mpr ⟨hv, rfl⟩, fun m hm => ?_⟩
    have h := (sameCell_bit vld idx b n m).mp hm
    exact hmax m h.1 h.2

/-- THE CLASS MASK. Box n of batch b is marked exactly when it is valid and no valid box of its cell and label has a larger
    number. -/
theorem winCls_bit (vld : Stage.BArr (F := F) S8x128) (idx lbl : Stage.WArr (F := F) S8x128) (b : Fin 8) (n : Fin 128) :
    Stage.winCls (F := F) vld idx lbl (ix2 b n) = 1#1 ↔
      LastWins.IsWinner (fun m : Fin 128 => vld (ix2 b m) = 1#1) (fun m : Fin 128 => (idx (ix2 b m), lbl (ix2 b m))) n := by
  unfold Stage.winCls LastWins.IsWinner
  show IntOp.andi (vld (ix2 b n)) (IntOp.cmpi .eq (Stage.lastMarked (F := F) (Stage.sameCellLabel (F := F) vld idx lbl) (ix2 b n))
    (Stage.iotaN (F := F) (ix2 b n))) = 1#1 ↔ _
  rw [andi_bit, cmpi_eq_iff, iotaN_apply, lastMarked_eq_iff]
  constructor
  · rintro ⟨hv, _, hmax⟩
    exact ⟨hv, fun m hvm hk => hmax m ((sameCellLabel_bit vld idx lbl b n m).mpr ⟨hvm, hk⟩)⟩
  · rintro ⟨hv, hmax⟩
    refine ⟨hv, (sameCellLabel_bit vld idx lbl b n n).mpr ⟨hv, rfl⟩, fun m hm => ?_⟩
    have h := (sameCellLabel_bit vld idx lbl b n m).mp hm
    exact hmax m h.1 h.2

/-! ## The index columns -/

/-- A non-negative index is left alone by the wrap of negative indices. -/
theorem wrap_apply (x : Stage.WArr (F := F) S8x128) (k : BitVec 32) (i : S8x128.Idx) (h : (x i).toNat < 2 ^ 31) :
    Stage.wrap (F := F) x k i = x i := by
  unfold Stage.wrap
  rw [select_apply]
  have hc : ¬ (cmpi .slt x (broadcastInDim S8x128 ![] bcast_S_S8x128 (constantI S_ 32 0#32)) i = 1#1) := by
    show ¬ IntOp.cmpi .slt (x i) 0#32 = 1#1
    rw [slt_iff_toNat h (by decide)]
    exact Nat.not_lt_zero _
  rw [eq_zero_of_ne_one hc, select_zero]

/-- The batch number reads, at (b, n), the word of b. -/
theorem bIdx_apply (b : Fin 8) (n : Fin 128) : Stage.bIdx (F := F) (ix2 b n) = BitVec.ofNat 32 b.val := rfl

/-- A cell number that is a cell's is left alone by the cap at the last cell. -/
theorem idxg_apply (idx : Stage.WArr (F := F) S8x128) (i : S8x128.Idx) (h : (idx i).toNat < 262144) :
    Stage.idxg (F := F) idx i = idx i := by
  unfold Stage.idxg
  show IntOp.minsi (idx i) 262143#32 = idx i
  unfold IntOp.minsi
  split
  · rfl
  · rename_i hc
    simp only [BitVec.slt, decide_eq_true_eq, toInt_eq_toNat_of_lt (a := idx i) (by omega)] at hc
    have h2 : (262143#32 : BitVec 32).toInt = 262143 := by decide
    rw [h2] at hc
    apply BitVec.eq_of_toNat_eq
    have h3 : (262143#32 : BitVec 32).toNat = 262143 := by decide
    rw [h3]; omega

/-- A per-box index as a column reads, at (b, n, 0), the index at (b, n). -/
theorem col_apply (x : Stage.WArr (F := F) S8x128) (b : Fin 8) (n : Fin 128) (k : Fin 1) :
    Stage.col (F := F) x (ix3 b n k) = x (ix2 b n) := by
  unfold Stage.col
  simp only [broadcastInDim]
  congr 1
  funext a
  match a with
  | ⟨0, _⟩ => rfl
  | ⟨1, _⟩ => rfl

/-- Column k of the (batch, cell, label) index vectors. -/
theorem gIdx3_0 (ig lbl : Stage.WArr (F := F) S8x128) (b : Fin 8) (n : Fin 128) :
    Stage.gIdx3 (F := F) ig lbl (ix3 b n 0) = Stage.wrap (F := F) (Stage.bIdx (F := F)) 8#32 (ix2 b n) := by
  rw [← col_apply (Stage.wrap (F := F) (Stage.bIdx (F := F)) 8#32) b n 0]
  unfold Stage.gIdx3
  refine concatenate_apply_piece _ _ _ _ 0 ?_ S8x128x1 (Stage.col (F := F) (Stage.wrap (F := F) (Stage.bIdx (F := F)) 8#32)) ?_ ?_ 0 ?_ (ix3 b n 0) ?_ ?_
  · exact (by decide : (0 : ℕ) < 3)
  · rfl
  · rfl
  · rfl
  · intro c hc
    match c with
    | ⟨0, _⟩ => rfl
    | ⟨1, _⟩ => rfl
    | ⟨2, _⟩ => exact absurd rfl hc
  · rfl
theorem gIdx3_1 (ig lbl : Stage.WArr (F := F) S8x128) (b : Fin 8) (n : Fin 128) :
    Stage.gIdx3 (F := F) ig lbl (ix3 b n 1) = Stage.wrap (F := F) ig 262144#32 (ix2 b n) := by
  rw [← col_apply (Stage.wrap (F := F) ig 262144#32) b n 0]
  unfold Stage.gIdx3
  refine concatenate_apply_piece _ _ _ _ 1 ?_ S8x128x1 (Stage.col (F := F) (Stage.wrap (F := F) ig 262144#32)) ?_ ?_ 1 ?_ (ix3 b n 0) ?_ ?_
  · exact (by decide : (1 : ℕ) < 3)
  · rfl
  · rfl
  · rfl
  · intro c hc
    match c with
    | ⟨0, _⟩ => rfl
    | ⟨1, _⟩ => rfl
    | ⟨2, _⟩ => exact absurd rfl hc
  · rfl
theorem gIdx3_2 (ig lbl : Stage.WArr (F := F) S8x128) (b : Fin 8) (n : Fin 128) :
    Stage.gIdx3 (F := F) ig lbl (ix3 b n 2) = Stage.wrap (F := F) lbl 10#32 (ix2 b n) := by
  rw [← col_apply (Stage.wrap (F := F) lbl 10#32) b n 0]
  unfold Stage.gIdx3
  refine concatenate_apply_piece _ _ _ _ 2 ?_ S8x128x1 (Stage.col (F := F) (Stage.wrap (F := F) lbl 10#32)) ?_ ?_ 2 ?_ (ix3 b n 0) ?_ ?_
  · exact (by decide : (2 : ℕ) < 3)
  · rfl
  · rfl
  · rfl
  · intro c hc
    match c with
    | ⟨0, _⟩ => rfl
    | ⟨1, _⟩ => rfl
    | ⟨2, _⟩ => exact absurd rfl hc
  · rfl

/-- Column k of the (batch, cell) index vectors. -/
theorem gIdx2_0 (ig : Stage.WArr (F := F) S8x128) (b : Fin 8) (n : Fin 128) :
    Stage.gIdx2 (F := F) ig (ix3 b n 0) = Stage.wrap (F := F) (Stage.bIdx (F := F)) 8#32 (ix2 b n) := by
  rw [← col_apply (Stage.wrap (F := F) (Stage.bIdx (F := F)) 8#32) b n 0]
  unfold Stage.gIdx2
  refine concatenate_apply_piece _ _ _ _ 0 ?_ S8x128x1 (Stage.col (F := F) (Stage.wrap (F := F) (Stage.bIdx (F := F)) 8#32)) ?_ ?_ 0 ?_ (ix3 b n 0) ?_ ?_
  · exact (by decide : (0 : ℕ) < 2)
  · rfl
  · rfl
  · rfl
  · intro c hc
    match c with
    | ⟨0, _⟩ => rfl
    | ⟨1, _⟩ => rfl
    | ⟨2, _⟩ => exact absurd rfl hc
  · rfl
theorem gIdx2_1 (ig : Stage.WArr (F := F) S8x128) (b : Fin 8) (n : Fin 128) :
    Stage.gIdx2 (F := F) ig (ix3 b n 1) = Stage.wrap (F := F) ig 262144#32 (ix2 b n) := by
  rw [← col_apply (Stage.wrap (F := F) ig 262144#32) b n 0]
  unfold Stage.gIdx2
  refine concatenate_apply_piece _ _ _ _ 1 ?_ S8x128x1 (Stage.col (F := F) (Stage.wrap (F := F) ig 262144#32)) ?_ ?_ 1 ?_ (ix3 b n 0) ?_ ?_
  · exact (by decide : (1 : ℕ) < 2)
  · rfl
  · rfl
  · rfl
  · intro c hc
    match c with
    | ⟨0, _⟩ => rfl
    | ⟨1, _⟩ => rfl
    | ⟨2, _⟩ => exact absurd rfl hc
  · rfl

/-! ## The two gathers -/

/-- A start index inside the axis, read signed and clamped so that a one-element slice fits, is itself. -/
theorem clamp_inside (w : BitVec 32) (N : ℕ) (hN : N ≤ 2 ^ 31) (hw : w.toNat < N) : min w.toInt.toNat (N - 1) = w.toNat := by
  rw [toInt_eq_toNat_of_lt (by omega)]
  simp only [Int.toNat_natCast]
  omega

/-- The word of a batch number reads as the batch number. -/
theorem toNat_ofNat_fin8 (b : Fin 8) : (BitVec.ofNat 32 b.val).toNat = b.val := by
  simp only [BitVec.toNat_ofNat]; omega

/-- THE LOGIT GATHER read at (b, n): the logit of batch b at box n's cell and label. -/
theorem zAt_apply (x0 : Stage.FArr (F := F) S8x262144x10) (idx lbl : Stage.WArr (F := F) S8x128)
    (hidx : ∀ j, (idx j).toNat < 262144) (hlbl : ∀ j, (lbl j).toNat < 10) (b : Fin 8) (n : Fin 128) :
    Stage.zAt (F := F) x0 (Stage.idxg (F := F) idx) lbl (ix2 b n)
      = x0 (ix3 b ⟨(idx (ix2 b n)).toNat, hidx _⟩ ⟨(lbl (ix2 b n)).toNat, hlbl _⟩) := by
  unfold Stage.zAt Host.gather
  congr 1
  funext a
  apply Fin.ext
  have hg : ∀ i, (Stage.idxg (F := F) idx i).toNat < 262144 := fun i => by rw [idxg_apply idx i (hidx i)]; exact hidx i
  match a with
  | ⟨0, _⟩ =>
    show gather_S8x262144x10_S8x128x3_S8x128_n_012_n_n_012_2_111.start (ix2 b n) (Stage.gIdx3 (F := F) (Stage.idxg (F := F) idx) lbl) 0
      + gather_S8x262144x10_S8x128x3_S8x128_n_012_n_n_012_2_111.batchCoord (ix2 b n) 0
      + gather_S8x262144x10_S8x128x3_S8x128_n_012_n_n_012_2_111.offCoord (ix2 b n) 0 = b.val
    rw [GatherDims.batchCoord_eq_zero _ _ _ List.not_mem_nil,
      GatherDims.offCoord_eq_zero _ _ _ (fun h => ((GatherDims.mem_sKept _ _).mp h).1 (show (0 : Fin 3) ∈ ([0, 1, 2] : List (Fin 3)) by decide))]
    have hmem : (0 : Fin 3) ∈ gather_S8x262144x10_S8x128x3_S8x128_n_012_n_n_012_2_111.startIndexMap :=
      show (0 : Fin 3) ∈ ([0, 1, 2] : List (Fin 3)) by decide
    have hsi : gather_S8x262144x10_S8x128x3_S8x128_n_012_n_n_012_2_111.siIdx (ix2 b n)
        ⟨List.idxOf (0 : Fin 3) gather_S8x262144x10_S8x128x3_S8x128_n_012_n_n_012_2_111.startIndexMap, List.idxOf_lt_length_iff.2 hmem⟩
        = ix3 b n 0 := by
      funext c; refine Fin.ext ?_
      match c with
      | ⟨0, _⟩ => rfl
      | ⟨1, _⟩ => rfl
      | ⟨2, _⟩ => rfl
    unfold GatherDims.start
    rw [dif_pos hmem, hsi, gIdx3_0, wrap_apply _ _ _ (by rw [bIdx_apply, toNat_ofNat_fin8]; omega), bIdx_apply]
    show min (BitVec.ofNat 32 b.val).toInt.toNat (8 - 1) + 0 + 0 = b.val
    rw [clamp_inside _ 8 (by norm_num) (by rw [toNat_ofNat_fin8]; exact b.isLt), toNat_ofNat_fin8, Nat.add_zero]
  | ⟨1, _⟩ =>
    show gather_S8x262144x10_S8x128x3_S8x128_n_012_n_n_012_2_111.start (ix2 b n) (Stage.gIdx3 (F := F) (Stage.idxg (F := F) idx) lbl) 1
      + gather_S8x262144x10_S8x128x3_S8x128_n_012_n_n_012_2_111.batchCoord (ix2 b n) 1
      + gather_S8x262144x10_S8x128x3_S8x128_n_012_n_n_012_2_111.offCoord (ix2 b n) 1 = (idx (ix2 b n)).toNat
    rw [GatherDims.batchCoord_eq_zero _ _ _ List.not_mem_nil,
      GatherDims.offCoord_eq_zero _ _ _ (fun h => ((GatherDims.mem_sKept _ _).mp h).1 (show (1 : Fin 3) ∈ ([0, 1, 2] : List (Fin 3)) by decide))]
    have hmem : (1 : Fin 3) ∈ gather_S8x262144x10_S8x128x3_S8x128_n_012_n_n_012_2_111.startIndexMap :=
      show (1 : Fin 3) ∈ ([0, 1, 2] : List (Fin 3)) by decide
    have hsi : gather_S8x262144x10_S8x128x3_S8x128_n_012_n_n_012_2_111.siIdx (ix2 b n)
        ⟨List.idxOf (1 : Fin 3) gather_S8x262144x10_S8x128x3_S8x128_n_012_n_n_012_2_111.startIndexMap, List.idxOf_lt_length_iff.2 hmem⟩
        = ix3 b n 1 := by
      funext c; refine Fin.ext ?_
      match c with
      | ⟨0, _⟩ => rfl
      | ⟨1, _⟩ => rfl
      | ⟨2, _⟩ => rfl
    unfold GatherDims.start
    rw [dif_pos hmem, hsi, gIdx3_1, wrap_apply _ _ _ (by have := hg (ix2 b n); omega), idxg_apply idx _ (hidx _)]
    show min (idx (ix2 b n)).toInt.toNat (262144 - 1) + 0 + 0 = (idx (ix2 b n)).toNat
    rw [clamp_inside _ 262144 (by norm_num) (hidx _), Nat.add_zero]
  | ⟨2, _⟩ =>
    show gather_S8x262144x10_S8x128x3_S8x128_n_012_n_n_012_2_111.start (ix2 b n) (Stage.gIdx3 (F := F) (Stage.idxg (F := F) idx) lbl) 2
      + gather_S8x262144x10_S8x128x3_S8x128_n_012_n_n_012_2_111.batchCoord (ix2 b n) 2
      + gather_S8x262144x10_S8x128x3_S8x128_n_012_n_n_012_2_111.offCoord (ix2 b n) 2 = (lbl (ix2 b n)).toNat
    rw [GatherDims.batchCoord_eq_zero _ _ _ List.not_mem_nil,
      GatherDims.offCoord_eq_zero _ _ _ (fun h => ((GatherDims.mem_sKept _ _).mp h).1 (show (2 : Fin 3) ∈ ([0, 1, 2] : List (Fin 3)) by decide))]
    have hmem : (2 : Fin 3) ∈ gather_S8x262144x10_S8x128x3_S8x128_n_012_n_n_012_2_111.startIndexMap :=
      show (2 : Fin 3) ∈ ([0, 1, 2] : List (Fin 3)) by decide
    have hsi : gather_S8x262144x10_S8x128x3_S8x128_n_012_n_n_012_2_111.siIdx (ix2 b n)
        ⟨List.idxOf (2 : Fin 3) gather_S8x262144x10_S8x128x3_S8x128_n_012_n_n_012_2_111.startIndexMap, List.idxOf_lt_length_iff.2 hmem⟩
        = ix3 b n 2 := by
      funext c; refine Fin.ext ?_
      match c with
      | ⟨0, _⟩ => rfl
      | ⟨1, _⟩ => rfl
      | ⟨2, _⟩ => rfl
    unfold GatherDims.start
    rw [dif_pos hmem, hsi, gIdx3_2, wrap_apply _ _ _ (by have := hlbl (ix2 b n); omega)]
    show min (lbl (ix2 b n)).toInt.toNat (10 - 1) + 0 + 0 = (lbl (ix2 b n)).toNat
    rw [clamp_inside _ 10 (by norm_num) (hlbl _), Nat.add_zero]

/-- THE PREDICTION GATHER read at (b, n, d): parameter d of batch b's prediction at box n's cell. -/
theorem pAt_apply (x1 : Stage.FArr (F := F) S8x262144x7) (idx : Stage.WArr (F := F) S8x128)
    (hidx : ∀ j, (idx j).toNat < 262144) (b : Fin 8) (n : Fin 128) (d : Fin 7) :
    Stage.pAt (F := F) x1 (Stage.idxg (F := F) idx) (ix3 b n d) = x1 (ix3 b ⟨(idx (ix2 b n)).toNat, hidx _⟩ d) := by
  unfold Stage.pAt Host.gather
  congr 1
  funext a
  apply Fin.ext
  have hg : ∀ i, (Stage.idxg (F := F) idx i).toNat < 262144 := fun i => by rw [idxg_apply idx i (hidx i)]; exact hidx i
  match a with
  | ⟨0, _⟩ =>
    show gather_S8x262144x7_S8x128x2_S8x128x7_2_01_n_n_01_2_117.start (ix3 b n d) (Stage.gIdx2 (F := F) (Stage.idxg (F := F) idx)) 0
      + gather_S8x262144x7_S8x128x2_S8x128x7_2_01_n_n_01_2_117.batchCoord (ix3 b n d) 0
      + gather_S8x262144x7_S8x128x2_S8x128x7_2_01_n_n_01_2_117.offCoord (ix3 b n d) 0 = b.val
    rw [GatherDims.batchCoord_eq_zero _ _ _ List.not_mem_nil,
      GatherDims.offCoord_eq_zero _ _ _ (fun h => ((GatherDims.mem_sKept _ _).mp h).1 (show (0 : Fin 3) ∈ ([0, 1] : List (Fin 3)) by decide))]
    have hmem : (0 : Fin 3) ∈ gather_S8x262144x7_S8x128x2_S8x128x7_2_01_n_n_01_2_117.startIndexMap :=
      show (0 : Fin 3) ∈ ([0, 1] : List (Fin 3)) by decide
    have hsi : gather_S8x262144x7_S8x128x2_S8x128x7_2_01_n_n_01_2_117.siIdx (ix3 b n d)
        ⟨List.idxOf (0 : Fin 3) gather_S8x262144x7_S8x128x2_S8x128x7_2_01_n_n_01_2_117.startIndexMap, List.idxOf_lt_length_iff.2 hmem⟩
        = ix3 b n 0 := by
      funext c; refine Fin.ext ?_
      match c with
      | ⟨0, _⟩ => rfl
      | ⟨1, _⟩ => rfl
      | ⟨2, _⟩ => rfl
    unfold GatherDims.start
    rw [dif_pos hmem, hsi, gIdx2_0, wrap_apply _ _ _ (by rw [bIdx_apply, toNat_ofNat_fin8]; omega), bIdx_apply]
    show min (BitVec.ofNat 32 b.val).toInt.toNat (8 - 1) + 0 + 0 = b.val
    rw [clamp_inside _ 8 (by norm_num) (by rw [toNat_ofNat_fin8]; exact b.isLt), toNat_ofNat_fin8, Nat.add_zero]
  | ⟨1, _⟩ =>
    show gather_S8x262144x7_S8x128x2_S8x128x7_2_01_n_n_01_2_117.start (ix3 b n d) (Stage.gIdx2 (F := F) (Stage.idxg (F := F) idx)) 1
      + gather_S8x262144x7_S8x128x2_S8x128x7_2_01_n_n_01_2_117.batchCoord (ix3 b n d) 1
      + gather_S8x262144x7_S8x128x2_S8x128x7_2_01_n_n_01_2_117.offCoord (ix3 b n d) 1 = (idx (ix2 b n)).toNat
    rw [GatherDims.batchCoord_eq_zero _ _ _ List.not_mem_nil,
      GatherDims.offCoord_eq_zero _ _ _ (fun h => ((GatherDims.mem_sKept _ _).mp h).1 (show (1 : Fin 3) ∈ ([0, 1] : List (Fin 3)) by decide))]
    have hmem : (1 : Fin 3) ∈ gather_S8x262144x7_S8x128x2_S8x128x7_2_01_n_n_01_2_117.startIndexMap :=
      show (1 : Fin 3) ∈ ([0, 1] : List (Fin 3)) by decide
    have hsi : gather_S8x262144x7_S8x128x2_S8x128x7_2_01_n_n_01_2_117.siIdx (ix3 b n d)
        ⟨List.idxOf (1 : Fin 3) gather_S8x262144x7_S8x128x2_S8x128x7_2_01_n_n_01_2_117.startIndexMap, List.idxOf_lt_length_iff.2 hmem⟩
        = ix3 b n 1 := by
      funext c; refine Fin.ext ?_
      match c with
      | ⟨0, _⟩ => rfl
      | ⟨1, _⟩ => rfl
      | ⟨2, _⟩ => rfl
    unfold GatherDims.start
    rw [dif_pos hmem, hsi, gIdx2_1, wrap_apply _ _ _ (by have := hg (ix2 b n); omega), idxg_apply idx _ (hidx _)]
    show min (idx (ix2 b n)).toInt.toNat (262144 - 1) + 0 + 0 = (idx (ix2 b n)).toNat
    rw [clamp_inside _ 262144 (by norm_num) (hidx _), Nat.add_zero]
  | ⟨2, _⟩ =>
    show gather_S8x262144x7_S8x128x2_S8x128x7_2_01_n_n_01_2_117.start (ix3 b n d) (Stage.gIdx2 (F := F) (Stage.idxg (F := F) idx)) 2
      + gather_S8x262144x7_S8x128x2_S8x128x7_2_01_n_n_01_2_117.batchCoord (ix3 b n d) 2
      + gather_S8x262144x7_S8x128x2_S8x128x7_2_01_n_n_01_2_117.offCoord (ix3 b n d) 2 = d.val
    rw [GatherDims.batchCoord_eq_zero _ _ _ List.not_mem_nil]
    have hstart : gather_S8x262144x7_S8x128x2_S8x128x7_2_01_n_n_01_2_117.start (ix3 b n d) (Stage.gIdx2 (F := F) (Stage.idxg (F := F) idx)) 2 = 0 := by
      unfold GatherDims.start
      rw [dif_neg (show (2 : Fin 3) ∉ gather_S8x262144x7_S8x128x2_S8x128x7_2_01_n_n_01_2_117.startIndexMap from (by decide : (2 : Fin 3) ∉ ([0, 1] : List (Fin 3))))]
    have hoff : gather_S8x262144x7_S8x128x2_S8x128x7_2_01_n_n_01_2_117.offCoord (ix3 b n d) 2 = d.val := by
      unfold GatherDims.offCoord
      rw [dif_pos ((GatherDims.mem_sKept gather_S8x262144x7_S8x128x2_S8x128x7_2_01_n_n_01_2_117 2).mpr ⟨(by decide : (2 : Fin 3) ∉ ([0, 1] : List (Fin 3))), List.not_mem_nil⟩)]
      rfl
    rw [hstart, hoff, Nat.add_zero, Nat.zero_add]

end Cert.KernelIdeal.StageRead
-- ==== Proof.KIArray.lean ====
/- What the region leaves in its output array, entry by entry. The grid has twenty points; point t reads rows
   8192 t … 8192 t + 8191 of the reshaped logits as its input block and writes back, at rows 8 t … 8 t + 7 of the
   output array, the block the body computes from that input block. The twenty output blocks tile the 160 rows, so
   after the region every entry of the output array is the body's payload of the matching input block. -/
import proofs.«402323_j60327110639965_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The blocks -/

theorem hz : (![0, 0] : Fin 2 → Nat) = fun _ => 0 := funext fun a => by fin_cases a <;> rfl

/-- Rows 8192 g … 8192 g + 8191 of the reshaped logits, as a block. -/
def inBlock (c : Dev nD) (g : Fin 20) : Vec F S8192x128 .f32 := fun y =>
  (V m c main_v67 : S163840x128.Idx → Elt F .f32)
    (ix2 ⟨g.val * 8192 + (y 0).val, by have h : (y 0).val < 8192 := (y 0).isLt; have := g.isLt; omega⟩ ⟨(y 1).val, (y 1).isLt⟩)

/-- The output array as one function of the reshaped logits: row 8 g + r, lane l holds the body's payload of input
    block g at row r, lane l. -/
def outArr (c : Dev nD) : S160x128.Idx → Elt F .f32 := fun i =>
  k0_pay1 (inBlock m c ⟨(i 0).val / 8, by have h : (i 0).val < 160 := (i 0).isLt; omega⟩)
    (ix2 ⟨(i 0).val % 8, Nat.mod_lt _ (by decide)⟩ ⟨(i 1).val, (i 1).isLt⟩)

/-- The same read at an index given by its block, its row inside the block and its lane. -/
theorem outArr_apply (c : Dev nD) (g : Fin 20) (r : Fin 8) (l : Fin 128) (i : S160x128.Idx)
    (h0 : (i 0).val = g.val * 8 + r.val) (h1 : (i 1).val = l.val) :
    outArr m c i = k0_pay1 (inBlock m c g) (ix2 r l) := by
  have key : ∀ (a : Fin 20) (b : Fin 8) (d : Fin 128), a = g → b = r → d = l →
      k0_pay1 (inBlock m c a) (ix2 b d) = k0_pay1 (inBlock m c g) (ix2 r l) := by
    rintro _ _ _ rfl rfl rfl; rfl
  have hr := r.isLt
  exact key _ _ _ (Fin.ext (by show (i 0).val / 8 = g.val; omega)) (Fin.ext (by show (i 0).val % 8 = r.val; omega))
    (Fin.ext (by show (i 1).val = l.val; exact h1))

/-- The printed index maps, decided over the grid: both windows move with the point along the rows and stay at
    column block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows 8192 t … 8192 t + 8191 of the reshaped logits. -/
theorem iblk0_eq (c : Dev nD) (t : Fin cfg0.N) (g : Fin 20) (hg : g.val = t.val) :
    (iblk m c 0 t : Vec F S8192x128 .f32) = inBlock m c g := by
  obtain ⟨e0, e1, -, -⟩ := idx_facts t
  funext y
  unfold iblk inBlock
  rw [View.read_apply]
  show V m c main_v67 _ = V m c main_v67 _
  congr 1
  funext a
  apply Fin.ext
  match a with
  | ⟨0, _⟩ => show win0_0.index t (0 : Fin 2) * 8192 + 1 * (y 0).val = g.val * 8192 + (y 0).val; rw [e0, hg]; omega
  | ⟨1, _⟩ => show win0_0.index t (1 : Fin 2) * 128 + 1 * (y 1).val = (y 1).val; rw [e1]; omega

/-! ## What each point writes back -/

/-- What point t writes back is block t of the output array function. -/
theorem flushed1_eq (c : Dev nD) (t : Fin cfg0.N) :
    (dats m 0 c).flushed 1 t = ((cfg0.win 1).blk t).view.read (Elt F) (outArr m c) := by
  show (cfg0.win 1).cut (grid0.coords t) ((dats m 0 c).after 1 t) = _
  rw [after0_1]
  unfold out0_1
  rw [View.canon_unit_zero hz]
  simp only [View.ld_unit_zero (S := S8192x128) hz]
  obtain ⟨-, -, e2, e3⟩ := idx_facts t
  have hN : cfg0.N = 20 := N_0
  funext j
  have hj0 : (j 0).val < 8 := (j 0).isLt
  have hj1 : (j 1).val < 128 := (j 1).isLt
  rw [iblk0_eq m c t ⟨t.val, by have := t.isLt; omega⟩ rfl]
  refine Eq.trans ?_ (outArr_apply m c ⟨t.val, by have := t.isLt; omega⟩ ⟨(j 0).val, hj0⟩ ⟨(j 1).val, hj1⟩ _ ?_ ?_).symm
  · show k0_pay1 _ ((cfg0.win 1).xinj (grid0.coords t) j) = k0_pay1 _ (ix2 _ _)
    congr 1
    funext a
    match a with
    | ⟨0, _⟩ => rfl
    | ⟨1, _⟩ => rfl
  · show win0_1.index t (0 : Fin 2) * 8 + 1 * (j 0).val = t.val * 8 + (j 0).val; rw [e2]; omega
  · show win0_1.index t (1 : Fin 2) * 128 + 1 * (j 1).val = (j 1).val; rw [e3]; omega

/-! ## The cover -/

/-- An index of the output array is in point t's block iff each coordinate is in the block's range on its axis. -/
theorem mem_blk1 (t : Fin cfg0.N) (i : S160x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v68).slice (win0_1.rect t)).set ↔ _
  rw [View.set_slice_whole, Rect.mem_set_unit]
  exact Iff.rfl

/-- Every index of the output array is in the block of the point its row falls in. -/
theorem covered1 (i : S160x128.Idx) : ∃ t : Fin cfg0.N, (cfg0.win 1).flush t = true ∧ i ∈ ((cfg0.win 1).blk t).view.set := by
  have hN : cfg0.N = 20 := N_0
  have hi0 : (i 0).val < 160 := (i 0).isLt
  have hi1 : (i 1).val < 128 := (i 1).isLt
  refine ⟨⟨(i 0).val / 8, by omega⟩, flush0_1 _, ?_⟩
  obtain ⟨-, -, e2, e3⟩ := idx_facts ⟨(i 0).val / 8, by omega⟩
  rw [mem_blk1]
  intro a
  match a with
  | ⟨0, _⟩ => show win0_1.index _ (0 : Fin 2) * 8 ≤ (i 0).val ∧ (i 0).val < win0_1.index _ (0 : Fin 2) * 8 + 8; rw [e2]; show (i 0).val / 8 * 8 ≤ (i 0).val ∧ (i 0).val < (i 0).val / 8 * 8 + 8; omega
  | ⟨1, _⟩ => show win0_1.index _ (1 : Fin 2) * 128 ≤ (i 1).val ∧ (i 1).val < win0_1.index _ (1 : Fin 2) * 128 + 128; rw [e3]; omega

/-! ## The array after the region -/

/-- The output array after the region is the output array function. -/
theorem arr1_eq (c : Dev nD) : (dats m 0 c).arrAt 1 cfg0.N = outArr m c :=
  (dats m 0 c).arrAt_eq_of_cover 1 (outArr m c) (fun t _ => flushed1_eq m c t) covered1

/-- Entry by entry: row 8 g + r, lane l of the output array holds the body's payload of input block g at row r,
    lane l. -/
theorem arr1_apply (c : Dev nD) (g : Fin 20) (r : Fin 8) (l : Fin 128) :
    ((dats m 0 c).arrAt 1 cfg0.N : S160x128.Idx → Elt F .f32) (ix2 ⟨g.val * 8 + r.val, by have := g.isLt; have := r.isLt; omega⟩ l)
      = k0_pay1 (inBlock m c g) (ix2 r l) := by
  rw [arr1_eq]
  exact outArr_apply m c g r l _ rfl rfl

/-- info: 'Cert.KernelIdeal.Hand.arr1_apply' depends on axioms: [propext, Classical.choice, Quot.sound] -/
#guard_msgs in #print axioms arr1_apply

end Cert.KernelIdeal.Hand

end
-- ==== Proof.Scalars.lean ====
/-
  The softplus part of the binary cross-entropy at one logit, as the reference's lines compute it over the
  extended reals: max(x, 0) + log(1 + exp(-|x|)). Both programs sum it over every logit.
-/
import Idealize.ShloMosaic.PureOps.Ideal

noncomputable section

namespace Cert.Scalars

open Idealize.ShloMosaic

/-- max(x, 0) + log1p(exp(-|x|)) with the host's operations at the ideal instance. -/
def bceR (x : Ideal .f32) : Ideal .f32 :=
  FloatOps.addf (FloatOps.maximumf x (FloatOps.ofBits .f32 0x00000000#32))
    (FloatOps.hostUnary .log1p (FloatOps.hostUnary .exp (FloatOps.hostNegf (FloatOps.hostAbsf x))))

end Cert.Scalars

end
-- ==== Proof.KIPayload.lean ====
/-
  The one value the block program stores, read at an index. On a block of 8192 rows of 128 numbers it forms
  max(x, 0) + log(1 + exp(0 - |x|)) at every entry, adds each column up, and lays the 128 column sums in row 0 of an
  8 x 128 block whose other seven rows are zero. At the extended reals the entrywise expression is the reference's
  max(x, 0) + log(1 + exp(-|x|)), and at a real x it is a real number.
-/
import proofs.«402323_j60327110639965_2_alg».proof.Proof.Gen.KernelIdeal.Skeleton
import proofs.«402323_j60327110639965_2_alg».proof.Proof.Scalars
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx
open Cert.KernelIdeal Cert.KernelIdeal.Gen Cert.KernelIdeal.Facts₀ Cert.KernelIdeal.Facts
open scoped BigOperators

/-- the block program's own spelling of the softplus part: max(x, 0) + log1p(exp(0 - |x|)) -/
def bceK (x : Ideal .f32) : Ideal .f32 :=
  FloatOps.addf (FloatOps.maximumf x (Scalar.ofBits .f32 0x00000000#32))
    (FloatOps.log1p (FloatOps.exp (FloatOps.subf (Scalar.ofBits .f32 0x00000000#32) (FloatOps.absf x))))

/-- 0 - y is -y, and the two programs' exponential, logarithm and absolute value are the same functions of an extended
    real: the two spellings agree at every extended real, the infinities included. -/
theorem bceK_eq_bceR (x : Ideal .f32) : bceK x = Cert.Scalars.bceR x := by
  unfold bceK Cert.Scalars.bceR
  simp only [Ideal.hostUnary_log1p_def, Ideal.hostUnary_exp_def, Ideal.hostNegf_def, Ideal.hostAbsf_def,
    Ideal.log1p_def, Ideal.exp_def, Ideal.subf_def, Ideal.negf_def, Ideal.ofBits_def, Ideal.ofBits_zero_f32, zero_sub]

/-- at a real x the value is the real number max(x, 0) + log(1 + exp(-max(x, -x))): 1 + exp(..) is positive, so the
    logarithm is the real one. -/
theorem bceR_isReal (x : Ideal .f32) (hx : ∃ r : ℝ, x = (r : EReal)) : ∃ r : ℝ, Cert.Scalars.bceR x = (r : EReal) := by
  obtain ⟨r, rfl⟩ := hx
  refine ⟨max r 0 + Real.log (1 + Real.exp (-(max r (-r)))), ?_⟩
  unfold Cert.Scalars.bceR
  simp only [Ideal.hostUnary_log1p_def, Ideal.hostUnary_exp_def, Ideal.hostNegf_def, Ideal.hostAbsf_def,
    Ideal.addf_def, Ideal.maximumf_def, Ideal.negf_def, Ideal.absf_def, Ideal.ofBits_def, Ideal.ofBits_zero_f32]
  have h1 : max (r : EReal) 0 = ((max r 0 : ℝ) : EReal) := by
    rw [← EReal.coe_zero]; exact (EReal.coe_strictMono.monotone.map_max).symm
  have h2 : max (r : EReal) (-(r : EReal)) = ((max r (-r) : ℝ) : EReal) := by
    rw [← EReal.coe_neg]; exact (EReal.coe_strictMono.monotone.map_max).symm
  have hpos : ¬ (1 + Real.exp (-(max r (-r))) ≤ 0) := not_le.mpr (by positivity)
  rw [h1, h2, ← EReal.coe_neg, Ideal.exp_coe, Ideal.log1p, ← EReal.coe_one, ← EReal.coe_add, Ideal.log_coe, if_neg hpos,
    ← EReal.coe_add]

/-- a select on "row is 0" of an 8-row block is the `if` on the row -/
theorem select_row0 {α : Type} (r : Fin 8) (A B : α) :
    Scalar.select (IntOp.cmpi .eq (BitVec.ofNat 32 r.val) 0#32) A B = if r.val = 0 then A else B := by
  obtain ⟨r, hr⟩ := r
  interval_cases r <;> rfl

/-- the stored block at row r and column l: the column's sum of the entrywise values in row 0, zero in rows 1 to 7 -/
theorem pay1_apply (x0 : Vec Ideal S8192x128 .f32) (r : Fin 8) (l : Fin 128) :
    k0_pay1 (F := Ideal) x0 (ix2 r l) = if r.val = 0 then ∑ k : Fin 8192, bceK (x0 (ix2 k l)) else 0 := by
  unfold k0_pay1
  rw [select_apply]
  have hc : cmpi CmpIPredicate.eq (iota Kind.tc S8x128 32 [0] Gen.iota_S8x128_d0_w32) (broadcast S8x128 0#32) (ix2 r l)
      = IntOp.cmpi .eq (BitVec.ofNat 32 r.val) 0#32 := by
    show IntOp.cmpi .eq (iota Kind.tc S8x128 32 [0] Gen.iota_S8x128_d0_w32 (ix2 r l)) 0#32 = _
    rw [iota_single_apply]
  rw [hc, select_row0]
  refine if_congr Iff.rfl ?_ ?_
  · refine (broadcastTo_apply _ _ (ix2 r l) (ix2 (0 : Fin 1) l)
      (fun a => match a with | ⟨0, _⟩ => rfl | ⟨1, _⟩ => rfl)).trans ?_
    rw [shapeCast_self, shapeCast_self]
    refine (shapeCast_apply _ _ (ix2 (0 : Fin 1) l) (ix1 l) ?_).trans ?_
    · rw [Shape.rowMajor_val_one, Shape.rowMajor_val_two]
      show l.val = 0 * 128 + l.val
      omega
    refine (Ideal.multiReduction_add_single (φ := .f32) _ 0x00000000#32 Gen.reduces_S8192x128_S128 _ _ (ix1 l)).trans ?_
    show ∑ k : Fin 8192, _ = _
    refine Finset.sum_congr rfl fun k _ => ?_
    have hl : Gen.reduces_S8192x128_S128.lift (ix1 l) k = ix2 (n0 := 8192) (n1 := 128) k l :=
      funext fun c => Fin.ext (match c with | ⟨0, _⟩ => rfl | ⟨1, _⟩ => rfl)
    rw [hl]
    rfl
  · show Ideal.ofBits .f32 0#32 = 0
    exact Ideal.ofBits_zero_f32

end Cert.KernelIdeal.Payload

end
-- ==== Proof.BceSum.lean ====
/-
  The reindexing behind the kernel's sum: an array of 8 x 262144 x 10 numbers, relaid row-major as 163840 rows of
  128, is cut into 20 blocks of 8192 rows; a 160 x 128 array holds, in row 8g, the column sums of block g and zeros in
  the seven rows after it. Its total is the total over the original array.
-/
import Idealize.ShloMosaic.PureOps.Ideal
import Idealize.ShloMosaic.Lib.ValueIdx
import Idealize.ShloMosaic.Lib.Pipeline.Value
import Mathlib.Algebra.BigOperators.Fin
import Mathlib.Logic.Equiv.Fin.Basic

noncomputable section

namespace Cert.BceSum

open Idealize.ShloMosaic Idealize.ShloMosaic.ValueIdx
open scoped BigOperators

/-- the 8 x 262144 x 10 array of logits -/
abbrev S3 : Shape := ⟨3, ![8, 262144, 10]⟩
/-- the same numbers as 163840 rows of 128 -/
abbrev S2 : Shape := ⟨2, ![163840, 128]⟩
/-- the 160 x 128 array of per-block column sums -/
abbrev So : Shape := ⟨2, ![160, 128]⟩

/-- a number below m * n is q * n + k for one q below m and one k below n -/
def blockEquiv (m n : Nat) : Fin m × Fin n ≃ Fin (m * n) where
  toFun p := ⟨p.1.val * n + p.2.val, by
    have h1 := p.1.isLt; have h2 := p.2.isLt
    calc p.1.val * n + p.2.val < p.1.val * n + n := by omega
      _ = (p.1.val + 1) * n := by ring
      _ ≤ m * n := Nat.mul_le_mul_right n h1⟩
  invFun a := (⟨a.val / n, Nat.div_lt_of_lt_mul (lt_of_lt_of_eq a.isLt (Nat.mul_comm m n))⟩,
    ⟨a.val % n, Nat.mod_lt _ (Nat.pos_of_ne_zero fun h0 => by have h := a.isLt; subst h0; omega)⟩)
  left_inv p := by
    have h2 := p.2.isLt
    have hn : 0 < n := by omega
    apply Prod.ext <;> apply Fin.ext
    · show (p.1.val * n + p.2.val) / n = p.1.val
      rw [Nat.mul_comm, Nat.mul_add_div hn, Nat.div_eq_of_lt h2, Nat.add_zero]
    · show (p.1.val * n + p.2.val) % n = p.2.val
      rw [Nat.mul_comm, Nat.mul_add_mod, Nat.mod_eq_of_lt h2]
  right_inv a := by
    apply Fin.ext
    show a.val / n * n + a.val % n = a.val
    rw [Nat.mul_comm]; exact Nat.div_add_mod _ _

/-- a sum over the numbers below m * n, block by block -/
theorem sum_blocked {M : Type*} [AddCommMonoid M] (m n N : Nat) (hN : m * n = N) (F : Fin N → M) :
    ∑ a : Fin N, F a = ∑ g : Fin m, ∑ k : Fin n,
      F ⟨g.val * n + k.val, hN ▸ ((blockEquiv m n) (g, k)).isLt⟩ := by
  subst hN
  rw [← Equiv.sum_comp (blockEquiv m n) F, Fintype.sum_prod_type]
  rfl

theorem sum_blocks (f : EReal → EReal) (x : S3.Idx → EReal) (h : S3.ShapeCasts S2) (o : So.Idx → EReal)
    (ho : ∀ (g : Fin 20) (r : Fin 8) (l : Fin 128), o (ix2 ⟨g.val * 8 + r.val, by omega⟩ l)
      = if r.val = 0 then ∑ k : Fin 8192, f (shapeCast S2 x h (ix2 ⟨g.val * 8192 + k.val, by omega⟩ l)) else 0) :
    ∑ j : So.Idx, o j = ∑ i : S3.Idx, f (x i) := by
  -- the right side, over the relaid array, block by block and column by column
  have hR : ∑ i : S3.Idx, f (x i)
      = ∑ g : Fin 20, ∑ l : Fin 128, ∑ k : Fin 8192, f (shapeCast S2 x h (ix2 ⟨g.val * 8192 + k.val, by omega⟩ l)) := by
    rw [← Equiv.sum_comp (Shape.reshapeEquiv h) (fun i => f (x i))]
    show ∑ j : S2.Idx, f (shapeCast S2 x h j) = _
    rw [sum_idx2, sum_blocked 20 8192 163840 (by norm_num)]
    refine Finset.sum_congr rfl fun g _ => ?_
    rw [Finset.sum_comm]
  -- the left side: the rows of the small array in groups of eight, of which the first alone is not zero
  have hL : ∑ j : So.Idx, o j
      = ∑ g : Fin 20, ∑ l : Fin 128, ∑ k : Fin 8192, f (shapeCast S2 x h (ix2 ⟨g.val * 8192 + k.val, by omega⟩ l)) := by
    rw [sum_idx2, sum_blocked 20 8 160 (by norm_num)]
    refine Finset.sum_congr rfl fun g _ => ?_
    rw [Finset.sum_comm]
    refine Finset.sum_congr rfl fun l _ => ?_
    rw [Finset.sum_congr rfl fun r _ => ho g r l]
    rw [Fin.sum_univ_succ]
    simp
  rw [hL, hR]

end Cert.BceSum

end
-- ==== Proof.KISum.lean ====
/-
  The region's output array, a 160 x 128 array of extended reals, adds up to the sum over all 8 x 262144 x 10 logits
  of max(x, 0) + log(1 + exp(-|x|)). Three facts are joined: entry (8 g + r, l) of the array is the block program's
  stored value at (r, l) on rows 8192 g … 8192 g + 8191 of the relaid logits; that value is the column's sum of the
  entrywise expression in row 0 and zero in rows 1 to 7; and the relaid logits are the launched logits in row-major
  order, so summing block by block and column by column reaches every logit once.
-/
import proofs.«402323_j60327110639965_2_alg».proof.Proof.KIArray
import proofs.«402323_j60327110639965_2_alg».proof.Proof.KIHostPre
import proofs.«402323_j60327110639965_2_alg».proof.Proof.KIPayload
import proofs.«402323_j60327110639965_2_alg».proof.Proof.BceSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- the region's output array after the run, as a function into the extended reals -/
def outE (m : (ℓ : Loc nD τ sig) → Buf (Elt Ideal) ℓ) (c : Dev nD) : S160x128.Idx → EReal :=
  (dats (F := Ideal) m 0 c).arrAt 1 cfg0.N
/-- the logits as launched, as a function into the extended reals -/
def logitsE (m : (ℓ : Loc nD τ sig) → Buf (Elt Ideal) ℓ) (c : Dev nD) : S8x262144x10.Idx → EReal :=
  m ((c.tc : Thread nD τ).loc main_arg0)

theorem outE_eq (m : (ℓ : Loc nD τ sig) → Buf (Elt Ideal) ℓ) (c : Dev nD) :
    outE m c = (dats (F := Ideal) m 0 c).arrAt 1 cfg0.N := rfl
theorem logitsE_eq (m : (ℓ : Loc nD τ sig) → Buf (Elt Ideal) ℓ) (c : Dev nD) :
    logitsE m c = m ((c.tc : Thread nD τ).loc main_arg0) := rfl

/-- The output array adds up to the sum of max(x, 0) + log(1 + exp(-|x|)) over every logit x: row 8 g of the array
    holds the column sums of rows 8192 g … 8192 g + 8191 of the logits relaid as 163840 rows of 128, the seven rows
    after it hold zero, and the twenty row blocks exhaust the relaid array. -/
theorem out_sum (m : (ℓ : Loc nD τ sig) → Buf (Elt Ideal) ℓ) (c : Dev nD) :
    ∑ j : S160x128.Idx, outE m c j = ∑ i : S8x262144x10.Idx, Cert.Scalars.bceR (logitsE m c i) := by
  refine Cert.BceSum.sum_blocks Cert.Scalars.bceR (logitsE m c) shapeCasts_S8x262144x10_S163840x128 (outE m c) ?_
  intro g r l
  have h1 : outE m c (ix2 ⟨g.val * 8 + r.val, by omega⟩ l) = k0_pay1 (F := Ideal) (inBlock m c g) (ix2 r l) :=
    arr1_apply m c g r l
  rw [h1, Payload.pay1_apply]
  refine if_congr Iff.rfl (Finset.sum_congr rfl fun k _ => ?_) rfl
  rw [Payload.bceK_eq_bceR]
  exact congrArg Cert.Scalars.bceR (congrFun (V_v67 m c) _)

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterLast.lean ====
/-
  STABLEHLO'S SCATTER WITH A `SET` BODY WHEN COLLIDING UPDATES CARRY DIFFERENT VALUES.

  `Host.scatter` folds over the update indices in row-major order, each update replacing the operand element it
  lands on (when it lands inside the operand). With a body that returns the update, an element on which several
  updates land ends at the value of the one that comes LAST in row-major order (`scatter_set_last`), and an element
  on which none lands keeps the operand's value (`scatter_set_none`). The row-major order of update indices of rank
  2 and 3 is the lexicographic order of their coordinates (`rowMajor_le_two`, `rowMajor_le_three`).
-/
import Mathlib.Data.List.Sort
import Idealize.ShloMosaic.PureOps.Ideal
import Idealize.ShloMosaic.Lib.ValueIdx

namespace Idealize.ShloMosaic.ScatterLast

open Idealize.ShloMosaic Idealize.ShloMosaic.ValueIdx

/-! ## The fold -/

section Fold
variable {s si u : Shape} {α : Type} {w : Nat}

/-- One step of the scatter's fold with a body that returns the update: update number `n` replaces the element it
    lands on, if it lands on one, by its own value. -/
def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a body that returns the update is the left fold of `setStep` over the update numbers in
    increasing order. -/
theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` puts the update's value at `i`. -/
theorem setStep_landing (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` untouched. -/
theorem setStep_elsewhere (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- A fold over update numbers none of which lands on `i` leaves the element at `i` untouched. -/
theorem foldl_setStep_none (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm)]
    exact setStep_elsewhere d idx upd r n i (hnone n List.mem_cons_self)

/-- A fold over a strictly increasing list of update numbers that contains `n₀`, where `n₀` lands on `i` and no
    member of the list landing on `i` is larger than `n₀`, leaves the value of update `n₀` at `i`: the steps after
    `n₀` do not touch `i`, whatever the steps before it did. -/
theorem foldl_setStep_last (d : ScatterDims s si u) (idx : IVec si w) (upd : u.Idx → α) (i : s.Idx)
    (n₀ : Fin u.numel) (hn₀ : d.resultIdx? (u.rowMajor.symm n₀) idx = some i)
    (L : List (Fin u.numel)) (hsorted : L.Pairwise (· < ·)) (hmem : n₀ ∈ L)
    (hlast : ∀ m ∈ L, d.resultIdx? (u.rowMajor.symm m) idx = some i → m ≤ n₀) (r : s.Idx → α) :
    L.foldl (setStep d idx upd) r i = upd (u.rowMajor.symm n₀) := by
  induction L generalizing r with
  | nil => cases hmem
  | cons n L ih =>
    rw [List.foldl_cons]
    obtain ⟨hhead, htail⟩ := List.pairwise_cons.mp hsorted
    by_cases hL : n₀ ∈ L
    · exact ih htail hL (fun m hm => hlast m (List.mem_cons_of_mem _ hm)) _
    · have hn : n₀ = n := by
        rcases List.mem_cons.mp hmem with e | hm
        · exact e
        · exact absurd hm hL
      subst hn
      -- every later member is larger than `n₀`, so it cannot land on `i`
      have hnone : ∀ m ∈ L, d.resultIdx? (u.rowMajor.symm m) idx ≠ some i := fun m hm e =>
        absurd (hlast m (List.mem_cons_of_mem _ hm) e) (not_le.mpr (hhead m hm))
      rw [foldl_setStep_none d idx upd i L _ hnone]
      exact setStep_landing d idx upd r n₀ i hn₀

end Fold

/-! ## The scatter, read at an element -/

section Scatter
variable {s si u : Shape} {α : Type} {w : Nat}

/-- LAST WINS: if update index `j` lands on `i` and no update index landing on `i` comes after `j` in row-major
    order, the result at `i` is `j`'s update, whatever values the earlier colliding updates carried. -/
theorem scatter_set_last (d : ScatterDims s si u) (x : s.Idx → α) (idx : IVec si w) (upd : u.Idx → α) (i : s.Idx)
    (j : u.Idx) (hj : d.resultIdx? j idx = some i)
    (hlast : ∀ j', d.resultIdx? j' idx = some i → u.rowMajor j' ≤ u.rowMajor j) :
    Host.scatter d (fun _ b => b) x idx upd i = upd j := by
  rw [scatter_eq_foldl]
  have h := foldl_setStep_last d idx upd i (u.rowMajor j) (by rw [Equiv.symm_apply_apply]; exact hj)
    (List.finRange u.numel) (List.sortedLT_finRange u.numel).pairwise (List.mem_finRange _)
    (fun m _ hm => by
      have := hlast (u.rowMajor.symm m) hm
      rwa [Equiv.apply_symm_apply] at this) x
  rw [h, Equiv.symm_apply_apply]

/-- NOTHING LANDS: if no update index lands on `i`, the result at `i` is the operand's element. -/
theorem scatter_set_none (d : ScatterDims s si u) (x : s.Idx → α) (idx : IVec si w) (upd : u.Idx → α) (i : s.Idx)
    (hnone : ∀ j, d.resultIdx? j idx ≠ some i) : Host.scatter d (fun _ b => b) x idx upd i = x i := by
  rw [scatter_eq_foldl]
  exact foldl_setStep_none d idx upd i _ x fun n _ => hnone _

/-- LAST WINS, strict form: if update index `j` lands on `i` and every OTHER update index landing on `i` comes
    strictly before `j` in row-major order, the result at `i` is `j`'s update. -/
theorem scatter_set_last_of_lt (d : ScatterDims s si u) (x : s.Idx → α) (idx : IVec si w) (upd : u.Idx → α)
    (i : s.Idx) (j : u.Idx) (hj : d.resultIdx? j idx = some i)
    (hlast : ∀ j', j' ≠ j → d.resultIdx? j' idx = some i → u.rowMajor j' < u.rowMajor j) :
    Host.scatter d (fun _ b => b) x idx upd i = upd j := by
  refine scatter_set_last d x idx upd i j hj fun j' hj' => ?_
  by_cases e : j' = j
  · rw [e]
  · exact le_of_lt (hlast j' e hj')

end Scatter

/-! ## Row-major order in coordinates -/

section RowMajor

/-- The row-major number of a rank-2 index: row times row length, plus column. -/
theorem rowMajor_val_ix2 {A B : Nat} (a : Fin A) (b : Fin B) :
    ((⟨2, ![A, B]⟩ : Shape).rowMajor (ix2 a b)).val = a.val * B + b.val :=
  Shape.rowMajor_val_two _

/-- The row-major number of a rank-3 index. -/
theorem rowMajor_val_ix3 {A B C : Nat} (a : Fin A) (b : Fin B) (c : Fin C) :
    ((⟨3, ![A, B, C]⟩ : Shape).rowMajor (ix3 a b c)).val = a.val * (B * C) + b.val * C + c.val := by
  rw [Shape.rowMajor_val_three]
  show (a.val * B + b.val) * C + c.val = _
  rw [Nat.add_mul, Nat.mul_assoc]

/-- The row-major order of rank-2 indices is the lexicographic order of (row, column). -/
theorem rowMajor_le_two {A B : Nat} (a a' : Fin A) (b b' : Fin B) :
    (⟨2, ![A, B]⟩ : Shape).rowMajor (ix2 a b) ≤ (⟨2, ![A, B]⟩ : Shape).rowMajor (ix2 a' b')
      ↔ a < a' ∨ (a = a' ∧ b ≤ b') := by
  rw [Fin.le_def, rowMajor_val_ix2, rowMajor_val_ix2, Fin.lt_def, Fin.ext_iff, Fin.le_def]
  have hb := b.isLt
  have hb' := b'.isLt
  constructor
  · intro h
    rcases Nat.lt_trichotomy a.val a'.val with hlt | heq | hgt
    · exact Or.inl hlt
    · refine Or.inr ⟨heq, ?_⟩
      rw [heq] at h
      omega
    · exfalso
      have : (a'.val + 1) * B ≤ a.val * B := Nat.mul_le_mul_right B hgt
      rw [Nat.add_mul, Nat.one_mul] at this
      omega
  · rintro (hlt | ⟨heq, hle⟩)
    · have : (a.val + 1) * B ≤ a'.val * B := Nat.mul_le_mul_right B hlt
      rw [Nat.add_mul, Nat.one_mul] at this
      omega
    · rw [heq]
      omega

/-- In rank 2, an index in an earlier row comes strictly earlier in row-major order. -/
theorem rowMajor_lt_two_of_lt {A B : Nat} {a a' : Fin A} (b b' : Fin B) (h : a < a') :
    (⟨2, ![A, B]⟩ : Shape).rowMajor (ix2 a b) < (⟨2, ![A, B]⟩ : Shape).rowMajor (ix2 a' b') := by
  rw [Fin.lt_def, rowMajor_val_ix2, rowMajor_val_ix2]
  have hb := b.isLt
  have : (a.val + 1) * B ≤ a'.val * B := Nat.mul_le_mul_right B h
  rw [Nat.add_mul, Nat.one_mul] at this
  omega

/-- The row-major order of rank-3 indices is the lexicographic order of their three coordinates. -/
theorem rowMajor_le_three {A B C : Nat} (a a' : Fin A) (b b' : Fin B) (c c' : Fin C) :
    (⟨3, ![A, B, C]⟩ : Shape).rowMajor (ix3 a b c) ≤ (⟨3, ![A, B, C]⟩ : Shape).rowMajor (ix3 a' b' c')
      ↔ a < a' ∨ (a = a' ∧ (b < b' ∨ (b = b' ∧ c ≤ c'))) := by
  rw [Fin.le_def, Shape.rowMajor_val_three, Shape.rowMajor_val_three]
  show (a.val * B + b.val) * C + c.val ≤ (a'.val * B + b'.val) * C + c'.val ↔ _
  rw [Fin.lt_def, Fin.ext_iff, Fin.lt_def, Fin.ext_iff, Fin.le_def]
  have hb := b.isLt
  have hb' := b'.isLt
  have hc := c.isLt
  have hc' := c'.isLt
  -- compare the (row, column) pairs first, then the last coordinate
  have key : ∀ p q : Nat, (p * C + c.val ≤ q * C + c'.val) ↔ (p < q ∨ (p = q ∧ c.val ≤ c'.val)) := by
    intro p q
    constructor
    · intro h
      rcases Nat.lt_trichotomy p q with hlt | heq | hgt
      · exact Or.inl hlt
      · refine Or.inr ⟨heq, ?_⟩
        rw [heq] at h
        omega
      · exfalso
        have : (q + 1) * C ≤ p * C := Nat.mul_le_mul_right C hgt
        rw [Nat.add_mul, Nat.one_mul] at this
        omega
    · rintro (hlt | ⟨heq, hle⟩)
      · have : (p + 1) * C ≤ q * C := Nat.mul_le_mul_right C hlt
        rw [Nat.add_mul, Nat.one_mul] at this
        omega
      · rw [heq]
        omega
  rw [key]
  constructor
  · rintro (hlt | ⟨heq, hle⟩)
    · rcases Nat.lt_trichotomy a.val a'.val with h1 | h1 | h1
      · exact Or.inl h1
      · refine Or.inr ⟨h1, Or.inl ?_⟩
        rw [h1] at hlt
        omega
      · exfalso
        have : (a'.val + 1) * B ≤ a.val * B := Nat.mul_le_mul_right B h1
        rw [Nat.add_mul, Nat.one_mul] at this
        omega
    · rcases Nat.lt_trichotomy a.val a'.val with h1 | h1 | h1
      · exact Or.inl h1
      · refine Or.inr ⟨h1, Or.inr ⟨?_, hle⟩⟩
        rw [h1] at heq
        omega
      · exfalso
        have : (a'.val + 1) * B ≤ a.val * B := Nat.mul_le_mul_right B h1
        rw [Nat.add_mul, Nat.one_mul] at this
        omega
  · rintro (hlt | ⟨heq, hlt | ⟨heq', hle⟩⟩)
    · left
      have : (a.val + 1) * B ≤ a'.val * B := Nat.mul_le_mul_right B hlt
      rw [Nat.add_mul, Nat.one_mul] at this
      omega
    · left
      rw [heq]
      omega
    · right
      exact ⟨by rw [heq, heq'], hle⟩

end RowMajor

end Idealize.ShloMosaic.ScatterLast
-- ==== Proof.RefRead.lean ====
/-
  THE REFERENCE'S THREE SCATTERS, READ AT AN INDEX.

  The reference writes, for every batch `b` and box `n`, into three zero arrays: the value one at the class target
  `(b, cell, label)`, the box's seven numbers at the row `(b, cell)` of the box targets, and the value one at
  `(b, cell)` of the mask; here `cell = gy * 512 + gx` is the box's grid cell, both coordinates clipped into
  `[0, 511]`, and a box that is not valid is sent to the cell number `262144`, one past the last cell, where nothing
  is written. When two boxes of a batch write the same element the later one stays.

  So an element of the class targets, or of the mask, is one exactly when some valid box of its batch carries its
  cell (and label), and zero otherwise; a row of the box targets is the row of the LAST valid box of its batch
  carrying its cell, and zero when there is none.
-/
import proofs.«402323_j60327110639965_2_alg».proof.Proof.RefReadP
import proofs.«402323_j60327110639965_2_alg».proof.Proof.LibGatherScatter
import proofs.«402323_j60327110639965_2_alg».proof.Proof.LibScatterLast
import proofs.«402323_j60327110639965_2_alg».proof.Proof.LibLastWins

noncomputable section

namespace Cert.ReferenceIdeal.Hand

open Idealize.ShloMosaic Idealize.ShloMosaic.ValueIdx Idealize.ShloMosaic.GatherScatter Idealize.ShloMosaic.ScatterLast
open Cert.ReferenceIdeal Cert.ReferenceIdeal.Gen Cert.ReferenceIdeal.ReadP

/-! ## Words -/

/-- A word below `2^31` reads the same signed and unsigned. -/
theorem toInt_of_lt (x : BitVec 32) (h : x.toNat < 2 ^ 31) : x.toInt = (x.toNat : Int) := by
  rw [BitVec.toInt_eq_toNat_cond]
  split <;> omega

/-- `min(511, max(0, x))`, signed, lies in `[0, 511]`. -/
theorem clip511_le (x : BitVec 32) : (IntOp.minsi 511#32 (IntOp.maxsi 0#32 x)).toNat ≤ 511 := by
  unfold IntOp.minsi IntOp.maxsi
  simp only [BitVec.slt, decide_eq_true_eq]
  have hx := x.isLt
  have e := BitVec.toInt_eq_toNat_cond x
  split_ifs at e ⊢ <;> simp_all <;> omega

/-- `gy * 512 + gx` with both coordinates in `[0, 511]` does not wrap. -/
theorem cell_toNat (gx gy : BitVec 32) (hx : gx.toNat ≤ 511) (hy : gy.toNat ≤ 511) :
    (IntOp.addi (IntOp.muli gy 512#32) gx).toNat = gy.toNat * 512 + gx.toNat := by
  unfold IntOp.addi IntOp.muli
  rw [BitVec.toNat_add, BitVec.toNat_mul]
  show (gy.toNat * 512 % 2 ^ 32 + gx.toNat) % 2 ^ 32 = _
  omega

/-- `max(0, x)`, signed, is non-negative. -/
theorem max0_lt (x : BitVec 32) : (IntOp.maxsi 0#32 x).toNat < 2 ^ 31 := by
  unfold IntOp.maxsi
  simp only [BitVec.slt, decide_eq_true_eq]
  have hx := x.isLt
  have e := BitVec.toInt_eq_toNat_cond x
  split_ifs at e ⊢ <;> simp_all <;> omega

/-- `max(0, x)` of a word below ten, signed, is below ten. -/
theorem max0_lt10 (x : BitVec 32) (h : x.toInt < 10) : (IntOp.maxsi 0#32 x).toNat < 10 := by
  unfold IntOp.maxsi
  simp only [BitVec.slt, decide_eq_true_eq]
  have hx := x.isLt
  have e := BitVec.toInt_eq_toNat_cond x
  split_ifs at e ⊢ <;> simp_all <;> omega

/-- The negative-index wrap `select (x < 0) (x + extent) x` is the identity on a non-negative word. -/
theorem wrap_nonneg (x e : BitVec 32) (h : x.toNat < 2 ^ 31) :
    Scalar.select (IntOp.cmpi .slt x 0#32) (IntOp.addi x e) x = x := by
  have hs : x.slt 0#32 = false := by
    rw [BitVec.slt, BitVec.toInt_eq_toNat_cond]
    have hx := x.isLt
    simp only [BitVec.toInt_zero, decide_eq_false_iff_not, not_lt]
    split <;> omega
  unfold IntOp.cmpi
  simp only [hs, BitVec.ofBool_false]
  exact select_zero _ _

/-- The word `0x3F800000` is the extended real one. -/
theorem ofBits_one_f32 : (FloatOps.ofBits (F := Ideal) .f32 0x3F800000#32) = (1 : EReal) :=
  IdealRules.sign_bit.ideal_onePat .f32

/-- The word `0` is the extended real zero. -/
theorem ofBits_zero_f32 : (FloatOps.ofBits (F := Ideal) .f32 0x00000000#32) = (0 : EReal) :=
  Ideal.ofBits_zero_f32

/-! ## The boxes' validity, cell and label -/

section Prep
variable (x2 : (⟨S8x128x7, .f32⟩ : BufTy).Contents (Elt Ideal)) (x3 : (⟨S8x128, .i32⟩ : BufTy).Contents (Elt Ideal)) (x4 : (⟨S8x128, .f32⟩ : BufTy).Contents (Elt Ideal))

/-- The validity bit of each box. -/
abbrev vldW := val_main_v20 (F := Ideal) x2 x3 x4
/-- The cell number `gy * 512 + gx` of each box, as a word. -/
abbrev cellW := val_main_v35 (F := Ideal) x2
/-- The label of each box clipped below at zero, as a word. -/
abbrev lblW := val_main_v40 (F := Ideal) x3

/-- The cell number is `gy * 512 + gx` of the two clipped coordinates. -/
theorem cellW_eq (j : S8x128.Idx) :
    cellW x2 j = IntOp.addi (IntOp.muli (IntOp.minsi 511#32 (IntOp.maxsi 0#32 (val_main_v31 (F := Ideal) x2 j))) 512#32)
      (IntOp.minsi 511#32 (IntOp.maxsi 0#32 (val_main_v25 (F := Ideal) x2 j))) := by
  simp only [cellW, val_main_v35_apply, val_main_v34_apply, val_main_v33_apply, val_main_c_12_apply, val_main_v32_apply,
    val_main_call1_v4_apply, val_main_call1_v3_apply, val_main_c_11_apply, val_main_call1_v2_apply,
    val_main_call1_v1_apply, val_main_call1_v0_apply, val_main_c_10_apply, val_main_v26_apply, val_main_call0_v4_apply,
    val_main_call0_v3_apply, val_main_c_7_apply, val_main_call0_v2_apply, val_main_call0_v1_apply,
    val_main_call0_v0_apply, val_main_c_6_apply]

/-- Both coordinates lie in `[0, 511]`, so the cell number is below `512 * 512`. -/
theorem cellW_lt (j : S8x128.Idx) : (cellW x2 j).toNat < 262144 := by
  rw [cellW_eq, cell_toNat _ _ (clip511_le _) (clip511_le _)]
  have h1 := clip511_le (val_main_v31 (F := Ideal) x2 j)
  have h2 := clip511_le (val_main_v25 (F := Ideal) x2 j)
  omega

/-- The clipped label is `max(0, label)`. -/
theorem lblW_eq (j : S8x128.Idx) : lblW x3 j = IntOp.maxsi 0#32 (x3 j) := by
  simp only [lblW, val_main_v40_apply, val_main_call3_v1_apply, val_main_call3_v0_apply, val_main_c_14_apply]

/-- The clipped label is non-negative: it reads the same signed and unsigned. -/
theorem lblW_nonneg (j : S8x128.Idx) : (lblW x3 j).toInt = ((lblW x3 j).toNat : Int) ∧ (lblW x3 j).toNat < 2 ^ 31 := by
  have h : (lblW x3 j).toNat < 2 ^ 31 := by rw [lblW_eq]; exact max0_lt _
  exact ⟨toInt_of_lt _ h, h⟩

/-- Under labels below ten the clipped label is below ten. -/
theorem lblW_lt (hlab : ∀ j, (x3 j).toInt < 10) (j : S8x128.Idx) : (lblW x3 j).toNat < 10 := by
  rw [lblW_eq]; exact max0_lt10 _ (hlab j)

/-- Box `n` of batch `b` is valid. -/
def isValid (b : Fin 8) (n : Fin 128) : Prop := vldW x2 x3 x4 (ix2 b n) = 1#1

instance (b : Fin 8) (n : Fin 128) : Decidable (isValid x2 x3 x4 b n) :=
  inferInstanceAs (Decidable (vldW x2 x3 x4 (ix2 b n) = 1#1))

/-- The cell of box `n` of batch `b`. -/
def cellOf (b : Fin 8) (n : Fin 128) : Fin 262144 := ⟨(cellW x2 (ix2 b n)).toNat, cellW_lt x2 _⟩

/-- The label of box `n` of batch `b`. -/
def lblOf (b : Fin 8) (n : Fin 128) : Fin 10 := ⟨(lblW x3 (ix2 b n)).toNat % 10, Nat.mod_lt _ (by decide)⟩

/-- Under labels below ten the label is the clipped label itself. -/
theorem lblOf_val (hlab : ∀ j, (x3 j).toInt < 10) (b : Fin 8) (n : Fin 128) :
    (lblOf x3 b n).val = (lblW x3 (ix2 b n)).toNat :=
  Nat.mod_eq_of_lt (lblW_lt x3 hlab _)

/-! ## The index words -/

/-- The batch number as a word. -/
theorem v39_ix (b : Fin 8) (n : Fin 128) : val_main_v39 (F := Ideal) (ix2 b n) = BitVec.ofNat 32 b.val := by
  rw [val_main_v39_apply, val_main_v38_apply, val_main_v37_apply]

theorem batchWord_toNat (b : Fin 8) : (BitVec.ofNat 32 b.val).toNat = b.val := by
  rw [BitVec.toNat_ofNat]
  have := b.isLt
  omega

theorem batchWord_toInt (b : Fin 8) : (BitVec.ofNat 32 b.val).toInt = (b.val : Int) := by
  rw [toInt_of_lt _ (by rw [batchWord_toNat]; have := b.isLt; omega), batchWord_toNat]

/-- The batch index of each of the three scatters is the batch number: the wrap does nothing. -/
theorem v46_ix (b : Fin 8) (n : Fin 128) : val_main_v46 (F := Ideal) (ix2 b n) = BitVec.ofNat 32 b.val := by
  rw [val_main_v46_apply, val_main_v43_apply, val_main_v45_apply, val_main_v42_apply, val_main_c_16_apply, v39_ix]
  exact wrap_nonneg _ _ (by rw [batchWord_toNat]; have := b.isLt; omega)
theorem v68_ix (b : Fin 8) (n : Fin 128) : val_main_v68 (F := Ideal) (ix2 b n) = BitVec.ofNat 32 b.val := by
  rw [val_main_v68_apply, val_main_v65_apply, val_main_v67_apply, val_main_v64_apply, val_main_c_24_apply, v39_ix]
  exact wrap_nonneg _ _ (by rw [batchWord_toNat]; have := b.isLt; omega)
theorem v83_ix (b : Fin 8) (n : Fin 128) : val_main_v83 (F := Ideal) (ix2 b n) = BitVec.ofNat 32 b.val := by
  rw [val_main_v83_apply, val_main_v80_apply, val_main_v82_apply, val_main_v79_apply, val_main_c_29_apply, v39_ix]
  exact wrap_nonneg _ _ (by rw [batchWord_toNat]; have := b.isLt; omega)

/-- The cell index before the wrap: the cell of a valid box, `262144` for a box that is not. -/
theorem v36_eq (j : S8x128.Idx) :
    val_main_v36 (F := Ideal) x2 x3 x4 j = if vldW x2 x3 x4 j = 1#1 then cellW x2 j else 262144#32 := by
  simp only [val_main_v36_apply, val_main_call2_v1_apply, val_main_call2_v0_apply, val_main_c_13_apply, Scalar.select]
  rfl

theorem v36_lt (j : S8x128.Idx) : (val_main_v36 (F := Ideal) x2 x3 x4 j).toNat < 2 ^ 31 := by
  rw [v36_eq]
  split
  · have := cellW_lt x2 j; omega
  · decide

/-- The cell index of each of the three scatters: the wrap does nothing. -/
theorem v51_eq (j : S8x128.Idx) : val_main_v51 (F := Ideal) x2 x3 x4 j = val_main_v36 (F := Ideal) x2 x3 x4 j := by
  rw [val_main_v51_apply, val_main_v48_apply, val_main_v50_apply, val_main_v47_apply, val_main_c_18_apply]
  exact wrap_nonneg _ _ (v36_lt x2 x3 x4 j)
theorem v73_eq (j : S8x128.Idx) : val_main_v73 (F := Ideal) x2 x3 x4 j = val_main_v36 (F := Ideal) x2 x3 x4 j := by
  rw [val_main_v73_apply, val_main_v70_apply, val_main_v72_apply, val_main_v69_apply, val_main_c_26_apply]
  exact wrap_nonneg _ _ (v36_lt x2 x3 x4 j)
theorem v88_eq (j : S8x128.Idx) : val_main_v88 (F := Ideal) x2 x3 x4 j = val_main_v36 (F := Ideal) x2 x3 x4 j := by
  rw [val_main_v88_apply, val_main_v85_apply, val_main_v87_apply, val_main_v84_apply, val_main_c_31_apply]
  exact wrap_nonneg _ _ (v36_lt x2 x3 x4 j)

/-- The cell index, signed, is a cell exactly for a valid box carrying that cell. -/
theorem v36_toInt_eq (b : Fin 8) (n : Fin 128) (cl : Fin 262144) :
    (val_main_v36 (F := Ideal) x2 x3 x4 (ix2 b n)).toInt = (cl.val : Int) ↔ (isValid x2 x3 x4 b n ∧ cellOf x2 b n = cl) := by
  rw [toInt_of_lt _ (v36_lt x2 x3 x4 _), v36_eq]
  unfold isValid cellOf
  have hcl := cl.isLt
  by_cases hv : vldW x2 x3 x4 (ix2 b n) = 1#1
  · rw [if_pos hv]
    constructor
    · intro h; exact ⟨hv, Fin.ext (by exact_mod_cast h)⟩
    · rintro ⟨_, h⟩; exact_mod_cast congrArg Fin.val h
  · rw [if_neg hv]
    constructor
    · intro h
      have : (262144 : Int) = (cl.val : Int) := h
      omega
    · rintro ⟨h, _⟩; exact absurd h hv

/-- The label index: the wrap does nothing. -/
theorem v56_eq (j : S8x128.Idx) : val_main_v56 (F := Ideal) x3 j = lblW x3 j := by
  rw [val_main_v56_apply, val_main_v53_apply, val_main_v55_apply, val_main_v52_apply, val_main_c_20_apply]
  exact wrap_nonneg _ _ (lblW_nonneg x3 j).2

/-- The label index, signed, is a class exactly when the box's label is that class. -/
theorem lblW_toInt_eq (hlab : ∀ j, (x3 j).toInt < 10) (b : Fin 8) (n : Fin 128) (c : Fin 10) :
    (lblW x3 (ix2 b n)).toInt = (c.val : Int) ↔ lblOf x3 b n = c := by
  rw [(lblW_nonneg x3 _).1, ← lblOf_val x3 hlab b n]
  constructor
  · intro h; exact Fin.ext (by exact_mod_cast h)
  · intro h; exact_mod_cast congrArg Fin.val h

end Prep

/-! ## The index vectors -/

section Concat
variable {α : Type}

/-- Three columns joined along the last axis, read at a column: that piece. -/
theorem concat3_apply (y0 y1 y2 : S8x128x1.Idx → α) (b : Fin 8) (n : Fin 128) :
    concatenate S8x128x3 2 [⟨S8x128x1, y0⟩, ⟨S8x128x1, y1⟩, ⟨S8x128x1, y2⟩]
        concatenates_S8x128x1_S8x128x1_S8x128x1_S8x128x3_d2 (ix3 b n 0) = y0 (ix3 b n 0) ∧
    concatenate S8x128x3 2 [⟨S8x128x1, y0⟩, ⟨S8x128x1, y1⟩, ⟨S8x128x1, y2⟩]
        concatenates_S8x128x1_S8x128x1_S8x128x1_S8x128x3_d2 (ix3 b n 1) = y1 (ix3 b n 0) ∧
    concatenate S8x128x3 2 [⟨S8x128x1, y0⟩, ⟨S8x128x1, y1⟩, ⟨S8x128x1, y2⟩]
        concatenates_S8x128x1_S8x128x1_S8x128x1_S8x128x3_d2 (ix3 b n 2) = y2 (ix3 b n 0) := by
  refine ⟨?_, ?_, ?_⟩
  · refine concatenate_apply_piece (t := S8x128x3) (2 : Fin 3) [⟨S8x128x1, y0⟩, ⟨S8x128x1, y1⟩, ⟨S8x128x1, y2⟩] concatenates_S8x128x1_S8x128x1_S8x128x1_S8x128x3_d2 (ix3 b n 0) 0 (by simp) S8x128x1 y0 rfl rfl 0 rfl (ix3 b n 0) ?_ rfl
    intro c hc
    match c with
    | ⟨0, _⟩ => rfl
    | ⟨1, _⟩ => rfl
    | ⟨2, _⟩ => exact absurd rfl hc
  · refine concatenate_apply_piece (t := S8x128x3) (2 : Fin 3) [⟨S8x128x1, y0⟩, ⟨S8x128x1, y1⟩, ⟨S8x128x1, y2⟩] concatenates_S8x128x1_S8x128x1_S8x128x1_S8x128x3_d2 (ix3 b n 1) 1 (by simp) S8x128x1 y1 rfl rfl 1 rfl (ix3 b n 0) ?_ rfl
    intro c hc
    match c with
    | ⟨0, _⟩ => rfl
    | ⟨1, _⟩ => rfl
    | ⟨2, _⟩ => exact absurd rfl hc
  · refine concatenate_apply_piece (t := S8x128x3) (2 : Fin 3) [⟨S8x128x1, y0⟩, ⟨S8x128x1, y1⟩, ⟨S8x128x1, y2⟩] concatenates_S8x128x1_S8x128x1_S8x128x1_S8x128x3_d2 (ix3 b n 2) 2 (by simp) S8x128x1 y2 rfl rfl 2 rfl (ix3 b n 0) ?_ rfl
    intro c hc
    match c with
    | ⟨0, _⟩ => rfl
    | ⟨1, _⟩ => rfl
    | ⟨2, _⟩ => exact absurd rfl hc

/-- Two columns joined along the last axis, read at a column: that piece. -/
theorem concat2_apply (y0 y1 : S8x128x1.Idx → α) (b : Fin 8) (n : Fin 128) :
    concatenate S8x128x2 2 [⟨S8x128x1, y0⟩, ⟨S8x128x1, y1⟩]
        concatenates_S8x128x1_S8x128x1_S8x128x2_d2 (ix3 b n 0) = y0 (ix3 b n 0) ∧
    concatenate S8x128x2 2 [⟨S8x128x1, y0⟩, ⟨S8x128x1, y1⟩]
        concatenates_S8x128x1_S8x128x1_S8x128x2_d2 (ix3 b n 1) = y1 (ix3 b n 0) := by
  refine ⟨?_, ?_⟩
  · refine concatenate_apply_piece (t := S8x128x2) (2 : Fin 3) [⟨S8x128x1, y0⟩, ⟨S8x128x1, y1⟩] concatenates_S8x128x1_S8x128x1_S8x128x2_d2 (ix3 b n 0) 0 (by simp) S8x128x1 y0 rfl rfl 0 rfl (ix3 b n 0) ?_ rfl
    intro c hc
    match c with
    | ⟨0, _⟩ => rfl
    | ⟨1, _⟩ => rfl
    | ⟨2, _⟩ => exact absurd rfl hc
  · refine concatenate_apply_piece (t := S8x128x2) (2 : Fin 3) [⟨S8x128x1, y0⟩, ⟨S8x128x1, y1⟩] concatenates_S8x128x1_S8x128x1_S8x128x2_d2 (ix3 b n 1) 1 (by simp) S8x128x1 y1 rfl rfl 1 rfl (ix3 b n 0) ?_ rfl
    intro c hc
    match c with
    | ⟨0, _⟩ => rfl
    | ⟨1, _⟩ => rfl
    | ⟨2, _⟩ => exact absurd rfl hc

end Concat

theorem idx_v57_ix (b : Fin 8) (n : Fin 128) : idx_main_v57 (ix3 b n 0) = ix2 b n := by
  funext a
  match a with
  | ⟨0, _⟩ => rfl
  | ⟨1, _⟩ => rfl

theorem idx_v58_ix (b : Fin 8) (n : Fin 128) : idx_main_v58 (ix3 b n 0) = ix2 b n := by
  funext a
  match a with
  | ⟨0, _⟩ => rfl
  | ⟨1, _⟩ => rfl

theorem idx_v59_ix (b : Fin 8) (n : Fin 128) : idx_main_v59 (ix3 b n 0) = ix2 b n := by
  funext a
  match a with
  | ⟨0, _⟩ => rfl
  | ⟨1, _⟩ => rfl

theorem idx_v74_ix (b : Fin 8) (n : Fin 128) : idx_main_v74 (ix3 b n 0) = ix2 b n := by
  funext a
  match a with
  | ⟨0, _⟩ => rfl
  | ⟨1, _⟩ => rfl

theorem idx_v75_ix (b : Fin 8) (n : Fin 128) : idx_main_v75 (ix3 b n 0) = ix2 b n := by
  funext a
  match a with
  | ⟨0, _⟩ => rfl
  | ⟨1, _⟩ => rfl

theorem idx_v89_ix (b : Fin 8) (n : Fin 128) : idx_main_v89 (ix3 b n 0) = ix2 b n := by
  funext a
  match a with
  | ⟨0, _⟩ => rfl
  | ⟨1, _⟩ => rfl

theorem idx_v90_ix (b : Fin 8) (n : Fin 128) : idx_main_v90 (ix3 b n 0) = ix2 b n := by
  funext a
  match a with
  | ⟨0, _⟩ => rfl
  | ⟨1, _⟩ => rfl

section IndexVectors
variable (x2 : (⟨S8x128x7, .f32⟩ : BufTy).Contents (Elt Ideal)) (x3 : (⟨S8x128, .i32⟩ : BufTy).Contents (Elt Ideal)) (x4 : (⟨S8x128, .f32⟩ : BufTy).Contents (Elt Ideal))

/-- The class targets' index vector of box `(b, n)`: batch, cell index, label. -/
theorem iv60 (b : Fin 8) (n : Fin 128) :
    val_main_v60 (F := Ideal) x2 x3 x4 (ix3 b n 0) = BitVec.ofNat 32 b.val ∧
    val_main_v60 (F := Ideal) x2 x3 x4 (ix3 b n 1) = val_main_v36 (F := Ideal) x2 x3 x4 (ix2 b n) ∧
    val_main_v60 (F := Ideal) x2 x3 x4 (ix3 b n 2) = lblW x3 (ix2 b n) := by
  unfold val_main_v60
  obtain ⟨h0, h1, h2⟩ := concat3_apply (val_main_v57 (F := Ideal)) (val_main_v58 (F := Ideal) x2 x3 x4)
    (val_main_v59 (F := Ideal) x3) b n
  refine ⟨?_, ?_, ?_⟩
  · rw [h0, val_main_v57_apply, idx_v57_ix, v46_ix]
  · rw [h1, val_main_v58_apply, idx_v58_ix, v51_eq]
  · rw [h2, val_main_v59_apply, idx_v59_ix, v56_eq]

/-- The box targets' index vector of box `(b, n)`: batch, cell index. -/
theorem iv76 (b : Fin 8) (n : Fin 128) :
    val_main_v76 (F := Ideal) x2 x3 x4 (ix3 b n 0) = BitVec.ofNat 32 b.val ∧
    val_main_v76 (F := Ideal) x2 x3 x4 (ix3 b n 1) = val_main_v36 (F := Ideal) x2 x3 x4 (ix2 b n) := by
  unfold val_main_v76
  obtain ⟨h0, h1⟩ := concat2_apply (val_main_v74 (F := Ideal)) (val_main_v75 (F := Ideal) x2 x3 x4) b n
  refine ⟨?_, ?_⟩
  · rw [h0, val_main_v74_apply, idx_v74_ix, v68_ix]
  · rw [h1, val_main_v75_apply, idx_v75_ix, v73_eq]

/-- The mask's index vector of box `(b, n)`: batch, cell index. -/
theorem iv91 (b : Fin 8) (n : Fin 128) :
    val_main_v91 (F := Ideal) x2 x3 x4 (ix3 b n 0) = BitVec.ofNat 32 b.val ∧
    val_main_v91 (F := Ideal) x2 x3 x4 (ix3 b n 1) = val_main_v36 (F := Ideal) x2 x3 x4 (ix2 b n) := by
  unfold val_main_v91
  obtain ⟨h0, h1⟩ := concat2_apply (val_main_v89 (F := Ideal)) (val_main_v90 (F := Ideal) x2 x3 x4) b n
  refine ⟨?_, ?_⟩
  · rw [h0, val_main_v89_apply, idx_v89_ix, v83_ix]
  · rw [h1, val_main_v90_apply, idx_v90_ix, v88_eq]

end IndexVectors

/-! ## Where an update lands

For each of the three scatters: the start of update `(b', n', …)` on an operand axis the index vector names is
that component of the index vector, read signed; the window coordinate is zero on an inserted axis and the update's
own last coordinate on the box targets' last axis. -/

/-- The class targets' dimension numbers: index triples, scalar updates. -/
abbrev clsDims := scatter_S8x262144x10_S8x128x3_S8x128_n_012_012_2
/-- The box targets' dimension numbers: index pairs, rows of seven as updates. -/
abbrev boxDims := scatter_S8x262144x7_S8x128x2_S8x128x7_2_01_01_2
/-- The mask's dimension numbers: index pairs, scalar updates. -/
abbrev maskDims := scatter_S8x262144_S8x128x2_S8x128_n_01_01_2

theorem clsDims_start {w : Nat} (idx : IVec S8x128x3 w) (b : Fin 8) (n : Fin 128) (a : Fin 3) :
    clsDims.start (ix2 b n) idx a = (idx (ix3 b n a)).toInt := by
  have hmem : a ∈ clsDims.scatterDimsToOperandDims := by
    show a ∈ ([0, 1, 2] : List (Fin 3))
    fin_cases a <;> decide
  have hsi : clsDims.siIdx (ix2 b n) ⟨List.idxOf a clsDims.scatterDimsToOperandDims, List.idxOf_lt_length_iff.2 hmem⟩
      = ix3 b n a := by
    funext c; refine Fin.ext ?_
    fin_cases a <;> (match c with
      | ⟨0, _⟩ => rfl
      | ⟨1, _⟩ => rfl
      | ⟨2, _⟩ => rfl)
  unfold ScatterDims.start
  rw [dif_pos hmem, hsi]

theorem clsDims_window (j : S8x128.Idx) (a : Fin 3) : clsDims.window j a = 0 := by
  unfold ScatterDims.window
  rw [dif_neg (not_mem_kept (by
    show a ∈ ([0, 1, 2] : List (Fin 3))
    fin_cases a <;> decide))]

/-- Update `(b', n')` lands on the class target `(b, cl, c)` exactly when its index triple, read signed, is
    `(b, cl, c)`. -/
theorem clsDims_lands {w : Nat} (idx : IVec S8x128x3 w) (b' : Fin 8) (n' : Fin 128) (b : Fin 8) (cl : Fin 262144)
    (c : Fin 10) :
    clsDims.resultIdx? (ix2 b' n') idx = some (ix3 b cl c) ↔
      ((idx (ix3 b' n' 0)).toInt = (b.val : Int) ∧ (idx (ix3 b' n' 1)).toInt = (cl.val : Int) ∧
        (idx (ix3 b' n' 2)).toInt = (c.val : Int)) := by
  rw [resultIdx?_eq_some_iff]
  constructor
  · intro H
    have h0 := H 0
    have h1 := H 1
    have h2 := H 2
    rw [clsDims_start, clsDims_window, Nat.cast_zero, add_zero] at h0 h1 h2
    exact ⟨h0, h1, h2⟩
  · intro H a
    rw [clsDims_start, clsDims_window, Nat.cast_zero, add_zero]
    match a with
    | ⟨0, _⟩ => exact H.1
    | ⟨1, _⟩ => exact H.2.1
    | ⟨2, _⟩ => exact H.2.2

theorem boxDims_start01 {w : Nat} (idx : IVec S8x128x2 w) (b : Fin 8) (n : Fin 128) (d : Fin 7) (a : Fin 2) :
    boxDims.start (ix3 b n d) idx (a.castSucc) = (idx (ix3 b n a)).toInt := by
  have hmem : (a.castSucc : Fin 3) ∈ boxDims.scatterDimsToOperandDims := by
    show (a.castSucc : Fin 3) ∈ ([0, 1] : List (Fin 3))
    fin_cases a <;> decide
  have hsi : boxDims.siIdx (ix3 b n d) ⟨List.idxOf (a.castSucc : Fin 3) boxDims.scatterDimsToOperandDims,
      List.idxOf_lt_length_iff.2 hmem⟩ = ix3 b n a := by
    funext c; refine Fin.ext ?_
    fin_cases a <;> (match c with
      | ⟨0, _⟩ => rfl
      | ⟨1, _⟩ => rfl
      | ⟨2, _⟩ => rfl)
  unfold ScatterDims.start
  rw [dif_pos hmem, hsi]

theorem boxDims_start2 {w : Nat} (idx : IVec S8x128x2 w) (j : S8x128x7.Idx) : boxDims.start j idx 2 = 0 := by
  unfold ScatterDims.start
  rw [dif_neg (by show (2 : Fin 3) ∉ ([0, 1] : List (Fin 3)); decide)]

theorem boxDims_window01 (j : S8x128x7.Idx) (a : Fin 2) : boxDims.window j (a.castSucc) = 0 := by
  unfold ScatterDims.window
  rw [dif_neg (not_mem_kept (by
    show (a.castSucc : Fin 3) ∈ ([0, 1] : List (Fin 3))
    fin_cases a <;> decide))]

theorem boxDims_window2 (b : Fin 8) (n : Fin 128) (d : Fin 7) : boxDims.window (ix3 b n d) 2 = d.val := by
  unfold ScatterDims.window
  rw [dif_pos (mem_kept (by show (2 : Fin 3) ∉ ([0, 1] : List (Fin 3)); decide))]
  rfl

/-- Update `(b', n', d')` lands on the box target `(b, cl, d)` exactly when its index pair, read signed, is
    `(b, cl)` and `d' = d`. -/
theorem boxDims_lands {w : Nat} (idx : IVec S8x128x2 w) (b' : Fin 8) (n' : Fin 128) (d' : Fin 7) (b : Fin 8)
    (cl : Fin 262144) (d : Fin 7) :
    boxDims.resultIdx? (ix3 b' n' d') idx = some (ix3 b cl d) ↔
      ((idx (ix3 b' n' 0)).toInt = (b.val : Int) ∧ (idx (ix3 b' n' 1)).toInt = (cl.val : Int) ∧ d' = d) := by
  rw [resultIdx?_eq_some_iff]
  constructor
  · intro H
    have h0 := H 0
    have h1 := H 1
    have h2 := H 2
    rw [show (0 : Fin 3) = (0 : Fin 2).castSucc from rfl, boxDims_start01, boxDims_window01, Nat.cast_zero, add_zero] at h0
    rw [show (1 : Fin 3) = (1 : Fin 2).castSucc from rfl, boxDims_start01, boxDims_window01, Nat.cast_zero, add_zero] at h1
    rw [boxDims_start2, boxDims_window2, zero_add] at h2
    exact ⟨h0, h1, Fin.ext (Int.ofNat_inj.mp h2)⟩
  · intro H a
    match a with
    | ⟨0, _⟩ =>
      show boxDims.start (ix3 b' n' d') idx (0 : Fin 2).castSucc
        + (boxDims.window (ix3 b' n' d') (0 : Fin 2).castSucc : Int) = _
      rw [boxDims_start01, boxDims_window01, Nat.cast_zero, add_zero]; exact H.1
    | ⟨1, _⟩ =>
      show boxDims.start (ix3 b' n' d') idx (1 : Fin 2).castSucc
        + (boxDims.window (ix3 b' n' d') (1 : Fin 2).castSucc : Int) = _
      rw [boxDims_start01, boxDims_window01, Nat.cast_zero, add_zero]; exact H.2.1
    | ⟨2, _⟩ =>
      show boxDims.start (ix3 b' n' d') idx 2 + (boxDims.window (ix3 b' n' d') 2 : Int) = _
      rw [boxDims_start2, boxDims_window2, zero_add, H.2.2]

theorem maskDims_start {w : Nat} (idx : IVec S8x128x2 w) (b : Fin 8) (n : Fin 128) (a : Fin 2) :
    maskDims.start (ix2 b n) idx a = (idx (ix3 b n a)).toInt := by
  have hmem : a ∈ maskDims.scatterDimsToOperandDims := by
    show a ∈ ([0, 1] : List (Fin 2))
    fin_cases a <;> decide
  have hsi : maskDims.siIdx (ix2 b n) ⟨List.idxOf a maskDims.scatterDimsToOperandDims, List.idxOf_lt_length_iff.2 hmem⟩
      = ix3 b n a := by
    funext c; refine Fin.ext ?_
    fin_cases a <;> (match c with
      | ⟨0, _⟩ => rfl
      | ⟨1, _⟩ => rfl
      | ⟨2, _⟩ => rfl)
  unfold ScatterDims.start
  rw [dif_pos hmem, hsi]

theorem maskDims_window (j : S8x128.Idx) (a : Fin 2) : maskDims.window j a = 0 := by
  unfold ScatterDims.window
  rw [dif_neg (not_mem_kept (by
    show a ∈ ([0, 1] : List (Fin 2))
    fin_cases a <;> decide))]

/-- Update `(b', n')` lands on the mask element `(b, cl)` exactly when its index pair, read signed, is `(b, cl)`. -/
theorem maskDims_lands {w : Nat} (idx : IVec S8x128x2 w) (b' : Fin 8) (n' : Fin 128) (b : Fin 8) (cl : Fin 262144) :
    maskDims.resultIdx? (ix2 b' n') idx = some (ix2 b cl) ↔
      ((idx (ix3 b' n' 0)).toInt = (b.val : Int) ∧ (idx (ix3 b' n' 1)).toInt = (cl.val : Int)) := by
  rw [resultIdx?_eq_some_iff]
  constructor
  · intro H
    have h0 := H 0
    have h1 := H 1
    rw [maskDims_start, maskDims_window, Nat.cast_zero, add_zero] at h0 h1
    exact ⟨h0, h1⟩
  · intro H a
    rw [maskDims_start, maskDims_window, Nat.cast_zero, add_zero]
    match a with
    | ⟨0, _⟩ => exact H.1
    | ⟨1, _⟩ => exact H.2

/-! ## Where a box writes -/

section Landing
variable (x2 : (⟨S8x128x7, .f32⟩ : BufTy).Contents (Elt Ideal)) (x3 : (⟨S8x128, .i32⟩ : BufTy).Contents (Elt Ideal)) (x4 : (⟨S8x128, .f32⟩ : BufTy).Contents (Elt Ideal))

theorem batch_eq_iff (b' b : Fin 8) : ((b'.val : Int) = (b.val : Int)) ↔ b' = b :=
  ⟨fun h => Fin.ext (by exact_mod_cast h), fun h => by rw [h]⟩

/-- Box `(b', n')` writes the class target `(b, cl, c)` exactly when it is a valid box of batch `b` with cell `cl`
    and label `c`. -/
theorem cls_lands (hlab : ∀ j, (x3 j).toInt < 10) (b' : Fin 8) (n' : Fin 128) (b : Fin 8) (cl : Fin 262144) (c : Fin 10) :
    clsDims.resultIdx? (ix2 b' n') (val_main_v60 (F := Ideal) x2 x3 x4) = some (ix3 b cl c) ↔
      (b' = b ∧ isValid x2 x3 x4 b' n' ∧ cellOf x2 b' n' = cl ∧ lblOf x3 b' n' = c) := by
  obtain ⟨h0, h1, h2⟩ := iv60 x2 x3 x4 b' n'
  rw [clsDims_lands, h0, h1, h2, batchWord_toInt, batch_eq_iff, v36_toInt_eq, lblW_toInt_eq x3 hlab]
  constructor
  · rintro ⟨hb, ⟨hv, hc⟩, hl⟩; exact ⟨hb, hv, hc, hl⟩
  · rintro ⟨hb, hv, hc, hl⟩; exact ⟨hb, ⟨hv, hc⟩, hl⟩

/-- Update `(b', n', d')` writes the box target `(b, cl, d)` exactly when box `n'` is a valid box of batch `b` with
    cell `cl` and `d' = d`. -/
theorem box_lands (b' : Fin 8) (n' : Fin 128) (d' : Fin 7) (b : Fin 8) (cl : Fin 262144) (d : Fin 7) :
    boxDims.resultIdx? (ix3 b' n' d') (val_main_v76 (F := Ideal) x2 x3 x4) = some (ix3 b cl d) ↔
      (b' = b ∧ isValid x2 x3 x4 b' n' ∧ cellOf x2 b' n' = cl ∧ d' = d) := by
  obtain ⟨h0, h1⟩ := iv76 x2 x3 x4 b' n'
  rw [boxDims_lands, h0, h1, batchWord_toInt, batch_eq_iff, v36_toInt_eq]
  constructor
  · rintro ⟨hb, ⟨hv, hc⟩, hd⟩; exact ⟨hb, hv, hc, hd⟩
  · rintro ⟨hb, hv, hc, hd⟩; exact ⟨hb, ⟨hv, hc⟩, hd⟩

/-- Box `(b', n')` writes the mask element `(b, cl)` exactly when it is a valid box of batch `b` with cell `cl`. -/
theorem mask_lands (b' : Fin 8) (n' : Fin 128) (b : Fin 8) (cl : Fin 262144) :
    maskDims.resultIdx? (ix2 b' n') (val_main_v91 (F := Ideal) x2 x3 x4) = some (ix2 b cl) ↔
      (b' = b ∧ isValid x2 x3 x4 b' n' ∧ cellOf x2 b' n' = cl) := by
  obtain ⟨h0, h1⟩ := iv91 x2 x3 x4 b' n'
  rw [maskDims_lands, h0, h1, batchWord_toInt, batch_eq_iff, v36_toInt_eq]

end Landing

/-! ## The three targets, read at an index -/

section Targets
variable (x2 : (⟨S8x128x7, .f32⟩ : BufTy).Contents (Elt Ideal)) (x3 : (⟨S8x128, .i32⟩ : BufTy).Contents (Elt Ideal)) (x4 : (⟨S8x128, .f32⟩ : BufTy).Contents (Elt Ideal))

/-- A class target is one exactly when some valid box of its batch carries its cell and its label. -/
theorem clsTargets_apply (hlab : ∀ j, (x3 j).toInt < 10) (b : Fin 8) (cl : Fin 262144) (c : Fin 10) :
    val_main_v62 (F := Ideal) x2 x3 x4 (ix3 b cl c)
      = if ∃ n : Fin 128, isValid x2 x3 x4 b n ∧ (cellOf x2 b n, lblOf x3 b n) = (cl, c) then (1 : EReal) else 0 := by
  unfold val_main_v62
  by_cases hex : ∃ n : Fin 128, isValid x2 x3 x4 b n ∧ (cellOf x2 b n, lblOf x3 b n) = (cl, c)
  · rw [if_pos hex]
    -- the last valid box carrying the pair is the one whose update stays
    obtain ⟨n, hw, hk⟩ := LastWins.exists_winner (valid := isValid x2 x3 x4 b)
      (key := fun n => (cellOf x2 b n, lblOf x3 b n)) hex
    have hk' : cellOf x2 b n = cl ∧ lblOf x3 b n = c := Prod.mk.inj hk
    have hlast : ∀ j', clsDims.resultIdx? j' (val_main_v60 (F := Ideal) x2 x3 x4) = some (ix3 b cl c) →
        S8x128.rowMajor j' ≤ S8x128.rowMajor (ix2 b n) := by
      intro j' hj'
      obtain ⟨b', n', rfl⟩ : ∃ b' n', j' = ix2 b' n' := ⟨j' 0, j' 1, eq_ix2 j'⟩
      obtain ⟨hb, hv, hc, hl⟩ := (cls_lands x2 x3 x4 hlab b' n' b cl c).mp hj'
      subst hb
      exact (rowMajor_le_two _ _ _ _).mpr (Or.inr ⟨rfl, hw.2 n' hv
        (congrArg₂ Prod.mk (hc.trans hk'.1.symm) (hl.trans hk'.2.symm))⟩)
    rw [scatter_set_last clsDims _ _ _ (ix3 b cl c) (ix2 b n)
      ((cls_lands x2 x3 x4 hlab b n b cl c).mpr ⟨rfl, hw.1, hk'.1, hk'.2⟩) hlast,
      val_main_v61_apply, val_main_cst_22_apply]
    exact ofBits_one_f32
  · rw [if_neg hex, scatter_set_none clsDims _ _ _ (ix3 b cl c) ?_, val_main_v41_apply, val_main_cst_15_apply]
    · exact ofBits_zero_f32
    · intro j' hj'
      obtain ⟨b', n', rfl⟩ : ∃ b' n', j' = ix2 b' n' := ⟨j' 0, j' 1, eq_ix2 j'⟩
      obtain ⟨hb, hv, hc, hl⟩ := (cls_lands x2 x3 x4 hlab b' n' b cl c).mp hj'
      subst hb
      exact hex ⟨n', hv, congrArg₂ Prod.mk hc hl⟩

/-- A mask element is one exactly when some valid box of its batch carries its cell. -/
theorem regMask_apply (b : Fin 8) (cl : Fin 262144) :
    val_main_v93 (F := Ideal) x2 x3 x4 (ix2 b cl)
      = if ∃ n : Fin 128, isValid x2 x3 x4 b n ∧ cellOf x2 b n = cl then (1 : EReal) else 0 := by
  unfold val_main_v93
  by_cases hex : ∃ n : Fin 128, isValid x2 x3 x4 b n ∧ cellOf x2 b n = cl
  · rw [if_pos hex]
    obtain ⟨n, hw, hk⟩ := LastWins.exists_winner (valid := isValid x2 x3 x4 b) (key := cellOf x2 b) hex
    have hlast : ∀ j', maskDims.resultIdx? j' (val_main_v91 (F := Ideal) x2 x3 x4) = some (ix2 b cl) →
        S8x128.rowMajor j' ≤ S8x128.rowMajor (ix2 b n) := by
      intro j' hj'
      obtain ⟨b', n', rfl⟩ : ∃ b' n', j' = ix2 b' n' := ⟨j' 0, j' 1, eq_ix2 j'⟩
      obtain ⟨hb, hv, hc⟩ := (mask_lands x2 x3 x4 b' n' b cl).mp hj'
      subst hb
      exact (rowMajor_le_two _ _ _ _).mpr (Or.inr ⟨rfl, hw.2 n' hv (hc.trans hk.symm)⟩)
    rw [scatter_set_last maskDims _ _ _ (ix2 b cl) (ix2 b n)
      ((mask_lands x2 x3 x4 b n b cl).mpr ⟨rfl, hw.1, hk⟩) hlast, val_main_v92_apply, val_main_cst_33_apply]
    exact ofBits_one_f32
  · rw [if_neg hex, scatter_set_none maskDims _ _ _ (ix2 b cl) ?_, val_main_v78_apply, val_main_cst_28_apply]
    · exact ofBits_zero_f32
    · intro j' hj'
      obtain ⟨b', n', rfl⟩ : ∃ b' n', j' = ix2 b' n' := ⟨j' 0, j' 1, eq_ix2 j'⟩
      obtain ⟨hb, hv, hc⟩ := (mask_lands x2 x3 x4 b' n' b cl).mp hj'
      subst hb
      exact hex ⟨n', hv, hc⟩

/-- At the cell of the last valid box carrying it, the box targets hold that box's row. -/
theorem boxTargets_winner (b : Fin 8) (n : Fin 128) (d : Fin 7)
    (hw : LastWins.IsWinner (isValid x2 x3 x4 b) (cellOf x2 b) n) :
    val_main_v77 (F := Ideal) x2 x3 x4 (ix3 b (cellOf x2 b n) d) = x2 (ix3 b n d) := by
  unfold val_main_v77
  refine scatter_set_last boxDims _ _ _ (ix3 b (cellOf x2 b n) d) (ix3 b n d)
    ((box_lands x2 x3 x4 b n d b (cellOf x2 b n) d).mpr ⟨rfl, hw.1, rfl, rfl⟩) ?_
  intro j' hj'
  obtain ⟨b', n', d', rfl⟩ : ∃ b' n' d', j' = ix3 b' n' d' := ⟨j' 0, j' 1, j' 2, eq_ix3 j'⟩
  obtain ⟨hb, hv, hc, hd⟩ := (box_lands x2 x3 x4 b' n' d' b (cellOf x2 b n) d).mp hj'
  subst hb
  subst hd
  have hle : n' ≤ n := hw.2 n' hv hc
  refine (rowMajor_le_three _ _ _ _ _ _).mpr (Or.inr ⟨rfl, ?_⟩)
  rcases lt_or_eq_of_le hle with h | h
  · exact Or.inl h
  · exact Or.inr ⟨h, le_refl _⟩

/-- At a cell no valid box of the batch carries, the box targets are zero. -/
theorem boxTargets_miss (b : Fin 8) (cl : Fin 262144) (d : Fin 7)
    (h : ¬ ∃ n : Fin 128, isValid x2 x3 x4 b n ∧ cellOf x2 b n = cl) :
    val_main_v77 (F := Ideal) x2 x3 x4 (ix3 b cl d) = 0 := by
  unfold val_main_v77
  rw [scatter_set_none boxDims _ _ _ (ix3 b cl d) ?_, val_main_v63_apply, val_main_cst_23_apply]
  · exact ofBits_zero_f32
  · intro j' hj'
    obtain ⟨b', n', d', rfl⟩ : ∃ b' n' d', j' = ix3 b' n' d' := ⟨j' 0, j' 1, j' 2, eq_ix3 j'⟩
    obtain ⟨hb, hv, hc, _⟩ := (box_lands x2 x3 x4 b' n' d' b cl d).mp hj'
    subst hb
    exact h ⟨n', hv, hc⟩

end Targets

end Cert.ReferenceIdeal.Hand
-- ==== Proof.LibERealSums.lean ====
/-
  SUMS OF EXTENDED REALS ALL OF WHOSE TERMS ARE REAL. On the extended reals subtraction does not undo addition
  (`⊤ - ⊤ = ⊥`), so the usual laws of finite sums with differences hold only away from the infinities. Here a value
  is called REAL when it is the image of a real number; real values are closed under the arithmetic operations and
  finite sums, the inclusion of the reals commutes with finite sums, and between real values the laws of an
  additive group hold again.
-/
import Mathlib.Data.EReal.Basic
import Mathlib.Data.EReal.Operations
import Mathlib.Algebra.BigOperators.Group.Finset.Basic

namespace ERealSums

/-- An extended real is REAL when it is (the image of) a real number: neither `⊤` nor `⊥`. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- A real value is the image of its real part. -/
theorem IsReal.coe_toReal {x : EReal} (hx : IsReal x) : ((x.toReal : ℝ) : EReal) = x := by
  obtain ⟨r, rfl⟩ := hx
  rw [EReal.toReal_coe]

/-- A real value is not `⊤`. -/
theorem IsReal.ne_top {x : EReal} (hx : IsReal x) : x ≠ ⊤ := by
  obtain ⟨r, rfl⟩ := hx
  exact EReal.coe_ne_top r

/-- A real value is not `⊥`. -/
theorem IsReal.ne_bot {x : EReal} (hx : IsReal x) : x ≠ ⊥ := by
  obtain ⟨r, rfl⟩ := hx
  exact EReal.coe_ne_bot r

/-- A value that is neither `⊤` nor `⊥` is real. -/
theorem isReal_of_ne {x : EReal} (htop : x ≠ ⊤) (hbot : x ≠ ⊥) : IsReal x :=
  ⟨x.toReal, (EReal.coe_toReal htop hbot).symm⟩

/-- The sum of two real values is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The difference of two real values is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The product of two real values is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negative of a real value is real. -/
theorem isReal_neg {x : EReal} (hx : IsReal x) : IsReal (-x) := by
  obtain ⟨a, rfl⟩ := hx
  exact ⟨-a, (EReal.coe_neg a).symm⟩

/-- A value chosen by a condition between two real values is real. -/
theorem isReal_ite {p : Prop} [Decidable p] {x y : EReal} (hx : IsReal x) (hy : IsReal y) :
    IsReal (if p then x else y) := by
  split
  · exact hx
  · exact hy

/-- The inclusion of the reals into the extended reals commutes with finite sums. -/
theorem coe_sum {ι : Type*} (s : Finset ι) (f : ι → ℝ) :
    ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-- A finite sum of real values is real. -/
theorem isReal_sum {ι : Type*} (s : Finset ι) (f : ι → EReal) (h : ∀ i ∈ s, IsReal (f i)) :
    IsReal (∑ i ∈ s, f i) := by
  induction s using Finset.cons_induction with
  | empty =>
    rw [Finset.sum_empty]
    exact isReal_zero
  | cons a s ha ih =>
    rw [Finset.sum_cons]
    exact isReal_add (h a (Finset.mem_cons_self a s)) (ih fun i hi => h i (Finset.mem_cons_of_mem hi))

/-- A finite sum of real values is the image of the sum of their real parts. -/
theorem sum_eq_coe_sum_toReal {ι : Type*} (s : Finset ι) (f : ι → EReal) (h : ∀ i ∈ s, IsReal (f i)) :
    ∑ i ∈ s, f i = ((∑ i ∈ s, (f i).toReal : ℝ) : EReal) := by
  rw [coe_sum]
  exact Finset.sum_congr rfl fun i hi => (h i hi).coe_toReal.symm

/-- A finite sum of differences of real values is the difference of the sums. -/
theorem sum_sub_distrib {ι : Type*} (s : Finset ι) (f g : ι → EReal) (hf : ∀ i ∈ s, IsReal (f i))
    (hg : ∀ i ∈ s, IsReal (g i)) : ∑ i ∈ s, (f i - g i) = ∑ i ∈ s, f i - ∑ i ∈ s, g i := by
  induction s using Finset.cons_induction with
  | empty => rw [Finset.sum_empty, Finset.sum_empty, Finset.sum_empty, sub_zero]
  | cons a s ha ih =>
    have hf' : ∀ i ∈ s, IsReal (f i) := fun i hi => hf i (Finset.mem_cons_of_mem hi)
    have hg' : ∀ i ∈ s, IsReal (g i) := fun i hi => hg i (Finset.mem_cons_of_mem hi)
    rw [Finset.sum_cons, Finset.sum_cons, Finset.sum_cons, ih hf' hg']
    obtain ⟨p, hp⟩ := hf a (Finset.mem_cons_self a s)
    obtain ⟨q, hq⟩ := hg a (Finset.mem_cons_self a s)
    obtain ⟨P, hP⟩ := isReal_sum s f hf'
    obtain ⟨Q, hQ⟩ := isReal_sum s g hg'
    rw [hp, hq, hP, hQ, ← EReal.coe_sub, ← EReal.coe_sub, ← EReal.coe_add, ← EReal.coe_add, ← EReal.coe_add,
      ← EReal.coe_sub, add_sub_add_comm]

/-- Between real values a subtraction and an addition may be exchanged. -/
theorem add_sub_assoc_real {a b c : EReal} (ha : IsReal a) (hb : IsReal b) (hc : IsReal c) :
    a - b + c = (a + c) - b := by
  obtain ⟨p, rfl⟩ := ha
  obtain ⟨q, rfl⟩ := hb
  obtain ⟨r, rfl⟩ := hc
  rw [← EReal.coe_sub, ← EReal.coe_add, ← EReal.coe_add, ← EReal.coe_sub, sub_add_eq_add_sub]

/-- A real value minus itself is zero. -/
theorem sub_self_real {a : EReal} (ha : IsReal a) : a - a = 0 := by
  obtain ⟨p, rfl⟩ := ha
  rw [← EReal.coe_sub, sub_self, EReal.coe_zero]

/-- Adding a real value and subtracting it again changes nothing (the other value may be infinite). -/
theorem add_sub_cancel_real {a b : EReal} (hb : IsReal b) : a + b - b = a := by
  obtain ⟨q, rfl⟩ := hb
  induction a using EReal.rec with
  | bot => rfl
  | coe p => rw [← EReal.coe_add, ← EReal.coe_sub, add_sub_cancel_right]
  | top => rfl

/-- Subtracting a real value and adding it again changes nothing (the other value may be infinite). -/
theorem sub_add_cancel_real {a b : EReal} (hb : IsReal b) : a - b + b = a := by
  obtain ⟨q, rfl⟩ := hb
  induction a using EReal.rec with
  | bot => rfl
  | coe p => rw [← EReal.coe_sub, ← EReal.coe_add, sub_add_cancel]
  | top => rfl

end ERealSums
-- ==== Proof.Bridge.lean ====
/-
  FROM THE INDEX READINGS OF THE TWO PROGRAMS TO THE EQUALITY OF THEIR LOSSES, over the extended reals.

  The class loss. The reference sums over every logit z the term (max(z,0) − z·t) + log(1+exp(−|z|)), where the class
  target t is one at the (cell, label) pairs of the valid boxes and zero elsewhere. Subtracting is adding the
  negative, so the term is (max(z,0) + log(1+exp(−|z|))) − z·t, and, every term being real, the sum splits into the
  sum of the softplus parts less the sum of z·t. The latter is, batch by batch, a sum over (cell, label) pairs of a
  quantity that vanishes where no valid box points and equals the logit where one does: the sum, over the LAST valid
  box of each pair, of the logit at its pair. The kernel computes exactly these two sums and subtracts.

  The box loss. The reference sums, over the cells, the smooth-L1 row sum against the box targets times the cell
  mask; the mask vanishes where no valid box falls and is one where one does, and there the targets are the
  parameters of the LAST valid box of the cell. So the numerator is the sum over those last boxes of the row sum of
  the prediction at the box's cell against the box, and the denominator counts them: the kernel's two sums.
-/
import proofs.«402323_j60327110639965_2_alg».proof.Proof.KIStages
import proofs.«402323_j60327110639965_2_alg».proof.Proof.RefReadP
import proofs.«402323_j60327110639965_2_alg».proof.Proof.Scalars
import proofs.«402323_j60327110639965_2_alg».proof.Proof.LibLastWins
import proofs.«402323_j60327110639965_2_alg».proof.Proof.LibERealSums
import Idealize.ShloMosaic.Lib.ValueIdx
import Idealize.ShloMosaic.PureOps.Ideal.Laws

noncomputable section

namespace Cert.Bridge

open Idealize.ShloMosaic Idealize.ShloMosaic.ValueIdx
open ERealSums LastWins Cert.KernelIdeal Cert.ReferenceIdeal.ReadP
open Cert.KernelIdeal.Facts₀ Cert.KernelIdeal.Facts

/-! ## Sums over index sets, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- On the extended reals a subtraction and a following addition may be exchanged, whatever the three values:
    subtracting is adding the negative, and addition is commutative and associative. -/
theorem sub_add_eq_add_sub_ereal (a b c : EReal) : a - b + c = a + c - b := by
  rw [sub_eq_add_neg, sub_eq_add_neg, add_right_comm]

/-- The word of the float zero denotes the extended real zero. -/
theorem zero_f32 : (FloatOps.ofBits (F := Ideal) .f32 0x00000000#32 : EReal) = 0 := Ideal.ofBits_zero_f32

/-! ## Sums the host takes, read at an index -/

/-- A bit as a float is one where the bit is set and zero where it is not. -/
theorem uitofp_bit (c : BitVec 1) : FloatOps.uitofp (F := Ideal) .f32 c = if c = 1#1 then (1 : EReal) else 0 := by
  rcases BitVec.eq_zero_or_eq_one c with h | h
  · subst h
    rw [if_neg (by decide)]
    show (((0 : ℕ) : ℝ) : EReal) = 0
    rw [Nat.cast_zero, EReal.coe_zero]
  · subst h
    rw [if_pos rfl]
    show (((1 : ℕ) : ℝ) : EReal) = 1
    rw [Nat.cast_one, EReal.coe_one]

/-- The host's sum of a per-box array over batches and boxes, from zero. -/
theorem total8x128 (y : Stage.FArr (F := Ideal) S8x128) (i : S_.Idx) :
    Host.reduceAdd (F := Ideal) y (constant S_ .f32 0x00000000#32) reducesTo_S8x128_S_d0_1 h_S_ i
      = ∑ b : Fin 8, ∑ n : Fin 128, y (ix2 b n) := by
  simp only [Host.reduceAdd, Ideal.hostReduceAdd_def]
  rw [Ideal.hostReduceAdd_total reducesTo_S8x128_S_d0_1 (fun b => b.elim0) y _ i]
  show FloatOps.ofBits (F := Ideal) .f32 0x00000000#32 + _ = _
  rw [zero_f32, zero_add, sum_idx2]

/-- The host's sum of a per-box, per-parameter array over the seven box parameters, from zero. -/
theorem rowSum7 (y : Stage.FArr (F := Ideal) S8x128x7) (b : Fin 8) (n : Fin 128) :
    Host.reduceAdd (F := Ideal) y (constant S_ .f32 0x00000000#32) reducesTo_S8x128x7_S8x128_d2 h_S_ (ix2 b n)
      = ∑ d : Fin 7, y (ix3 b n d) := by
  simp only [Host.reduceAdd, Ideal.hostReduceAdd_def]
  rw [Ideal.hostReduceAdd_single reducesTo_S8x128x7_S8x128_d2 (by decide)]
  show FloatOps.ofBits (F := Ideal) .f32 0x00000000#32 + _ = _
  rw [zero_f32, zero_add]
  refine Finset.sum_congr rfl fun d _ => congrArg y (funext fun a => Fin.ext ?_)
  match a with
  | ⟨0, _⟩ => rfl
  | ⟨1, _⟩ => rfl
  | ⟨2, _⟩ => rfl

/-! ## The class loss -/

section Cls
variable (x0 : Stage.FArr (F := Ideal) S8x262144x10) (x2 : Stage.FArr (F := Ideal) S8x128x7)
  (x3 : Stage.WArr (F := Ideal) S8x128) (x4 : Stage.FArr (F := Ideal) S8x128)

/-- The reference's per-logit term is the softplus part less the logit times its class target. -/
theorem v102_eq (i : S8x262144x10.Idx) :
    val_main_v102 (F := Ideal) x0 x2 x3 x4 i
      = Cert.Scalars.bceR (x0 i) - x0 i * val_main_v62 (F := Ideal) x2 x3 x4 i := by
  rw [val_main_v102_apply, val_main_v97_apply, val_main_v95_apply, val_main_v96_apply, val_main_v101_apply,
    val_main_v100_apply, val_main_v99_apply, val_main_v98_apply, val_main_v94_apply, val_main_cst_34_apply]
  exact sub_add_eq_add_sub_ereal _ _ _

/-- The reference's double reduction is the sum of the per-logit terms over every logit. -/
theorem v104_eq (i : S_.Idx) :
    val_main_v104 (F := Ideal) x0 x2 x3 x4 i = ∑ j : S8x262144x10.Idx, val_main_v102 (F := Ideal) x0 x2 x3 x4 j := by
  rw [val_main_v104_apply, val_main_cst_36_apply, zero_f32, zero_add, sum_idx2, sum_idx3]
  refine Finset.sum_congr rfl fun b _ => Finset.sum_congr rfl fun cl _ => ?_
  rw [val_main_v103_apply, val_main_cst_35_apply, zero_f32, zero_add]
  refine Finset.sum_congr rfl fun c _ => congrArg _ (funext fun a => ?_)
  match a with
  | ⟨0, _⟩ => rfl
  | ⟨1, _⟩ => rfl
  | ⟨2, _⟩ => rfl

/-- The sum of everything the region wrote. -/
theorem s0_apply (o : Stage.FArr (F := Ideal) S160x128) (i : S_.Idx) : Stage.s0 (F := Ideal) o i = ∑ j, o j := by
  unfold Stage.s0
  simp only [Host.reduceAdd, Ideal.hostReduceAdd_def]
  rw [Ideal.hostReduceAdd_total reducesTo_S160x128_S_d0_1 (fun b => b.elim0) o _ i]
  show FloatOps.ofBits (F := Ideal) .f32 0x00000000#32 + _ = _
  rw [zero_f32, zero_add]

/-- The kernel's correction: the sum over the boxes of the gathered logit where the box is marked. -/
theorem corr_apply (ig lbl : Stage.WArr (F := Ideal) S8x128) (wc : Stage.BArr (F := Ideal) S8x128) (i : S_.Idx) :
    Stage.corr (F := Ideal) x0 ig lbl wc i
      = ∑ b : Fin 8, ∑ n : Fin 128, if wc (ix2 b n) = 1#1 then Stage.zAt (F := Ideal) x0 ig lbl (ix2 b n) else 0 := by
  unfold Stage.corr
  rw [total8x128]
  refine Finset.sum_congr rfl fun b _ => Finset.sum_congr rfl fun n _ => ?_
  show (if wc (ix2 b n) = 1 then Stage.zAt (F := Ideal) x0 ig lbl (ix2 b n)
    else FloatOps.ofBits (F := Ideal) .f32 0x00000000#32) = _
  rw [zero_f32]
  rfl

/-- THE CLASS LOSS. The reference sums, over every logit, the softplus part less the logit where its class target is
    set; the targets are set exactly at the (cell, label) pairs of the valid boxes, so the subtracted part is the sum
    over the LAST valid box of each pair of its logit — what the kernel gathers and subtracts from the region's sum. -/
theorem cls_eq (o : Stage.FArr (F := Ideal) S160x128) (ig lbl : Stage.WArr (F := Ideal) S8x128)
    (wc : Stage.BArr (F := Ideal) S8x128)
    (valid : Fin 8 → Fin 128 → Prop) [∀ b, DecidablePred (valid b)] (cell : Fin 8 → Fin 128 → Fin 262144)
    (lab : Fin 8 → Fin 128 → Fin 10)
    (hfin : ∀ i, IsReal (x0 i))
    (hbce : ∀ x : EReal, IsReal x → IsReal (Cert.Scalars.bceR x))
    (ht : ∀ (b : Fin 8) (cl : Fin 262144) (c : Fin 10), val_main_v62 (F := Ideal) x2 x3 x4 (ix3 b cl c)
      = if ∃ n : Fin 128, valid b n ∧ (cell b n, lab b n) = (cl, c) then (1 : EReal) else 0)
    (hz : ∀ (b : Fin 8) (n : Fin 128), Stage.zAt (F := Ideal) x0 ig lbl (ix2 b n) = x0 (ix3 b (cell b n) (lab b n)))
    (hw : ∀ (b : Fin 8) (n : Fin 128), wc (ix2 b n) = 1#1 ↔ IsWinner (valid b) (fun m => (cell b m, lab b m)) n)
    (ho : ∑ j, o j = ∑ i, Cert.Scalars.bceR (x0 i)) :
    Stage.clsK (F := Ideal) o x0 ig lbl wc = val_main_v105 (F := Ideal) x0 x2 x3 x4 := by
  -- the class targets are real, and so is each logit times its target
  have htr : ∀ i, IsReal (x0 i * val_main_v62 (F := Ideal) x2 x3 x4 i) := by
    intro i
    obtain ⟨b, cl, c, rfl⟩ : ∃ b cl c, i = ix3 b cl c := ⟨i 0, i 1, i 2, eq_ix3 i⟩
    rw [ht]
    exact isReal_mul (hfin _) (isReal_ite isReal_one isReal_zero)
  -- per batch, the logits at the set targets are the winners' logits
  have hpair : ∀ b : Fin 8,
      (∑ cl : Fin 262144, ∑ c : Fin 10, x0 (ix3 b cl c) * val_main_v62 (F := Ideal) x2 x3 x4 (ix3 b cl c))
        = ∑ n : Fin 128, if IsWinner (valid b) (fun m => (cell b m, lab b m)) n
            then x0 (ix3 b (cell b n) (lab b n)) else 0 := by
    intro b
    refine (Fintype.sum_prod_type' fun (cl : Fin 262144) (c : Fin 10) =>
      x0 (ix3 b cl c) * val_main_v62 (F := Ideal) x2 x3 x4 (ix3 b cl c)).symm.trans ?_
    refine sum_eq_sum_winners (valid b) (fun m => (cell b m, lab b m))
      (fun k => x0 (ix3 b k.1 k.2) * val_main_v62 (F := Ideal) x2 x3 x4 (ix3 b k.1 k.2))
      (fun n => x0 (ix3 b (cell b n) (lab b n))) ?_ ?_
    · intro n hn
      show x0 (ix3 b (cell b n) (lab b n)) * val_main_v62 (F := Ideal) x2 x3 x4 (ix3 b (cell b n) (lab b n)) = _
      rw [ht, if_pos ⟨n, hn.1, rfl⟩, mul_one]
    · intro k hk
      show x0 (ix3 b k.1 k.2) * val_main_v62 (F := Ideal) x2 x3 x4 (ix3 b k.1 k.2) = 0
      rw [ht, if_neg (fun ⟨n, hv, e⟩ => hk ⟨n, hv, e⟩), mul_zero]
  have key : ∀ i : S_.Idx, Stage.s0 (F := Ideal) o i - Stage.corr (F := Ideal) x0 ig lbl wc i
      = val_main_v104 (F := Ideal) x0 x2 x3 x4 i := by
    intro i
    rw [s0_apply, ho, corr_apply, v104_eq,
      Finset.sum_congr rfl fun j _ => v102_eq x0 x2 x3 x4 j,
      sum_sub_distrib Finset.univ _ _ (fun j _ => hbce _ (hfin j)) (fun j _ => htr j)]
    refine congrArg (_ - ·) ?_
    rw [sum_idx3]
    refine Finset.sum_congr rfl fun b _ => ?_
    rw [hpair b]
    refine Finset.sum_congr rfl fun n _ => ?_
    rw [hz b n]
    exact if_congr (hw b n) rfl rfl
  funext i
  rw [val_main_v105_apply, ← key i]
  rfl

end Cls

/-! ## The box loss -/

/-- Smooth-L1 at one difference, as both programs write it: half the square where the absolute value is below one,
    the absolute value less a half elsewhere. -/
def smoothL1 (d : Ideal .f32) : Ideal .f32 :=
  Scalar.select (FloatOps.cmpf .olt (FloatOps.hostAbsf d) (FloatOps.ofBits .f32 0x3F800000#32))
    (FloatOps.mulf (FloatOps.mulf (FloatOps.ofBits .f32 0x3F000000#32) d) d)
    (FloatOps.subf (FloatOps.hostAbsf d) (FloatOps.ofBits .f32 0x3F000000#32))

section Box
variable (x1 : Stage.FArr (F := Ideal) S8x262144x7) (x2 : Stage.FArr (F := Ideal) S8x128x7)
  (x3 : Stage.WArr (F := Ideal) S8x128) (x4 : Stage.FArr (F := Ideal) S8x128)

/-- The kernel's per-box smooth-L1 row sum. -/
theorem sl1K_apply (ig : Stage.WArr (F := Ideal) S8x128) (b : Fin 8) (n : Fin 128) :
    Stage.sl1K (F := Ideal) x1 x2 ig (ix2 b n)
      = ∑ d : Fin 7, smoothL1 (Stage.pAt (F := Ideal) x1 ig (ix3 b n d) - x2 (ix3 b n d)) := by
  unfold Stage.sl1K
  rw [rowSum7]
  rfl

/-- The kernel's winner mask as floats. -/
theorem maskK_apply (wb : Stage.BArr (F := Ideal) S8x128) (j : S8x128.Idx) :
    Stage.maskK (F := Ideal) wb j = if wb j = 1#1 then (1 : EReal) else 0 :=
  uitofp_bit (wb j)

/-- The kernel's numerator: the winners' smooth-L1 row sums. -/
theorem numK_apply (ig : Stage.WArr (F := Ideal) S8x128) (wb : Stage.BArr (F := Ideal) S8x128) (i : S_.Idx) :
    Stage.numK (F := Ideal) x1 x2 ig wb i
      = ∑ b : Fin 8, ∑ n : Fin 128, if wb (ix2 b n) = 1#1 then Stage.sl1K (F := Ideal) x1 x2 ig (ix2 b n) else 0 := by
  unfold Stage.numK
  rw [total8x128]
  refine Finset.sum_congr rfl fun b _ => Finset.sum_congr rfl fun n _ => ?_
  show Stage.sl1K (F := Ideal) x1 x2 ig (ix2 b n) * Stage.maskK (F := Ideal) wb (ix2 b n) = _
  rw [maskK_apply, mul_ite, mul_one, mul_zero]

/-- The kernel's denominator: the number of winners. -/
theorem denK_apply (wb : Stage.BArr (F := Ideal) S8x128) (i : S_.Idx) :
    Stage.denK (F := Ideal) wb i = ∑ b : Fin 8, ∑ n : Fin 128, if wb (ix2 b n) = 1#1 then (1 : EReal) else 0 := by
  unfold Stage.denK
  rw [total8x128]
  exact Finset.sum_congr rfl fun b _ => Finset.sum_congr rfl fun n _ => maskK_apply wb _

/-- The reference's per-cell smooth-L1 row sum. -/
theorem v116_eq (b : Fin 8) (cl : Fin 262144) :
    val_main_v116 (F := Ideal) x1 x2 x3 x4 (ix2 b cl)
      = ∑ d : Fin 7, smoothL1 (x1 (ix3 b cl d) - val_main_v77 (F := Ideal) x2 x3 x4 (ix3 b cl d)) := by
  rw [val_main_v116_apply, val_main_cst_41_apply, zero_f32, zero_add]
  refine Finset.sum_congr rfl fun d _ => ?_
  have e : idx_main_v116 (ix2 b cl) d = ix3 b cl d := funext fun a => by
    match a with
    | ⟨0, _⟩ => rfl
    | ⟨1, _⟩ => rfl
    | ⟨2, _⟩ => rfl
  rw [e]
  rfl

/-- The reference's numerator: the row sums times the cell mask, over batches and cells. -/
theorem v118_eq (i : S_.Idx) :
    val_main_v118 (F := Ideal) x1 x2 x3 x4 i
      = ∑ b : Fin 8, ∑ cl : Fin 262144,
          val_main_v116 (F := Ideal) x1 x2 x3 x4 (ix2 b cl) * val_main_v93 (F := Ideal) x2 x3 x4 (ix2 b cl) := by
  rw [val_main_v118_apply, val_main_cst_42_apply, zero_f32, zero_add, sum_idx2]
  rfl

/-- The reference's denominator before the guard: the cell mask summed over batches and cells. -/
theorem v119_eq (i : S_.Idx) :
    val_main_v119 (F := Ideal) x2 x3 x4 i
      = ∑ b : Fin 8, ∑ cl : Fin 262144, val_main_v93 (F := Ideal) x2 x3 x4 (ix2 b cl) := by
  rw [val_main_v119_apply, val_main_cst_43_apply, zero_f32, zero_add, sum_idx2]

/-- THE BOX LOSS. The reference sums the smooth-L1 row sums over the cells some valid box falls in, against the box
    targets, which at such a cell are the parameters of the LAST valid box falling in it; the kernel sums, over those
    last boxes, the same row sums with the prediction gathered at the box's cell. The denominators count the same
    cells, resp. boxes. -/
theorem box_eq (ig : Stage.WArr (F := Ideal) S8x128) (wb : Stage.BArr (F := Ideal) S8x128)
    (valid : Fin 8 → Fin 128 → Prop) [∀ b, DecidablePred (valid b)] (cell : Fin 8 → Fin 128 → Fin 262144)
    (hbw : ∀ (b : Fin 8) (n : Fin 128) (d : Fin 7), IsWinner (valid b) (cell b) n →
      val_main_v77 (F := Ideal) x2 x3 x4 (ix3 b (cell b n) d) = x2 (ix3 b n d))
    (hreg : ∀ (b : Fin 8) (cl : Fin 262144), val_main_v93 (F := Ideal) x2 x3 x4 (ix2 b cl)
      = if ∃ n : Fin 128, valid b n ∧ cell b n = cl then (1 : EReal) else 0)
    (hp : ∀ (b : Fin 8) (n : Fin 128) (d : Fin 7), Stage.pAt (F := Ideal) x1 ig (ix3 b n d) = x1 (ix3 b (cell b n) d))
    (hw : ∀ (b : Fin 8) (n : Fin 128), wb (ix2 b n) = 1#1 ↔ IsWinner (valid b) (cell b) n) :
    Stage.boxK (F := Ideal) x1 x2 ig wb = val_main_v121 (F := Ideal) x1 x2 x3 x4 := by
  -- at a winner's cell the reference's row sum is the kernel's row sum of the winner
  have hrow : ∀ (b : Fin 8) (n : Fin 128), IsWinner (valid b) (cell b) n →
      val_main_v116 (F := Ideal) x1 x2 x3 x4 (ix2 b (cell b n)) = Stage.sl1K (F := Ideal) x1 x2 ig (ix2 b n) := by
    intro b n hn
    rw [v116_eq, sl1K_apply]
    refine Finset.sum_congr rfl fun d _ => ?_
    rw [hbw b n d hn, hp b n d]
  have hnum : ∀ i : S_.Idx, Stage.numK (F := Ideal) x1 x2 ig wb i = val_main_v118 (F := Ideal) x1 x2 x3 x4 i := by
    intro i
    rw [numK_apply, v118_eq]
    refine Finset.sum_congr rfl fun b _ => ?_
    rw [sum_eq_sum_winners (valid b) (cell b)
      (fun cl => val_main_v116 (F := Ideal) x1 x2 x3 x4 (ix2 b cl) * val_main_v93 (F := Ideal) x2 x3 x4 (ix2 b cl))
      (fun n => Stage.sl1K (F := Ideal) x1 x2 ig (ix2 b n))
      (fun n hn => by
        show val_main_v116 (F := Ideal) x1 x2 x3 x4 (ix2 b (cell b n))
          * val_main_v93 (F := Ideal) x2 x3 x4 (ix2 b (cell b n)) = _
        rw [hreg, if_pos ⟨n, hn.1, rfl⟩, mul_one, hrow b n hn])
      (fun cl hcl => by
        show val_main_v116 (F := Ideal) x1 x2 x3 x4 (ix2 b cl) * val_main_v93 (F := Ideal) x2 x3 x4 (ix2 b cl) = 0
        rw [hreg, if_neg hcl, mul_zero])]
    exact Finset.sum_congr rfl fun n _ => if_congr (hw b n) rfl rfl
  have hden : ∀ i : S_.Idx, Stage.denK (F := Ideal) wb i = val_main_v119 (F := Ideal) x2 x3 x4 i := by
    intro i
    rw [denK_apply, v119_eq]
    refine Finset.sum_congr rfl fun b _ => ?_
    rw [sum_eq_sum_winners (valid b) (cell b) (fun cl => val_main_v93 (F := Ideal) x2 x3 x4 (ix2 b cl))
      (fun _ => (1 : EReal))
      (fun n hn => by
        show val_main_v93 (F := Ideal) x2 x3 x4 (ix2 b (cell b n)) = 1
        rw [hreg, if_pos ⟨n, hn.1, rfl⟩])
      (fun cl hcl => by
        show val_main_v93 (F := Ideal) x2 x3 x4 (ix2 b cl) = 0
        rw [hreg, if_neg hcl])]
    exact Finset.sum_congr rfl fun n _ => if_congr (hw b n) rfl rfl
  funext i
  rw [val_main_v121_apply, val_main_v120_apply, ← hnum i, ← hden i]
  rfl

end Box

/-! ## The three results -/

/-- The kernel stacks the total, the class loss and the box loss as the reference does. -/
theorem res_eq (x0 : Stage.FArr (F := Ideal) S8x262144x10) (x1 : Stage.FArr (F := Ideal) S8x262144x7)
    (x2 : Stage.FArr (F := Ideal) S8x128x7) (x3 : Stage.WArr (F := Ideal) S8x128) (x4 : Stage.FArr (F := Ideal) S8x128) :
    Stage.resK (F := Ideal) (val_main_v105 (F := Ideal) x0 x2 x3 x4) (val_main_v121 (F := Ideal) x1 x2 x3 x4)
      = val_main_v128 (F := Ideal) x0 x1 x2 x3 x4 := rfl

end Cert.Bridge

end
-- ==== Proof.PreFacts.lean ====
/-
  What the precondition says of the inputs, read back from its printed form: every float input is a real number
  (its absolute value lies below +infinity, so it is neither infinity) and every label is below ten.
-/
import proofs.«402323_j60327110639965_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs Cert.Pre_finite_inputs.Facts

/-- A rank-zero array has one index. -/
instance : Subsingleton S_.Idx := ⟨fun a b => funext fun d => d.elim0⟩

/-- An extended real whose absolute value is below +infinity is a real. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  induction x using EReal.rec with
  | bot => simp [FloatOps.cmpf, FloatOps.hostAbsf, FloatOps.ofBits, Ideal.ofBits, Ideal.ieee, Ideal.cmp] at h
  | coe r => exact ⟨r, rfl⟩
  | top => simp [FloatOps.cmpf, FloatOps.hostAbsf, FloatOps.ofBits, Ideal.ofBits, Ideal.ieee, Ideal.cmp] at h

/-- Where the whole precondition is one, each float array holds reals only and each label is below ten (signed). -/
theorem decode (a0 : FVec Ideal S8x262144x10 .f32) (a1 : FVec Ideal S8x262144x7 .f32) (a2 : FVec Ideal S8x128x7 .f32)
    (a3 : IVec S8x128 32) (a4 : FVec Ideal S8x128 .f32) (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ j, (a3 j).toInt < 10) := by
  have h0 := congrFun h ix0
  dsimp only [fn, fn_part1] at h0
  obtain ⟨h1, hlab⟩ := IntOp.andi_eq_one.1 h0
  obtain ⟨h2, hm⟩ := IntOp.andi_eq_one.1 h1
  obtain ⟨h3, hg⟩ := IntOp.andi_eq_one.1 h2
  obtain ⟨hz, hp⟩ := IntOp.andi_eq_one.1 h3
  refine ⟨fun i => ?_, fun i => ?_, fun i => ?_, fun i => ?_, fun j => ?_⟩
  · have e := Host.reduce_andi_all _ _ _ _ _ hz i
    simp only [cmpf, Host.absf, broadcastInDim, constant] at e
    exact real_of_abs_lt (a0 i) e
  · have e := Host.reduce_andi_all _ _ _ _ _ hp i
    simp only [cmpf, Host.absf, broadcastInDim, constant] at e
    exact real_of_abs_lt (a1 i) e
  · have e := Host.reduce_andi_all _ _ _ _ _ hg i
    simp only [cmpf, Host.absf, broadcastInDim, constant] at e
    exact real_of_abs_lt (a2 i) e
  · have e := Host.reduce_andi_all _ _ _ _ _ hm i
    simp only [cmpf, Host.absf, broadcastInDim, constant] at e
    exact real_of_abs_lt (a4 i) e
  · have e := IntOp.cmpi_slt.1 (Host.reduce_andi_all _ _ _ _ _ hlab j)
    simp only [broadcastInDim, constantI] at e
    exact e

end Cert.PreFacts

end
-- ==== Proof.KIValue.lean ====
/-
  The kernel program's three results are the reference's, over the extended reals, for finite inputs and labels below ten.

  What the lines after the region compute is the stack [cls + box, cls, box] with
    cls = (sum of the region's output - sum over winning boxes of the logit at their (cell, label)) / 2^21,
    box = (sum over winning boxes of their smooth-L1 against the prediction at their cell) / (number of winners + 1e-6).
  The reference scatters a one at each valid box's (cell, label), its box at its cell (a later box of the same cell
  overwriting an earlier one) and a one at its cell, and sums over every cell. A valid box is a WINNER when no later valid
  box shares its key (its cell for the box loss, its cell and label for the class loss): the scattered arrays are zero
  off the winners' keys and hold the winner's data on them, so each sum over all cells is the sum over the winners.
  The region's output sums to the sum over every logit of max(z, 0) + log(1 + exp(-|z|)), the part of the
  cross-entropy that does not depend on the targets; the remaining part, minus z times the target, is minus the sum of
  the winners' logits.
-/
import proofs.«402323_j60327110639965_2_alg».proof.Defs
import proofs.«402323_j60327110639965_2_alg».proof.Proof.Gen.Pre_finite_inputs
import proofs.«402323_j60327110639965_2_alg».proof.Proof.KIFrame
import proofs.«402323_j60327110639965_2_alg».proof.Proof.KIHost
import proofs.«402323_j60327110639965_2_alg».proof.Proof.KIHostPre
import proofs.«402323_j60327110639965_2_alg».proof.Proof.KIRead
import proofs.«402323_j60327110639965_2_alg».proof.Proof.KISum
import proofs.«402323_j60327110639965_2_alg».proof.Proof.KIPayload
import proofs.«402323_j60327110639965_2_alg».proof.Proof.RefRead
import proofs.«402323_j60327110639965_2_alg».proof.Proof.Bridge
import proofs.«402323_j60327110639965_2_alg».proof.Proof.PreFacts
import proofs.«402323_j60327110639965_2_alg».proof.Proof.LibLastWins
import proofs.«402323_j60327110639965_2_alg».proof.Proof.LibERealSums

noncomputable section

namespace Cert.KernelIdeal.Hand

open Cert.KernelIdeal Cert.KernelIdeal.Gen
open Idealize.ShloMosaic Idealize.ShloMosaic.TcCoe Idealize.ShloMosaic.ValueIdx Idealize.SL.Sem
open LastWins ERealSums
open Cert.ReferenceIdeal.Hand (isValid cellOf lblOf cellW lblW vldW cellW_lt lblW_lt lblOf_val clsTargets_apply regMask_apply boxTargets_winner)

/-- Being the last valid index of one's key depends on the key only through which indices share a key. -/
theorem isWinner_key_congr {N : ℕ} {K K' : Type*} {valid : Fin N → Prop} {key : Fin N → K} {key' : Fin N → K'}
    (h : ∀ a b, key a = key b ↔ key' a = key' b) (n : Fin N) : IsWinner valid key n ↔ IsWinner valid key' n := by
  unfold IsWinner
  constructor
  · rintro ⟨hv, hm⟩; exact ⟨hv, fun a ha e => hm a ha ((h a n).2 e)⟩
  · rintro ⟨hv, hm⟩; exact ⟨hv, fun a ha e => hm a ha ((h a n).1 e)⟩

variable (m : (ℓ : Loc nD τ sig) → Buf (Elt Ideal) ℓ)

/-- The contents after the kernel program's last line, at its result, are the reference's three results of the launch
    contents of the five inputs. -/
theorem kernel_value (hpre : Cert.Pre_KernelIdeal m) (c : Dev nD) :
    Pipeline.afterTail₀ cfgs (dats m) 0 (V0 m) tailOps c main_v134
      = Cert.ReferenceIdeal.ReadP.val_main_v128 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  obtain ⟨h0, -, -, -, hlab⟩ := Cert.PreFacts.decode _ _ _ _ _ (hpre c)
  generalize hx0 : m ((c.tc : Thread nD τ).loc main_arg0) = x0 at h0
  generalize hx1 : m ((c.tc : Thread nD τ).loc main_arg1) = x1
  generalize hx2 : m ((c.tc : Thread nD τ).loc main_arg2) = x2
  generalize hx3 : m ((c.tc : Thread nD τ).loc main_arg3) = x3 at hlab
  generalize hx4 : m ((c.tc : Thread nD τ).loc main_arg4) = x4
  have hcell : ∀ j, (cellW x2 j).toNat < 262144 := cellW_lt x2
  have hlbl : ∀ j, (lblW x3 j).toNat < 10 := lblW_lt x3 hlab
  -- the keys as words and as numbers agree on which boxes share a key
  have hkeyB : ∀ (b : Fin 8) (a a' : Fin 128), cellW x2 (ix2 b a) = cellW x2 (ix2 b a') ↔ cellOf x2 b a = cellOf x2 b a' := by
    intro b a a'
    constructor
    · intro e
      apply Fin.ext
      show (cellW x2 (ix2 b a)).toNat = (cellW x2 (ix2 b a')).toNat
      rw [e]
    · intro e
      have h : (cellOf x2 b a).val = (cellOf x2 b a').val := congrArg Fin.val e
      exact BitVec.eq_of_toNat_eq h
  have hkeyC : ∀ (b : Fin 8) (a a' : Fin 128),
      (cellW x2 (ix2 b a), lblW x3 (ix2 b a)) = (cellW x2 (ix2 b a'), lblW x3 (ix2 b a'))
        ↔ (cellOf x2 b a, lblOf x3 b a) = (cellOf x2 b a', lblOf x3 b a') := by
    intro b a a'
    simp only [Prod.mk.injEq]
    refine and_congr (hkeyB b a a') ?_
    constructor
    · intro e
      apply Fin.ext
      rw [lblOf_val x3 hlab, lblOf_val x3 hlab, e]
    · intro e
      have h : (lblOf x3 b a).val = (lblOf x3 b a').val := congrArg Fin.val e
      rw [lblOf_val x3 hlab, lblOf_val x3 hlab] at h
      exact BitVec.eq_of_toNat_eq h
  rw [tail_value, V_v38, V_v66, V_v63, V_v36, V_v20, V_v35, hx0, hx1, hx2, hx3, hx4]
  rw [Cert.Bridge.cls_eq x0 x2 x3 x4 _ _ _ _ (isValid x2 x3 x4) (cellOf x2) (lblOf x3) h0
      (fun x hx => Cert.KernelIdeal.Payload.bceR_isReal x hx)
      (clsTargets_apply x2 x3 x4 hlab)
      (fun b n => by
        rw [Cert.KernelIdeal.StageRead.zAt_apply x0 (cellW x2) (lblW x3) hcell hlbl b n]
        exact congrArg (fun l => x0 (ix3 b (cellOf x2 b n) l)) (Fin.ext (lblOf_val x3 hlab b n).symm))
      (fun b n => (Cert.KernelIdeal.StageRead.winCls_bit (vldW x2 x3 x4) (cellW x2) (lblW x3) b n).trans
        (isWinner_key_congr (hkeyC b) n))
      (by have := out_sum m c; rw [outE_eq, logitsE_eq, hx0] at this; exact this),
    Cert.Bridge.box_eq x1 x2 x3 x4 _ _ (isValid x2 x3 x4) (cellOf x2)
      (boxTargets_winner x2 x3 x4) (regMask_apply x2 x3 x4)
      (fun b n d => Cert.KernelIdeal.StageRead.pAt_apply x1 (cellW x2) hcell b n d)
      (fun b n => (Cert.KernelIdeal.StageRead.winBox_bit (vldW x2 x3 x4) (cellW x2) b n).trans
        (isWinner_key_congr (hkeyB b) n))]
  exact Cert.Bridge.res_eq x0 x1 x2 x3 x4

end Cert.KernelIdeal.Hand

end
-- ==== Proof.lean ====
/-
  The bird's-eye-view detection loss, computed two ways, is one function of its inputs over the extended reals.

  The reference scatters each valid ground-truth box into dense target arrays over all 8 x 262144 cells — a one at
  its (cell, label) for the class targets, its seven parameters at its cell for the box targets (of several boxes of one
  cell the last stays), a one at its cell for the regression mask — and then sums a binary cross-entropy over every
  logit and a masked smooth-L1 over every cell. The kernel never builds the targets: for a target t in {0, 1},
  bce(z, t) = (max(z, 0) + log(1 + exp(-|z|))) - z t, so the class loss is the sum of the first part over every logit
  (computed by the region: per-block column sums of the logits reshaped to 163840 x 128) less the logits at the
  scattered ones; and the scattered ones, the box targets and the mask are nonzero only at the cells of the WINNING
  boxes (a valid box no later valid box of which shares its cell, resp. its cell and label), so both corrections are
  sums over at most 128 winners per batch, read by gathers. Both programs divide the same sums by the same constants.

  The labels index an axis of extent ten: the reference drops a scattered one whose label is ten or more, while a
  gather clamps such a label to nine, so the claim is stated for labels below ten (negative labels both programs treat
  as invalid). Finiteness of the logits is what lets the sum over all logits of (a - z t) + l be split as a sum less a sum.

  The three frames: the two kernel programs' by the launch of their one region between the host lines before and after
  it; the reference's by its run.
-/
import proofs.«402323_j60327110639965_2_alg».proof.Defs
import proofs.«402323_j60327110639965_2_alg».proof.Proof.Gen.Kernel
import proofs.«402323_j60327110639965_2_alg».proof.Proof.Gen.KernelIdeal
import proofs.«402323_j60327110639965_2_alg».proof.Proof.Gen.ReferenceIdeal
import proofs.«402323_j60327110639965_2_alg».proof.Proof.Gen.Pre_finite_inputs
import proofs.«402323_j60327110639965_2_alg».proof.Proof.RefRunP
import proofs.«402323_j60327110639965_2_alg».proof.Proof.RefReadP
import proofs.«402323_j60327110639965_2_alg».proof.Proof.KFrame
import proofs.«402323_j60327110639965_2_alg».proof.Proof.KIFrame
import proofs.«402323_j60327110639965_2_alg».proof.Proof.KIRun
import proofs.«402323_j60327110639965_2_alg».proof.Proof.KIValue
import Idealize.ShloMosaic.Adequacy
import Idealize.ShloMosaic.Init

noncomputable section

namespace Cert.Proof

open Idealize.ShloMosaic Idealize.SL.Sem

/-- The word-level kernel program runs to the end and leaves its five inputs as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the reference's three results of the shared inputs. -/
theorem algebraic : Cert.algebraic_KernelIdeal_ReferenceIdeal := by
  intro m ρ m' ρ' hpre hagree
  refine ⟨fun c => Cert.ReferenceIdeal.ReadP.val_main_v128 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_result m ρ _ (Cert.KernelIdeal.Hand.kernel_value m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v128_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
